-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16x128x128 : Shape := ⟨4, ![128, 16, 128, 128]⟩
abbrev S128x16 : Shape := ⟨2, ![128, 16]⟩
abbrev S128x16x1 : Shape := ⟨3, ![128, 16, 1]⟩
abbrev S128x32 : Shape := ⟨2, ![128, 32]⟩
abbrev S_ : Shape := ⟨0, ![]⟩

class Facts : Prop where
  bcast_S_S128x16x128x128 : S_.BroadcastsInDim S128x16x128x128 (![] : Fin 0 → Fin S128x16x128x128.rank)
  reducesTo_S128x16x128x128_S_d0_1_2_3 : S128x16x128x128.ReducesTo [0, 1, 2, 3] S_
  h_S_ : 0 < S_.numel
  bcast_S_S128x16x1 : S_.BroadcastsInDim S128x16x1 (![] : Fin 0 → Fin S128x16x1.rank)
  reducesTo_S128x16x1_S_d0_1_2 : S128x16x1.ReducesTo [0, 1, 2] S_
  bcast_S_S128x32 : S_.BroadcastsInDim S128x32 (![] : Fin 0 → Fin S128x32.rank)
  reducesTo_S128x32_S_d0_1 : S128x32.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_arg2 : IVec S128x16 32) (main_v13 : IVec S_ 1) (main_v15 : IVec S128x16 1) (main_c_5 : IVec S_ 1) : IVec S_ 1 :=
  let main_v16 : IVec S_ 1 := (fun x v => Host.reduce IntOp.andi x v reducesTo_S128x16_S_d0_1 h_S_) main_v15 main_c_5
  let main_v17 : IVec S_ 1 := andi main_v13 main_v16
  let main_c_6 : IVec S_ 32 := constantI S_ 32 262144#32
  let main_v18 : IVec S128x16 32 := broadcastInDim S128x16 ![] bcast_S_S128x16 main_c_6
  let main_v19 : IVec S128x16 1 := cmpi .slt main_arg2 main_v18
  let main_c_7 : IVec S_ 1 := constantI S_ 1 1#1
  let main_v20 : IVec S_ 1 := (fun x v => Host.reduce IntOp.andi x v reducesTo_S128x16_S_d0_1 h_S_) main_v19 main_c_7
  let main_v21 : IVec S_ 1 := andi main_v17 main_v20
  main_v21

def fn {F : FTy → Type} [FloatOps F] (main_arg0 : FVec F S128x16x128x128 .f32) (main_arg1 : IVec S128x16 32) (main_arg2 : IVec S128x16 32) (main_arg3 : FVec F S128x16x1 .f32) (main_arg4 : FVec F S128x32 .f32) : IVec S_ 1 :=
  let main_v0 : FVec F S128x16x128x128 .f32 := Host.absf main_arg0
  let main_cst : FVec F S_ .f32 := constant S_ .f32 0x7F800000#32
  let main_v1 : FVec F S128x16x128x128 .f32 := broadcastInDim S128x16x128x128 ![] bcast_S_S128x16x128x128 main_cst
  let main_v2 : IVec S128x16x128x128 1 := cmpf .olt main_v0 main_v1
  let main_c : IVec S_ 1 := constantI S_ 1 1#1
  let main_v3 : IVec S_ 1 := (fun x v => Host.reduce IntOp.andi x v reducesTo_S128x16x128x128_S_d0_1_2_3 h_S_) main_v2 main_c
  let main_v4 : FVec F S128x16x1 .f32 := Host.absf main_arg3
  let main_cst_0 : FVec F S_ .f32 := constant S_ .f32 0x7F800000#32
  let main_v5 : FVec F S128x16x1 .f32 := broadcastInDim S128x16x1 ![] bcast_S_S128x16x1 main_cst_0
  let main_v6 : IVec S128x16x1 1 := cmpf .olt main_v4 main_v5
  let main_c_1 : IVec S_ 1 := constantI S_ 1 1#1
  let main_v7 : IVec S_ 1 := (fun x v => Host.reduce IntOp.andi x v reducesTo_S128x16x1_S_d0_1_2 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_c_4 : IVec S_ 32 := constantI S_ 32 0#32
  let main_v14 : IVec S128x16 32 := broadcastInDim S128x16 ![] bcast_S_S128x16 main_c_4
  let main_v15 : IVec S128x16 1 := cmpi .sge main_arg2 main_v14
  let main_c_5 : IVec S_ 1 := constantI S_ 1 1#1
  fn_part1 (F := F) main_arg2 main_v13 main_v15 main_c_5
-- ==== Kernel.lean ====
abbrev S128x16x128x128 : Shape := ⟨4, ![128, 16, 128, 128]⟩
abbrev S128x16 : Shape := ⟨2, ![128, 16]⟩
abbrev S128x16x1 : Shape := ⟨3, ![128, 16, 1]⟩
abbrev S128x32 : Shape := ⟨2, ![128, 32]⟩
abbrev S12 : Shape := ⟨1, ![12]⟩
abbrev S8x16x128x128 : Shape := ⟨4, ![8, 16, 128, 128]⟩
abbrev S8x16 : Shape := ⟨2, ![8, 16]⟩
abbrev S16x128x128 : Shape := ⟨3, ![16, 128, 128]⟩
abbrev S8x1 : Shape := ⟨2, ![8, 1]⟩
abbrev S8 : Shape := ⟨1, ![8]⟩
abbrev S8x1x1x1 : Shape := ⟨4, ![8, 1, 1, 1]⟩
abbrev S1x16x128x128 : Shape := ⟨4, ![1, 16, 128, 128]⟩
abbrev S8x16x128 : Shape := ⟨3, ![8, 16, 128]⟩
abbrev S_ : Shape := ⟨0, ![]⟩
abbrev S128x16x2 : Shape := ⟨3, ![128, 16, 2]⟩
abbrev S12x1 : Shape := ⟨2, ![12, 1]⟩
abbrev S128x12 : Shape := ⟨2, ![128, 12]⟩
abbrev S128x12x2 : Shape := ⟨3, ![128, 12, 2]⟩
abbrev S1x12 : Shape := ⟨2, ![1, 12]⟩
abbrev S4 : Shape := ⟨1, ![4]⟩
abbrev S1x4 : Shape := ⟨2, ![1, 4]⟩
abbrev S12x4 : Shape := ⟨2, ![12, 4]⟩
abbrev S128x4 : Shape := ⟨2, ![128, 4]⟩
abbrev S128 : Shape := ⟨1, ![128]⟩

abbrev nBuf : Space → Nat
  | .hbm => 191
  | .vmem => 6
  | .smem => 0
  | _ => 0

abbrev hbmTy0_0 (i : Nat) : BufTy := match i % 128 with
  | 0 => ⟨S128x16x128x128, .f32⟩
  | 1 => ⟨S128x16, .i32⟩
  | 2 => ⟨S128x16, .i32⟩
  | 3 => ⟨S128x16x1, .f32⟩
  | 4 => ⟨S128x32, .f32⟩
  | 5 => ⟨S12, .i32⟩
  | 6 => ⟨S12, .i32⟩
  | 7 => ⟨S12, .i32⟩
  | 8 => ⟨S12, .f32⟩
  | 9 => ⟨S128x16, .f32⟩
  | 10 => ⟨S128x16x1, .f32⟩
  | 11 => ⟨S128x16, .f32⟩
  | 12 => ⟨S_, .f32⟩
  | 13 => ⟨S_, .f32⟩
  | 14 => ⟨S128x16, .f32⟩
  | 15 => ⟨S128x16x1, .f32⟩
  | 16 => ⟨S128x16x1, .f32⟩
  | 17 => ⟨S128x16x1, .f32⟩
  | 18 => ⟨S128x16x1, .f32⟩
  | 19 => ⟨S128x16x1, .f32⟩
  | 20 => ⟨S_, .f32⟩
  | 21 => ⟨S128x16x1, .f32⟩
  | 22 => ⟨S128x16x1, .i1⟩
  | 23 => ⟨S_, .f32⟩
  | 24 => ⟨S128x16x1, .f32⟩
  | 25 => ⟨S128x16x1, .f32⟩
  | 26 => ⟨S128x16x1, .f32⟩
  | 27 => ⟨S_, .f32⟩
  | 28 => ⟨S128x16x1, .f32⟩
  | 29 => ⟨S128x16x1, .f32⟩
  | 30 => ⟨S128x16x1, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S128x16x2, .f32⟩
  | 41 => ⟨S128x16, .f32⟩
  | 42 => ⟨S128x16, .f32⟩
  | 43 => ⟨S_, .i32⟩
  | 44 => ⟨S12, .i32⟩
  | 45 => ⟨S12, .i1⟩
  | 46 => ⟨S_, .i32⟩
  | 47 => ⟨S12, .i32⟩
  | 48 => ⟨S12, .i32⟩
  | 49 => ⟨S12, .i32⟩
  | 50 => ⟨S12x1, .i32⟩
  | 51 => ⟨S128x12, .f32⟩
  | 52 => ⟨S_, .f32⟩
  | 53 => ⟨S128x12, .f32⟩
  | 54 => ⟨S128x12, .i1⟩
  | 55 => ⟨S_, .i32⟩
  | 56 => ⟨S12, .i32⟩
  | 57 => ⟨S12, .i1⟩
  | 58 => ⟨S_, .i32⟩
  | 59 => ⟨S12, .i32⟩
  | 60 => ⟨S12, .i32⟩
  | 61 => ⟨S12, .i32⟩
  | 62 => ⟨S12x1, .i32⟩
  | 63 => ⟨S128x12, .f32⟩
  | 64 => ⟨S_, .f32⟩
  | 65 => ⟨S128x12, .f32⟩
  | 66 => ⟨S128x12, .i1⟩
  | 67 => ⟨S128x12, .i1⟩
  | 68 => ⟨S_, .i32⟩
  | 69 => ⟨S12, .i32⟩
  | 70 => ⟨S12, .i1⟩
  | 71 => ⟨S_, .i32⟩
  | 72 => ⟨S12, .i32⟩
  | 73 => ⟨S12, .i32⟩
  | 74 => ⟨S12, .i32⟩
  | 75 => ⟨S12x1, .i32⟩
  | 76 => ⟨S128x12x2, .f32⟩
  | 77 => ⟨S_, .i32⟩
  | 78 => ⟨S12, .i32⟩
  | 79 => ⟨S12, .i1⟩
  | 80 => ⟨S_, .i32⟩
  | 81 => ⟨S12, .i32⟩
  | 82 => ⟨S12, .i32⟩
  | 83 => ⟨S12, .i32⟩
  | 84 => ⟨S12x1, .i32⟩
  | 85 => ⟨S128x12x2, .f32⟩
  | 86 => ⟨S128x12x2, .f32⟩
  | 87 => ⟨S128x12x2, .f32⟩
  | 88 => ⟨S_, .f32⟩
  | 89 => ⟨S128x12, .f32⟩
  | 90 => ⟨S_, .i32⟩
  | 91 => ⟨S12, .i32⟩
  | 92 => ⟨S12, .i1⟩
  | 93 => ⟨S_, .i32⟩
  | 94 => ⟨S12, .i32⟩
  | 95 => ⟨S12, .i32⟩
  | 96 => ⟨S12, .i32⟩
  | 97 => ⟨S12x1, .i32⟩
  | 98 => ⟨S128x12, .f32⟩
  | 99 => ⟨S_, .i32⟩
  | 100 => ⟨S12, .i32⟩
  | 101 => ⟨S12, .i1⟩
  | 102 => ⟨S_, .i32⟩
  | 103 => ⟨S12, .i32⟩
  | 104 => ⟨S12, .i32⟩
  | 105 => ⟨S12, .i32⟩
  | 106 => ⟨S12x1, .i32⟩
  | 107 => ⟨S128x12, .f32⟩
  | 108 => ⟨S128x12, .f32⟩
  | 109 => ⟨S128x12, .f32⟩
  | 110 => ⟨S128x12, .f32⟩
  | 111 => ⟨S_, .f32⟩
  | 112 => ⟨S_, .f32⟩
  | 113 => ⟨S128x12, .f32⟩
  | 114 => ⟨S128x12, .f32⟩
  | 115 => ⟨S128x12, .f32⟩
  | 116 => ⟨S1x12, .f32⟩
  | 117 => ⟨S128x12, .f32⟩
  | 118 => ⟨S128x12, .f32⟩
  | 119 => ⟨S_, .f32⟩
  | 120 => ⟨S_, .f32⟩
  | 121 => ⟨S128x12, .f32⟩
  | 122 => ⟨S128x12, .f32⟩
  | 123 => ⟨S12x1, .i32⟩
  | 124 => ⟨S4, .i32⟩
  | 125 => ⟨S1x4, .i32⟩
  | 126 => ⟨S12x4, .i32⟩
  | 127 => ⟨S12x4, .i32⟩
  | _ => ⟨S128x16x128x128, .f32⟩

abbrev hbmTy0_1 (i : Nat) : BufTy := match i % 128 with
  | 0 => ⟨S12x4, .i1⟩
  | 1 => ⟨S12x4, .f32⟩
  | 2 => ⟨S128x12, .f32⟩
  | 3 => ⟨S128x4, .f32⟩
  | 4 => ⟨S128x4, .f32⟩
  | 5 => ⟨S_, .f32⟩
  | 6 => ⟨S128x4, .f32⟩
  | 7 => ⟨S128x4, .i1⟩
  | 8 => ⟨S_, .f32⟩
  | 9 => ⟨S128x4, .f32⟩
  | 10 => ⟨S128x4, .f32⟩
  | 11 => ⟨S128x4, .f32⟩
  | 12 => ⟨S_, .f32⟩
  | 13 => ⟨S_, .f32⟩
  | 14 => ⟨S128x4, .f32⟩
  | 15 => ⟨S128x4, .f32⟩
  | 16 => ⟨S_, .i32⟩
  | 17 => ⟨S12, .i32⟩
  | 18 => ⟨S12, .i1⟩
  | 19 => ⟨S_, .i32⟩
  | 20 => ⟨S12, .i32⟩
  | 21 => ⟨S12, .i32⟩
  | 22 => ⟨S12, .i32⟩
  | 23 => ⟨S12x1, .i32⟩
  | 24 => ⟨S128x12, .f32⟩
  | 25 => ⟨S_, .i32⟩
  | 26 => ⟨S12, .i32⟩
  | 27 => ⟨S12, .i1⟩
  | 28 => ⟨S_, .i32⟩
  | 29 => ⟨S12, .i32⟩
  | 30 => ⟨S12, .i32⟩
  | 31 => ⟨S12, .i32⟩
  | 32 => ⟨S12x1, .i32⟩
  | 33 => ⟨S128x12, .f32⟩
  | 34 => ⟨S_, .f32⟩
  | 35 => ⟨S128x12, .f32⟩
  | 36 => ⟨S128x12, .f32⟩
  | 37 => ⟨S128x12, .f32⟩
  | 38 => ⟨S128x12, .f32⟩
  | 39 => ⟨S_, .f32⟩
  | 40 => ⟨S128x12, .f32⟩
  | 41 => ⟨S128x12, .f32⟩
  | 42 => ⟨S128x12, .f32⟩
  | 43 => ⟨S_, .f32⟩
  | 44 => ⟨S_, .f32⟩
  | 45 => ⟨S128x12, .f32⟩
  | 46 => ⟨S128x12, .f32⟩
  | 47 => ⟨S_, .i32⟩
  | 48 => ⟨S128, .i32⟩
  | 49 => ⟨S_, .i32⟩
  | 50 => ⟨S128, .i32⟩
  | 51 => ⟨S128, .i1⟩
  | 52 => ⟨S128, .f32⟩
  | 53 => ⟨S_, .f32⟩
  | 54 => ⟨S128, .f32⟩
  | 55 => ⟨S128, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S128x16x128x128, .f32⟩

abbrev hbmTy (i : Nat) : BufTy := match i / 128 with
  | 0 => hbmTy0_0 i
  | 1 => hbmTy0_1 i
  | _ => ⟨S128x16x128x128, .f32⟩

abbrev bufTy : (tb : Table) → Fin (tcTables nBuf tb) → BufTy
  | .hbm, ⟨i, _⟩ => hbmTy i
  | .local _ .vmem, ⟨0, _⟩ => ⟨S8x16x128x128, .f32⟩
  | .local _ .vmem, ⟨1, _⟩ => ⟨S8x16x128x128, .f32⟩
  | .local _ .vmem, ⟨2, _⟩ => ⟨S8x16, .i32⟩
  | .local _ .vmem, ⟨3, _⟩ => ⟨S8x16, .i32⟩
  | .local _ .vmem, ⟨4, _⟩ => ⟨S8x16, .f32⟩
  | .local _ .vmem, ⟨5, _⟩ => ⟨S8x16, .f32⟩
  | _, _ => ⟨S128x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩
abbrev main_cst_9 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_10 : Ref sig .tc := ⟨.hbm, 43, rfl⟩
abbrev main_v26 : Ref sig .tc := ⟨.hbm, 44, rfl⟩
abbrev main_v27 : Ref sig .tc := ⟨.hbm, 45, rfl⟩
abbrev main_c_11 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_12 : Ref sig .tc := ⟨.hbm, 52, rfl⟩
abbrev main_v33 : Ref sig .tc := ⟨.hbm, 53, rfl⟩
abbrev main_v34 : Ref sig .tc := ⟨.hbm, 54, rfl⟩
abbrev main_c_13 : Ref sig .tc := ⟨.hbm, 55, rfl⟩
abbrev main_v35 : Ref sig .tc := ⟨.hbm, 56, rfl⟩
abbrev main_v36 : Ref sig .tc := ⟨.hbm, 57, rfl⟩
abbrev main_c_14 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_15 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_16 : Ref sig .tc := ⟨.hbm, 68, rfl⟩
abbrev main_v45 : Ref sig .tc := ⟨.hbm, 69, rfl⟩
abbrev main_v46 : Ref sig .tc := ⟨.hbm, 70, rfl⟩
abbrev main_c_17 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_18 : Ref sig .tc := ⟨.hbm, 77, rfl⟩
abbrev main_v52 : Ref sig .tc := ⟨.hbm, 78, rfl⟩
abbrev main_v53 : Ref sig .tc := ⟨.hbm, 79, rfl⟩
abbrev main_c_19 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_c_21 : Ref sig .tc := ⟨.hbm, 90, rfl⟩
abbrev main_v62 : Ref sig .tc := ⟨.hbm, 91, rfl⟩
abbrev main_v63 : Ref sig .tc := ⟨.hbm, 92, rfl⟩
abbrev main_c_22 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_23 : Ref sig .tc := ⟨.hbm, 99, rfl⟩
abbrev main_v69 : Ref sig .tc := ⟨.hbm, 100, rfl⟩
abbrev main_v70 : Ref sig .tc := ⟨.hbm, 101, rfl⟩
abbrev main_c_24 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_call1_v0 : Ref sig .tc := ⟨.hbm, 112, rfl⟩
abbrev main_call1_v1 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_26 : Ref sig .tc := ⟨.hbm, 119, rfl⟩
abbrev main_call2_v0 : Ref sig .tc := ⟨.hbm, 120, rfl⟩
abbrev main_call2_v1 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_27 : Ref sig .tc := ⟨.hbm, 133, rfl⟩
abbrev main_v95 : Ref sig .tc := ⟨.hbm, 134, rfl⟩
abbrev main_v96 : Ref sig .tc := ⟨.hbm, 135, rfl⟩
abbrev main_cst_28 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_29 : Ref sig .tc := ⟨.hbm, 140, rfl⟩
abbrev main_call3_v0 : Ref sig .tc := ⟨.hbm, 141, rfl⟩
abbrev main_call3_v1 : Ref sig .tc := ⟨.hbm, 142, rfl⟩
abbrev main_v100 : Ref sig .tc := ⟨.hbm, 143, rfl⟩
abbrev main_c_30 : Ref sig .tc := ⟨.hbm, 144, rfl⟩
abbrev main_v101 : Ref sig .tc := ⟨.hbm, 145, rfl⟩
abbrev main_v102 : Ref sig .tc := ⟨.hbm, 146, rfl⟩
abbrev main_c_31 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_32 : Ref sig .tc := ⟨.hbm, 153, rfl⟩
abbrev main_v108 : Ref sig .tc := ⟨.hbm, 154, rfl⟩
abbrev main_v109 : Ref sig .tc := ⟨.hbm, 155, rfl⟩
abbrev main_c_33 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_34 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_35 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_36 : Ref sig .tc := ⟨.hbm, 171, rfl⟩
abbrev main_call4_v0 : Ref sig .tc := ⟨.hbm, 172, rfl⟩
abbrev main_call4_v1 : Ref sig .tc := ⟨.hbm, 173, rfl⟩
abbrev main_v122 : Ref sig .tc := ⟨.hbm, 174, rfl⟩
abbrev main_c_37 : Ref sig .tc := ⟨.hbm, 175, rfl⟩
abbrev main_v123 : Ref sig .tc := ⟨.hbm, 176, rfl⟩
abbrev main_c_38 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_39 : Ref sig .tc := ⟨.hbm, 181, rfl⟩
abbrev main_v127 : Ref sig .tc := ⟨.hbm, 182, rfl⟩
abbrev main_v128 : Ref sig .tc := ⟨.hbm, 183, rfl⟩
abbrev main_cst_40 : Ref sig .tc := ⟨.hbm, 184, rfl⟩
abbrev main_v129 : Ref sig .tc := ⟨.hbm, 185, rfl⟩
abbrev main_cst_41 : Ref sig .tc := ⟨.hbm, 186, rfl⟩
abbrev main_v130 : Ref sig .tc := ⟨.hbm, 187, rfl⟩
abbrev main_cst_42 : Ref sig .tc := ⟨.hbm, 188, rfl⟩
abbrev main_v131 : Ref sig .tc := ⟨.hbm, 189, rfl⟩
abbrev main_v132 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S16x128x128_d0_w32 : S16x128x128.Iotas .tc 32 [0]
  iota_S16x128x128_d1_w32 : S16x128x128.Iotas .tc 32 [1]
  iota_S16x128x128_d2_w32 : S16x128x128.Iotas .tc 32 [2]
  inb_S8x16_S8x1_0_0 : ∀ a, (![0, 0] : Fin 2 → Nat) a + S8x1.size a ≤ S8x16.size a
  h_S8x1 : 0 < S8x1.numel
  shapeCasts_S8x1_S8 : S8x1.ShapeCasts S8
  shapeCasts_S8_S8x1x1x1 : S8.ShapeCasts S8x1x1x1
  shapeCasts_S16x128x128_S1x16x128x128 : S16x128x128.ShapeCasts S1x16x128x128
  broadcasts_S1x16x128x128_S8x16x128x128 : S1x16x128x128.Broadcasts S8x16x128x128
  broadcasts_S8x1x1x1_S8x16x128x128 : S8x1x1x1.Broadcasts S8x16x128x128
  inb_S8x16x128x128_S8x16x128x128_0_0_0_0 : ∀ a, (![0, 0, 0, 0] : Fin 4 → Nat) a + S8x16x128x128.size a ≤ S8x16x128x128.size a
  h_S8x16x128x128 : 0 < S8x16x128x128.numel
  reduces_S8x16x128x128_S8x16x128 : S8x16x128x128.Reduces [3] S8x16x128
  reduces_S8x16x128_S8x16 : S8x16x128.Reduces [2] S8x16
  reduces_S8x16_S8 : S8x16.Reduces [1] S8
  shapeCasts_S8_S8x1 : S8.ShapeCasts S8x1
  inb_S8x16_S8x1_0_1 : ∀ a, (![0, 1] : Fin 2 → Nat) a + S8x1.size a ≤ S8x16.size a
  inb_S8x16_S8x1_0_2 : ∀ a, (![0, 2] : Fin 2 → Nat) a + S8x1.size a ≤ S8x16.size a
  inb_S8x16_S8x1_0_3 : ∀ a, (![0, 3] : Fin 2 → Nat) a + S8x1.size a ≤ S8x16.size a
  inb_S8x16_S8x1_0_4 : ∀ a, (![0, 4] : Fin 2 → Nat) a + S8x1.size a ≤ S8x16.size a
  inb_S8x16_S8x1_0_5 : ∀ a, (![0, 5] : Fin 2 → Nat) a + S8x1.size a ≤ S8x16.size a
  inb_S8x16_S8x1_0_6 : ∀ a, (![0, 6] : Fin 2 → Nat) a + S8x1.size a ≤ S8x16.size a
  inb_S8x16_S8x1_0_7 : ∀ a, (![0, 7] : Fin 2 → Nat) a + S8x1.size a ≤ S8x16.size a
  inb_S8x16_S8x1_0_8 : ∀ a, (![0, 8] : Fin 2 → Nat) a + S8x1.size a ≤ S8x16.size a
  inb_S8x16_S8x1_0_9 : ∀ a, (![0, 9] : Fin 2 → Nat) a + S8x1.size a ≤ S8x16.size a
  inb_S8x16_S8x1_0_10 : ∀ a, (![0, 10] : Fin 2 → Nat) a + S8x1.size a ≤ S8x16.size a
  inb_S8x16_S8x1_0_11 : ∀ a, (![0, 11] : Fin 2 → Nat) a + S8x1.size a ≤ S8x16.size a
  inb_S8x16_S8x1_0_12 : ∀ a, (![0, 12] : Fin 2 → Nat) a + S8x1.size a ≤ S8x16.size a
  inb_S8x16_S8x1_0_13 : ∀ a, (![0, 13] : Fin 2 → Nat) a + S8x1.size a ≤ S8x16.size a
  inb_S8x16_S8x1_0_14 : ∀ a, (![0, 14] : Fin 2 → Nat) a + S8x1.size a ≤ S8x16.size a
  inb_S8x16_S8x1_0_15 : ∀ a, (![0, 15] : Fin 2 → Nat) a + S8x1.size a ≤ S8x16.size a
  bcast_S128x16_S128x16x1_0_1 : S128x16.BroadcastsInDim S128x16x1 (![0, 1] : Fin 2 → Fin S128x16x1.rank)
  reducesTo_S128x16_S_d0_1 : S128x16.ReducesTo [0, 1] S_
  h_S_ : 0 < S_.numel
  bcast_S_S128x16x1 : S_.BroadcastsInDim S128x16x1 (![] : Fin 0 → Fin S128x16x1.rank)
  reducesTo_S128x16x1_S_d0_1_2 : S128x16x1.ReducesTo [0, 1, 2] S_
  shapeCasts_S128x32_S128x16x2 : S128x32.ShapeCasts S128x16x2
  shapeCasts_S128x16x1_S128x16 : S128x16x1.ShapeCasts S128x16
  bcast_S_S12 : S_.BroadcastsInDim S12 (![] : Fin 0 → Fin S12.rank)
  bcast_S12_S12x1_0 : S12.BroadcastsInDim S12x1 (![0] : Fin 1 → Fin S12x1.rank)
  bcast_S_S128x12 : S_.BroadcastsInDim S128x12 (![] : Fin 0 → Fin S128x12.rank)
  reducesTo_S128x12x2_S128x12_d2 : S128x12x2.ReducesTo [2] S128x12
  bcast_S12_S1x12_1 : S12.BroadcastsInDim S1x12 (![1] : Fin 1 → Fin S1x12.rank)
  bcast_S1x12_S128x12_0_1 : S1x12.BroadcastsInDim S128x12 (![0, 1] : Fin 2 → Fin S128x12.rank)
  bcast_S4_S1x4_1 : S4.BroadcastsInDim S1x4 (![1] : Fin 1 → Fin S1x4.rank)
  bcast_S12x1_S12x4_0_1 : S12x1.BroadcastsInDim S12x4 (![0, 1] : Fin 2 → Fin S12x4.rank)
  bcast_S1x4_S12x4_0_1 : S1x4.BroadcastsInDim S12x4 (![0, 1] : Fin 2 → Fin S12x4.rank)
  bcast_S_S128x4 : S_.BroadcastsInDim S128x4 (![] : Fin 0 → Fin S128x4.rank)
  reducesTo_S128x16_S128_d1 : S128x16.ReducesTo [1] S128
  bcast_S_S128 : S_.BroadcastsInDim S128 (![] : Fin 0 → Fin S128.rank)
  reducesTo_S128x12_S128_d1 : S128x12.ReducesTo [1] S128
  reducesTo_S128_S_d0 : S128.ReducesTo [0] S_
  gather_S128x16_S12x1_S128x12_0_1_n_n_1_1_1281_wf : GatherDims.WF S128x16 S12x1 S128x12 [0] [1] [] [1] [] 1 ![128, 1]
  gather_S128x16x2_S12x1_S128x12x2_02_1_n_n_1_1_12812_wf : GatherDims.WF S128x16x2 S12x1 S128x12x2 [0, 2] [1] [] [1] [] 1 ![128, 1, 2]
  dot_S128x12_S12x4_S128x4_1_0_0_1_n_n_wf : DotDims.WF S128x12 S12x4 S128x4 [1] [0] [0] [1] [] []
  gather_S128x4_S12x1_S128x12_0_1_n_n_1_1_1281_wf : GatherDims.WF S128x4 S12x1 S128x12 [0] [1] [] [1] [] 1 ![128, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x128x128.size a ≤ S128x16x128x128.size a
  hwx0_0 : ∀ i : grid0.Coords, EltTy.bits .f32 = 32 ∨ (Rect.block (s := S128x16x128x128) S8x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S128x16.size a
  hwx0_1 : ∀ i : grid0.Coords, EltTy.bits .i32 = 32 ∨ (Rect.block (s := S128x16) S8x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S128x16.size a
  hwx0_2 : ∀ i : grid0.Coords, EltTy.bits .f32 = 32 ∨ (Rect.block (s := S128x16) S8x16.size (cc0_transform_2 i) (hinb0_2 i)).WholeWords (EltTy.packing .f32)

variable [Facts₀]

def gather_S128x16_S12x1_S128x12_0_1_n_n_1_1_1281 : GatherDims S128x16 S12x1 S128x12 where
  offsetDims := [0]
  collapsedSliceDims := [1]
  operandBatchingDims := []
  startIndicesBatchingDims := []
  startIndexMap := [1]
  indexVectorDim := 1
  sliceSizes := ![128, 1]
  wf := gather_S128x16_S12x1_S128x12_0_1_n_n_1_1_1281_wf
def gather_S128x16x2_S12x1_S128x12x2_02_1_n_n_1_1_12812 : GatherDims S128x16x2 S12x1 S128x12x2 where
  offsetDims := [0, 2]
  collapsedSliceDims := [1]
  operandBatchingDims := []
  startIndicesBatchingDims := []
  startIndexMap := [1]
  indexVectorDim := 1
  sliceSizes := ![128, 1, 2]
  wf := gather_S128x16x2_S12x1_S128x12x2_02_1_n_n_1_1_12812_wf
def dot_S128x12_S12x4_S128x4_1_0_0_1_n_n : DotDims S128x12 S12x4 S128x4 where
  lhsContracting := [1]
  rhsContracting := [0]
  lhsNonContracting := [0]
  rhsNonContracting := [1]
  lhsBatch := []
  rhsBatch := []
  wf := dot_S128x12_S12x4_S128x4_1_0_0_1_n_n_wf
def gather_S128x4_S12x1_S128x12_0_1_n_n_1_1_1281 : GatherDims S128x4 S12x1 S128x12 where
  offsetDims := [0]
  collapsedSliceDims := [1]
  operandBatchingDims := []
  startIndicesBatchingDims := []
  startIndexMap := [1]
  indexVectorDim := 1
  sliceSizes := ![128, 1]
  wf := gather_S128x4_S12x1_S128x12_0_1_n_n_1_1_1281_wf

abbrev win0_0 : Pipeline.Window sig grid0 :=
  Pipeline.Window.ofSpec (Memref.whole main_arg0) S8x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x16x128x128 : Shape := ⟨4, ![128, 16, 128, 128]⟩
abbrev S128x16 : Shape := ⟨2, ![128, 16]⟩
abbrev S128x16x1 : Shape := ⟨3, ![128, 16, 1]⟩
abbrev S128x32 : Shape := ⟨2, ![128, 32]⟩
abbrev S12 : Shape := ⟨1, ![12]⟩
abbrev S128x128x128x16 : Shape := ⟨4, ![128, 128, 128, 16]⟩
abbrev S128x262144 : Shape := ⟨2, ![128, 262144]⟩
abbrev S_ : Shape := ⟨0, ![]⟩
abbrev S1 : Shape := ⟨1, ![1]⟩
abbrev S1x1x1 : Shape := ⟨3, ![1, 1, 1]⟩
abbrev S128x16x2 : Shape := ⟨3, ![128, 16, 2]⟩
abbrev S12x1 : Shape := ⟨2, ![12, 1]⟩
abbrev S128x12 : Shape := ⟨2, ![128, 12]⟩
abbrev S128x12x2 : Shape := ⟨3, ![128, 12, 2]⟩
abbrev S1x12 : Shape := ⟨2, ![1, 12]⟩
abbrev S4 : Shape := ⟨1, ![4]⟩
abbrev S1x4 : Shape := ⟨2, ![1, 4]⟩
abbrev S12x4 : Shape := ⟨2, ![12, 4]⟩
abbrev S128x4 : Shape := ⟨2, ![128, 4]⟩
abbrev S128 : Shape := ⟨1, ![128]⟩

abbrev nBuf : Space → Nat
  | .hbm => 214
  | .vmem => 0
  | .smem => 0
  | _ => 0

abbrev hbmTy0_0 (i : Nat) : BufTy := match i % 128 with
  | 0 => ⟨S128x16x128x128, .f32⟩
  | 1 => ⟨S128x16, .i32⟩
  | 2 => ⟨S128x16, .i32⟩
  | 3 => ⟨S128x16x1, .f32⟩
  | 4 => ⟨S128x32, .f32⟩
  | 5 => ⟨S12, .i32⟩
  | 6 => ⟨S12, .i32⟩
  | 7 => ⟨S12, .i32⟩
  | 8 => ⟨S12, .f32⟩
  | 9 => ⟨S128x128x128x16, .f32⟩
  | 10 => ⟨S128x262144, .f32⟩
  | 11 => ⟨S_, .i32⟩
  | 12 => ⟨S128x16, .i32⟩
  | 13 => ⟨S128x16, .i1⟩
  | 14 => ⟨S_, .i32⟩
  | 15 => ⟨S128x16, .i32⟩
  | 16 => ⟨S128x16, .i32⟩
  | 17 => ⟨S128x16, .i32⟩
  | 18 => ⟨S128x16x1, .i32⟩
  | 19 => ⟨S1, .i32⟩
  | 20 => ⟨S_, .i32⟩
  | 21 => ⟨S128x16x1, .i32⟩
  | 22 => ⟨S128x16x1, .i1⟩
  | 23 => ⟨S1x1x1, .i32⟩
  | 24 => ⟨S128x16x1, .i32⟩
  | 25 => ⟨S128x16x1, .i1⟩
  | 26 => ⟨S128x16x1, .i1⟩
  | 27 => ⟨S_, .i1⟩
  | 28 => ⟨S128x16, .i1⟩
  | 29 => ⟨S128x16, .f32⟩
  | 30 => ⟨S_, .f32⟩
  | 31 => ⟨S128x16, .f32⟩
  | 32 => ⟨S128x16, .f32⟩
  | 33 => ⟨S128x16x1, .f32⟩
  | 34 => ⟨S128x16, .f32⟩
  | 35 => ⟨S_, .f32⟩
  | 36 => ⟨S_, .f32⟩
  | 37 => ⟨S128x16, .f32⟩
  | 38 => ⟨S128x16x1, .f32⟩
  | 39 => ⟨S128x16x1, .f32⟩
  | 40 => ⟨S128x16x1, .f32⟩
  | 41 => ⟨S128x16x1, .f32⟩
  | 42 => ⟨S128x16x1, .f32⟩
  | 43 => ⟨S_, .f32⟩
  | 44 => ⟨S128x16x1, .f32⟩
  | 45 => ⟨S128x16x1, .i1⟩
  | 46 => ⟨S_, .f32⟩
  | 47 => ⟨S128x16x1, .f32⟩
  | 48 => ⟨S128x16x1, .f32⟩
  | 49 => ⟨S128x16x1, .f32⟩
  | 50 => ⟨S_, .f32⟩
  | 51 => ⟨S128x16x1, .f32⟩
  | 52 => ⟨S128x16x1, .f32⟩
  | 53 => ⟨S128x16x1, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S128x16x2, .f32⟩
  | 64 => ⟨S128x16, .f32⟩
  | 65 => ⟨S128x16, .f32⟩
  | 66 => ⟨S_, .i32⟩
  | 67 => ⟨S12, .i32⟩
  | 68 => ⟨S12, .i1⟩
  | 69 => ⟨S_, .i32⟩
  | 70 => ⟨S12, .i32⟩
  | 71 => ⟨S12, .i32⟩
  | 72 => ⟨S12, .i32⟩
  | 73 => ⟨S12x1, .i32⟩
  | 74 => ⟨S128x12, .f32⟩
  | 75 => ⟨S_, .f32⟩
  | 76 => ⟨S128x12, .f32⟩
  | 77 => ⟨S128x12, .i1⟩
  | 78 => ⟨S_, .i32⟩
  | 79 => ⟨S12, .i32⟩
  | 80 => ⟨S12, .i1⟩
  | 81 => ⟨S_, .i32⟩
  | 82 => ⟨S12, .i32⟩
  | 83 => ⟨S12, .i32⟩
  | 84 => ⟨S12, .i32⟩
  | 85 => ⟨S12x1, .i32⟩
  | 86 => ⟨S128x12, .f32⟩
  | 87 => ⟨S_, .f32⟩
  | 88 => ⟨S128x12, .f32⟩
  | 89 => ⟨S128x12, .i1⟩
  | 90 => ⟨S128x12, .i1⟩
  | 91 => ⟨S_, .i32⟩
  | 92 => ⟨S12, .i32⟩
  | 93 => ⟨S12, .i1⟩
  | 94 => ⟨S_, .i32⟩
  | 95 => ⟨S12, .i32⟩
  | 96 => ⟨S12, .i32⟩
  | 97 => ⟨S12, .i32⟩
  | 98 => ⟨S12x1, .i32⟩
  | 99 => ⟨S128x12x2, .f32⟩
  | 100 => ⟨S_, .i32⟩
  | 101 => ⟨S12, .i32⟩
  | 102 => ⟨S12, .i1⟩
  | 103 => ⟨S_, .i32⟩
  | 104 => ⟨S12, .i32⟩
  | 105 => ⟨S12, .i32⟩
  | 106 => ⟨S12, .i32⟩
  | 107 => ⟨S12x1, .i32⟩
  | 108 => ⟨S128x12x2, .f32⟩
  | 109 => ⟨S128x12x2, .f32⟩
  | 110 => ⟨S128x12x2, .f32⟩
  | 111 => ⟨S_, .f32⟩
  | 112 => ⟨S128x12, .f32⟩
  | 113 => ⟨S_, .i32⟩
  | 114 => ⟨S12, .i32⟩
  | 115 => ⟨S12, .i1⟩
  | 116 => ⟨S_, .i32⟩
  | 117 => ⟨S12, .i32⟩
  | 118 => ⟨S12, .i32⟩
  | 119 => ⟨S12, .i32⟩
  | 120 => ⟨S12x1, .i32⟩
  | 121 => ⟨S128x12, .f32⟩
  | 122 => ⟨S_, .i32⟩
  | 123 => ⟨S12, .i32⟩
  | 124 => ⟨S12, .i1⟩
  | 125 => ⟨S_, .i32⟩
  | 126 => ⟨S12, .i32⟩
  | 127 => ⟨S12, .i32⟩
  | _ => ⟨S128x16x128x128, .f32⟩

abbrev hbmTy0_1 (i : Nat) : BufTy := match i % 128 with
  | 0 => ⟨S12, .i32⟩
  | 1 => ⟨S12x1, .i32⟩
  | 2 => ⟨S128x12, .f32⟩
  | 3 => ⟨S128x12, .f32⟩
  | 4 => ⟨S128x12, .f32⟩
  | 5 => ⟨S128x12, .f32⟩
  | 6 => ⟨S_, .f32⟩
  | 7 => ⟨S_, .f32⟩
  | 8 => ⟨S128x12, .f32⟩
  | 9 => ⟨S128x12, .f32⟩
  | 10 => ⟨S128x12, .f32⟩
  | 11 => ⟨S1x12, .f32⟩
  | 12 => ⟨S128x12, .f32⟩
  | 13 => ⟨S128x12, .f32⟩
  | 14 => ⟨S_, .f32⟩
  | 15 => ⟨S_, .f32⟩
  | 16 => ⟨S128x12, .f32⟩
  | 17 => ⟨S128x12, .f32⟩
  | 18 => ⟨S12x1, .i32⟩
  | 19 => ⟨S4, .i32⟩
  | 20 => ⟨S1x4, .i32⟩
  | 21 => ⟨S12x4, .i32⟩
  | 22 => ⟨S12x4, .i32⟩
  | 23 => ⟨S12x4, .i1⟩
  | 24 => ⟨S12x4, .f32⟩
  | 25 => ⟨S128x12, .f32⟩
  | 26 => ⟨S128x4, .f32⟩
  | 27 => ⟨S128x4, .f32⟩
  | 28 => ⟨S_, .f32⟩
  | 29 => ⟨S128x4, .f32⟩
  | 30 => ⟨S128x4, .i1⟩
  | 31 => ⟨S_, .f32⟩
  | 32 => ⟨S128x4, .f32⟩
  | 33 => ⟨S128x4, .f32⟩
  | 34 => ⟨S128x4, .f32⟩
  | 35 => ⟨S_, .f32⟩
  | 36 => ⟨S_, .f32⟩
  | 37 => ⟨S128x4, .f32⟩
  | 38 => ⟨S128x4, .f32⟩
  | 39 => ⟨S_, .i32⟩
  | 40 => ⟨S12, .i32⟩
  | 41 => ⟨S12, .i1⟩
  | 42 => ⟨S_, .i32⟩
  | 43 => ⟨S12, .i32⟩
  | 44 => ⟨S12, .i32⟩
  | 45 => ⟨S12, .i32⟩
  | 46 => ⟨S12x1, .i32⟩
  | 47 => ⟨S128x12, .f32⟩
  | 48 => ⟨S_, .i32⟩
  | 49 => ⟨S12, .i32⟩
  | 50 => ⟨S12, .i1⟩
  | 51 => ⟨S_, .i32⟩
  | 52 => ⟨S12, .i32⟩
  | 53 => ⟨S12, .i32⟩
  | 54 => ⟨S12, .i32⟩
  | 55 => ⟨S12x1, .i32⟩
  | 56 => ⟨S128x12, .f32⟩
  | 57 => ⟨S_, .f32⟩
  | 58 => ⟨S128x12, .f32⟩
  | 59 => ⟨S128x12, .f32⟩
  | 60 => ⟨S128x12, .f32⟩
  | 61 => ⟨S128x12, .f32⟩
  | 62 => ⟨S_, .f32⟩
  | 63 => ⟨S128x12, .f32⟩
  | 64 => ⟨S128x12, .f32⟩
  | 65 => ⟨S128x12, .f32⟩
  | 66 => ⟨S_, .f32⟩
  | 67 => ⟨S_, .f32⟩
  | 68 => ⟨S128x12, .f32⟩
  | 69 => ⟨S128x12, .f32⟩
  | 70 => ⟨S_, .i32⟩
  | 71 => ⟨S128, .i32⟩
  | 72 => ⟨S_, .i32⟩
  | 73 => ⟨S128, .i32⟩
  | 74 => ⟨S128, .i1⟩
  | 75 => ⟨S128, .f32⟩
  | 76 => ⟨S_, .f32⟩
  | 77 => ⟨S128, .f32⟩
  | 78 => ⟨S128, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S128x16x128x128, .f32⟩

abbrev hbmTy (i : Nat) : BufTy := match i / 128 with
  | 0 => hbmTy0_0 i
  | 1 => hbmTy0_1 i
  | _ => ⟨S128x16x128x128, .f32⟩

abbrev bufTy : (tb : Table) → Fin (tcTables nBuf tb) → BufTy
  | .hbm, ⟨i, _⟩ => hbmTy i
  | _, _ => ⟨S128x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_2 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_v12 : Ref sig .tc := ⟨.hbm, 44, rfl⟩
abbrev main_v13 : Ref sig .tc := ⟨.hbm, 45, rfl⟩
abbrev main_cst_4 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_5 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_6 : Ref sig .tc := ⟨.hbm, 54, rfl⟩
abbrev main_v20 : Ref sig .tc := ⟨.hbm, 55, rfl⟩
abbrev main_cst_7 : Ref sig .tc := ⟨.hbm, 56, rfl⟩
abbrev main_v21 : Ref sig .tc := ⟨.hbm, 57, rfl⟩
abbrev main_v22 : Ref sig .tc := ⟨.hbm, 58, rfl⟩
abbrev main_cst_8 : Ref sig .tc := ⟨.hbm, 59, rfl⟩
abbrev main_v23 : Ref sig .tc := ⟨.hbm, 60, rfl⟩
abbrev main_cst_9 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_c_10 : Ref sig .tc := ⟨.hbm, 66, rfl⟩
abbrev main_v28 : Ref sig .tc := ⟨.hbm, 67, rfl⟩
abbrev main_v29 : Ref sig .tc := ⟨.hbm, 68, rfl⟩
abbrev main_c_11 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_12 : Ref sig .tc := ⟨.hbm, 75, rfl⟩
abbrev main_v35 : Ref sig .tc := ⟨.hbm, 76, rfl⟩
abbrev main_v36 : Ref sig .tc := ⟨.hbm, 77, rfl⟩
abbrev main_c_13 : Ref sig .tc := ⟨.hbm, 78, rfl⟩
abbrev main_v37 : Ref sig .tc := ⟨.hbm, 79, rfl⟩
abbrev main_v38 : Ref sig .tc := ⟨.hbm, 80, rfl⟩
abbrev main_c_14 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_15 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_16 : Ref sig .tc := ⟨.hbm, 91, rfl⟩
abbrev main_v47 : Ref sig .tc := ⟨.hbm, 92, rfl⟩
abbrev main_v48 : Ref sig .tc := ⟨.hbm, 93, rfl⟩
abbrev main_c_17 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_18 : Ref sig .tc := ⟨.hbm, 100, rfl⟩
abbrev main_v54 : Ref sig .tc := ⟨.hbm, 101, rfl⟩
abbrev main_v55 : Ref sig .tc := ⟨.hbm, 102, rfl⟩
abbrev main_c_19 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_20 : Ref sig .tc := ⟨.hbm, 111, rfl⟩
abbrev main_v63 : Ref sig .tc := ⟨.hbm, 112, rfl⟩
abbrev main_c_21 : Ref sig .tc := ⟨.hbm, 113, rfl⟩
abbrev main_v64 : Ref sig .tc := ⟨.hbm, 114, rfl⟩
abbrev main_v65 : Ref sig .tc := ⟨.hbm, 115, rfl⟩
abbrev main_c_22 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_23 : Ref sig .tc := ⟨.hbm, 122, rfl⟩
abbrev main_v71 : Ref sig .tc := ⟨.hbm, 123, rfl⟩
abbrev main_v72 : Ref sig .tc := ⟨.hbm, 124, rfl⟩
abbrev main_c_24 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_25 : Ref sig .tc := ⟨.hbm, 134, rfl⟩
abbrev main_call2_v0 : Ref sig .tc := ⟨.hbm, 135, rfl⟩
abbrev main_call2_v1 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_26 : Ref sig .tc := ⟨.hbm, 142, rfl⟩
abbrev main_call3_v0 : Ref sig .tc := ⟨.hbm, 143, rfl⟩
abbrev main_call3_v1 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_27 : Ref sig .tc := ⟨.hbm, 156, rfl⟩
abbrev main_v97 : Ref sig .tc := ⟨.hbm, 157, rfl⟩
abbrev main_v98 : Ref sig .tc := ⟨.hbm, 158, rfl⟩
abbrev main_cst_28 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_29 : Ref sig .tc := ⟨.hbm, 163, rfl⟩
abbrev main_call4_v0 : Ref sig .tc := ⟨.hbm, 164, rfl⟩
abbrev main_call4_v1 : Ref sig .tc := ⟨.hbm, 165, rfl⟩
abbrev main_v102 : Ref sig .tc := ⟨.hbm, 166, rfl⟩
abbrev main_c_30 : Ref sig .tc := ⟨.hbm, 167, rfl⟩
abbrev main_v103 : Ref sig .tc := ⟨.hbm, 168, rfl⟩
abbrev main_v104 : Ref sig .tc := ⟨.hbm, 169, rfl⟩
abbrev main_c_31 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_32 : Ref sig .tc := ⟨.hbm, 176, rfl⟩
abbrev main_v110 : Ref sig .tc := ⟨.hbm, 177, rfl⟩
abbrev main_v111 : Ref sig .tc := ⟨.hbm, 178, rfl⟩
abbrev main_c_33 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_34 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_35 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_36 : Ref sig .tc := ⟨.hbm, 194, rfl⟩
abbrev main_call5_v0 : Ref sig .tc := ⟨.hbm, 195, rfl⟩
abbrev main_call5_v1 : Ref sig .tc := ⟨.hbm, 196, rfl⟩
abbrev main_v124 : Ref sig .tc := ⟨.hbm, 197, rfl⟩
abbrev main_c_37 : Ref sig .tc := ⟨.hbm, 198, rfl⟩
abbrev main_v125 : Ref sig .tc := ⟨.hbm, 199, rfl⟩
abbrev main_c_38 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_39 : Ref sig .tc := ⟨.hbm, 204, rfl⟩
abbrev main_v129 : Ref sig .tc := ⟨.hbm, 205, rfl⟩
abbrev main_v130 : Ref sig .tc := ⟨.hbm, 206, rfl⟩
abbrev main_cst_40 : Ref sig .tc := ⟨.hbm, 207, rfl⟩
abbrev main_v131 : Ref sig .tc := ⟨.hbm, 208, rfl⟩
abbrev main_cst_41 : Ref sig .tc := ⟨.hbm, 209, rfl⟩
abbrev main_v132 : Ref sig .tc := ⟨.hbm, 210, rfl⟩
abbrev main_cst_42 : Ref sig .tc := ⟨.hbm, 211, rfl⟩
abbrev main_v133 : Ref sig .tc := ⟨.hbm, 212, rfl⟩
abbrev main_v134 : Ref sig .tc := ⟨.hbm, 213, rfl⟩

abbrev nD : Nat := 1
abbrev τ : Topo := Topo.v7x

variable {F : FTy → Type} [FloatOps F]

class Facts₀ : Prop where
  transposes_S128x16x128x128_S128x128x128x16_0_2_3_1 : S128x16x128x128.Transposes [0, 2, 3, 1] S128x128x128x16
  shapeCasts_S128x128x128x16_S128x262144 : S128x128x128x16.ShapeCasts S128x262144
  bcast_S_S128x16 : S_.BroadcastsInDim S128x16 (![] : Fin 0 → Fin S128x16.rank)
  shapeCasts_S128x16_S128x16x1 : S128x16.ShapeCasts S128x16x1
  bcast_S_S128x16x1 : S_.BroadcastsInDim S128x16x1 (![] : Fin 0 → Fin S128x16x1.rank)
  bcast_S1_S1x1x1_2 : S1.BroadcastsInDim S1x1x1 (![2] : Fin 1 → Fin S1x1x1.rank)
  bcast_S1x1x1_S128x16x1_0_1_2 : S1x1x1.BroadcastsInDim S128x16x1 (![0, 1, 2] : Fin 3 → Fin S128x16x1.rank)
  reducesTo_S128x16x1_S128x16_d2 : S128x16x1.ReducesTo [2] S128x16
  h_S_ : 0 < S_.numel
  bcast_S128x16_S128x16x1_0_1 : S128x16.BroadcastsInDim S128x16x1 (![0, 1] : Fin 2 → Fin S128x16x1.rank)
  reducesTo_S128x16_S_d0_1 : S128x16.ReducesTo [0, 1] S_
  reducesTo_S128x16x1_S_d0_1_2 : S128x16x1.ReducesTo [0, 1, 2] S_
  shapeCasts_S128x32_S128x16x2 : S128x32.ShapeCasts S128x16x2
  shapeCasts_S128x16x1_S128x16 : S128x16x1.ShapeCasts S128x16
  bcast_S_S12 : S_.BroadcastsInDim S12 (![] : Fin 0 → Fin S12.rank)
  bcast_S12_S12x1_0 : S12.BroadcastsInDim S12x1 (![0] : Fin 1 → Fin S12x1.rank)
  bcast_S_S128x12 : S_.BroadcastsInDim S128x12 (![] : Fin 0 → Fin S128x12.rank)
  reducesTo_S128x12x2_S128x12_d2 : S128x12x2.ReducesTo [2] S128x12
  bcast_S12_S1x12_1 : S12.BroadcastsInDim S1x12 (![1] : Fin 1 → Fin S1x12.rank)
  bcast_S1x12_S128x12_0_1 : S1x12.BroadcastsInDim S128x12 (![0, 1] : Fin 2 → Fin S128x12.rank)
  bcast_S4_S1x4_1 : S4.BroadcastsInDim S1x4 (![1] : Fin 1 → Fin S1x4.rank)
  bcast_S12x1_S12x4_0_1 : S12x1.BroadcastsInDim S12x4 (![0, 1] : Fin 2 → Fin S12x4.rank)
  bcast_S1x4_S12x4_0_1 : S1x4.BroadcastsInDim S12x4 (![0, 1] : Fin 2 → Fin S12x4.rank)
  bcast_S_S128x4 : S_.BroadcastsInDim S128x4 (![] : Fin 0 → Fin S128x4.rank)
  reducesTo_S128x16_S128_d1 : S128x16.ReducesTo [1] S128
  bcast_S_S128 : S_.BroadcastsInDim S128 (![] : Fin 0 → Fin S128.rank)
  reducesTo_S128x12_S128_d1 : S128x12.ReducesTo [1] S128
  reducesTo_S128_S_d0 : S128.ReducesTo [0] S_
  gather_S128x262144_S128x16x1_S128x16_n_1_0_0_1_2_11_wf : GatherDims.WF S128x262144 S128x16x1 S128x16 [] [1] [0] [1] [0] 2 ![1, 1]
  gather_S128x16_S12x1_S128x12_0_1_n_n_1_1_1281_wf : GatherDims.WF S128x16 S12x1 S128x12 [0] [1] [] [1] [] 1 ![128, 1]
  gather_S128x16x2_S12x1_S128x12x2_02_1_n_n_1_1_12812_wf : GatherDims.WF S128x16x2 S12x1 S128x12x2 [0, 2] [1] [] [1] [] 1 ![128, 1, 2]
  dot_S128x12_S12x4_S128x4_1_0_0_1_n_n_wf : DotDims.WF S128x12 S12x4 S128x4 [1] [0] [0] [1] [] []
  gather_S128x4_S12x1_S128x12_0_1_n_n_1_1_1281_wf : GatherDims.WF S128x4 S12x1 S128x12 [0] [1] [] [1] [] 1 ![128, 1]

variable [Facts₀]

def gather_S128x262144_S128x16x1_S128x16_n_1_0_0_1_2_11 : GatherDims S128x262144 S128x16x1 S128x16 where
  offsetDims := []
  collapsedSliceDims := [1]
  operandBatchingDims := [0]
  startIndicesBatchingDims := [0]
  startIndexMap := [1]
  indexVectorDim := 2
  sliceSizes := ![1, 1]
  wf := gather_S128x262144_S128x16x1_S128x16_n_1_0_0_1_2_11_wf
def gather_S128x16_S12x1_S128x12_0_1_n_n_1_1_1281 : GatherDims S128x16 S12x1 S128x12 where
  offsetDims := [0]
  collapsedSliceDims := [1]
  operandBatchingDims := []
  startIndicesBatchingDims := []
  startIndexMap := [1]
  indexVectorDim := 1
  sliceSizes := ![128, 1]
  wf := gather_S128x16_S12x1_S128x12_0_1_n_n_1_1_1281_wf
def gather_S128x16x2_S12x1_S128x12x2_02_1_n_n_1_1_12812 : GatherDims S128x16x2 S12x1 S128x12x2 where
  offsetDims := [0, 2]
  collapsedSliceDims := [1]
  operandBatchingDims := []
  startIndicesBatchingDims := []
  startIndexMap := [1]
  indexVectorDim := 1
  sliceSizes := ![128, 1, 2]
  wf := gather_S128x16x2_S12x1_S128x12x2_02_1_n_n_1_1_12812_wf
def dot_S128x12_S12x4_S128x4_1_0_0_1_n_n : DotDims S128x12 S12x4 S128x4 where
  lhsContracting := [1]
  rhsContracting := [0]
  lhsNonContracting := [0]
  rhsNonContracting := [1]
  lhsBatch := []
  rhsBatch := []
  wf := dot_S128x12_S12x4_S128x4_1_0_0_1_n_n_wf
def gather_S128x4_S12x1_S128x12_0_1_n_n_1_1_1281 : GatherDims S128x4 S12x1 S128x12 where
  offsetDims := [0]
  collapsedSliceDims := [1]
  operandBatchingDims := []
  startIndicesBatchingDims := []
  startIndexMap := [1]
  indexVectorDim := 1
  sliceSizes := ![128, 1]
  wf := gather_S128x4_S12x1_S128x12_0_1_n_n_1_1_1281_wf

class Facts : Prop extends Facts₀ where

variable [Facts]
-- ==== Proof.WHost.lean ====
/-
  The kernel's program around its one pipelined region: four constant tables are written first, the region
  runs, and eleven stretches of element-wise, gather, reduce and matrix-product lines follow.  Here: the buffer
  contents when the region is entered, the shape of the program as "lines, region, lines", and the three facts the
  later lines owe the region's arrays (they touch only unscoped TensorCore buffers, allocate nothing, and never
  write an array the region stages); each argument array is as launched both when the region starts and when the
  program ends.
-/
import proofs.«417907_j30227979829940_1_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The lines after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- Core `c`'s buffer contents when the region is entered: the launch contents after the four constant tables. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is: the constant tables, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ### Lines that write one buffer apart from the protected ones -/

/-- The references no line outside the region may overwrite: the five argument arrays and the region's result array. -/
abbrev kept : List (Ref sig .tc) := [main_arg0, main_arg1, main_arg2, main_arg3, main_arg4, main_v0]

/-- A line is quiet when it allocates nothing and writes exactly one buffer, which is none of the protected ones. -/
inductive Quiet (op : HloOp τ sig (Elt F)) : Prop
  | mk (y : Ref sig .tc) (hf : op.fresh = ∅) (hw : op.writes = {Proc.devRef .tc y}) (hy : y ∉ kept)

theorem Quiet.fresh {op : HloOp τ sig (Elt F)} : Quiet op → op.fresh = ∅
  | ⟨_, hf, _, _⟩ => hf

/-- A quiet line writes no protected reference. -/
theorem Quiet.keeps {op : HloOp τ sig (Elt F)} {b : Ref sig .tc} (hb : b ∈ kept) : Quiet op → Proc.devRef .tc b ∉ op.writes
  | ⟨y, _, hw, hy⟩ => by
    rw [hw, Finset.mem_singleton]
    exact StableHlo.devRef_ne_of_ne fun e => hy (e ▸ hb)

/-- Every array the region stages is protected. -/
theorem arr_kept : ∀ w, Pipeline.arrRef spec0 w ∈ kept := by decide

/-- A stretch of quiet lines, one line at a time: each line's result buffer is read off the line, and it is told
    apart from the protected references by comparing reference numbers. -/
macro "quiet_lines" : tactic =>
  `(tactic| ((repeat (refine (List.forall_cons _ _ _).2 ⟨Quiet.mk _ rfl rfl (by decide), ?_⟩)); exact trivial))

theorem hostOps0_quiet : (hostOps0 : List (HloOp τ sig (Elt F))).Forall Quiet := by quiet_lines
theorem hostOps1_quiet : (hostOps1 : List (HloOp τ sig (Elt F))).Forall Quiet := by quiet_lines
theorem hostOps1_1_quiet : (hostOps1_1 : List (HloOp τ sig (Elt F))).Forall Quiet := by quiet_lines
theorem hostOps1_2_quiet : (hostOps1_2 : List (HloOp τ sig (Elt F))).Forall Quiet := by quiet_lines
theorem hostOps1_3_quiet : (hostOps1_3 : List (HloOp τ sig (Elt F))).Forall Quiet := by quiet_lines
theorem hostOps1_4_quiet : (hostOps1_4 : List (HloOp τ sig (Elt F))).Forall Quiet := by quiet_lines
theorem hostOps1_5_quiet : (hostOps1_5 : List (HloOp τ sig (Elt F))).Forall Quiet := by quiet_lines
theorem hostOps1_6_quiet : (hostOps1_6 : List (HloOp τ sig (Elt F))).Forall Quiet := by quiet_lines
theorem hostOps1_7_quiet : (hostOps1_7 : List (HloOp τ sig (Elt F))).Forall Quiet := by quiet_lines
theorem hostOps1_8_quiet : (hostOps1_8 : List (HloOp τ sig (Elt F))).Forall Quiet := by quiet_lines
theorem hostOps1_9_quiet : (hostOps1_9 : List (HloOp τ sig (Elt F))).Forall Quiet := by quiet_lines
theorem hostOps1_10_quiet : (hostOps1_10 : List (HloOp τ sig (Elt F))).Forall Quiet := by quiet_lines

/-- Every later line is quiet, stretch by stretch. -/
theorem tail_quiet : ∀ ops ∈ (tailOps : List (List (HloOp τ sig (Elt F)))), ∀ op ∈ ops, Quiet op :=
  fun ops hops => List.forall_iff_forall_mem.mp
    (List.forall_iff_forall_mem.mp
      (show (tailOps : List (List (HloOp τ sig (Elt F)))).Forall fun ops => ops.Forall Quiet from
        ⟨hostOps1_quiet, hostOps1_1_quiet, hostOps1_2_quiet, hostOps1_3_quiet, hostOps1_4_quiet, hostOps1_5_quiet,
          hostOps1_6_quiet, hostOps1_7_quiet, hostOps1_8_quiet, hostOps1_9_quiet, hostOps1_10_quiet⟩) ops hops)

/-- Every later line touches TensorCore references only, stretch by stretch. -/
theorem tail_sub : ∀ ops ∈ (tailOps : List (List (HloOp τ sig (Elt F)))), ∀ op ∈ ops, op.bufs ⊆ StableHlo.tcRefs τ sig :=
  fun ops hops => List.forall_iff_forall_mem.mp
    (List.forall_iff_forall_mem.mp
      (show (tailOps : List (List (HloOp τ sig (Elt F)))).Forall fun ops => ops.Forall fun op => op.bufs ⊆ StableHlo.tcRefs τ sig from
        ⟨hostOps1_sub, hostOps1_1_sub, hostOps1_2_sub, hostOps1_3_sub, hostOps1_4_sub, hostOps1_5_sub,
          hostOps1_6_sub, hostOps1_7_sub, hostOps1_8_sub, hostOps1_9_sub, hostOps1_10_sub⟩) ops hops)

/-- Through stretches of quiet lines a protected reference keeps its contents. -/
theorem after_kept {opss : List (List (HloOp τ sig (Elt F)))} (h : ∀ ops ∈ opss, ∀ op ∈ ops, Quiet op)
    {b : Ref sig .tc} (hb : b ∈ kept) (V : Valuation τ sig (Elt F)) :
    StableHlo.after opss.flatten V (Proc.devRef .tc b) = V (Proc.devRef .tc b) :=
  StableHlo.after_of_forall_not_mem _ _ fun op hop => by
    obtain ⟨ops, hops, hop⟩ := List.mem_flatten.mp hop
    exact (h ops hops op hop).keeps hb

/-- The later lines touch only the region's arrays and buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (tail_sub ops hops op hop)
/-- They allocate nothing. -/
theorem sfx_fresh : ∀ ops ∈ (tailOps : List (List (HloOp τ sig (Elt F)))), ∀ op ∈ ops, op.fresh = ∅ :=
  fun ops hops op hop => (tail_quiet ops hops op hop).fresh
/-- And none writes an array the region stages: each writes only its own result buffer. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_quiet ops hops op hop).keeps (arr_kept w)

/-- The constant tables are quiet lines: a protected reference is as launched when the region starts. -/
theorem V_kept (c : Dev nD) {b : Ref sig .tc} (hb : b ∈ kept) : V m c b = m ((c : Thread nD τ).loc b) :=
  after_kept (opss := [hostOps0]) (fun ops hops => by
    obtain rfl := List.mem_singleton.mp hops
    exact List.forall_iff_forall_mem.mp hostOps0_quiet) hb _

/-- The constant tables are not the argument arrays: the region finds each argument as launched. -/
theorem V_main_arg0 (c : Dev nD) : V m c main_arg0 = m ((c : Thread nD τ).loc main_arg0) := V_kept m c (by decide)
theorem V_main_arg1 (c : Dev nD) : V m c main_arg1 = m ((c : Thread nD τ).loc main_arg1) := V_kept m c (by decide)
theorem V_main_arg2 (c : Dev nD) : V m c main_arg2 = m ((c : Thread nD τ).loc main_arg2) := V_kept m c (by decide)
theorem V_main_arg3 (c : Dev nD) : V m c main_arg3 = m ((c : Thread nD τ).loc main_arg3) := V_kept m c (by decide)
theorem V_main_arg4 (c : Dev nD) : V m c main_arg4 = m ((c : Thread nD τ).loc main_arg4) := V_kept m c (by decide)

/-- A protected reference the region does not stage is, after the later lines, what the region found: the lines are
    quiet, and the region's exit contents differ from its entry contents at the staged arrays only. -/
theorem W_kept (dats : (p : Fin 1) → (c : Dev nD) → Dat τ (Elt F) Unit ℕ (UR sig nD τ) ℕ (cfgs p) c) (c : Dev nD)
    {b : Ref sig .tc} (hb : b ∈ kept) (hw : ∀ w, Pipeline.arrRef spec0 w ≠ b) :
    Pipeline.afterTail₀ cfgs dats 0 (V0 m) tailOps c b = m ((c : Thread nD τ).loc b) := by
  unfold Pipeline.afterTail₀
  rw [after_kept tail_quiet hb, Pipeline.withArrays_of_ne _ c (V0 m c) _ b (by exact hw)]
  exact V_kept m c hb

/-- No later line writes an argument the region does not stage: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_kept m dats c (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_kept m dats c (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_kept m dats c (by decide) (by decide)

/-- From a run that ends with every staged array at what the proof data say and every other unscoped buffer as the later
    lines leave it, the five argument arrays end as launched: the two staged ones are inputs of the region (never written
    back), the other three are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).1 1).trans (((dats 0 c).arrAt_in 1 rfl _).trans ((hA c 1).trans (V_main_arg2 m c))),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

end Cert.Kernel.Hand

end
-- ==== Proof.WBody.lean ====
/-
  The kernel body on one block of eight batch rows.  For each of the sixteen queries it compares the flat position
  `h * 2048 + w * 16 + j` of every element of the `[16, 128, 128]` slab with that row's index, keeps the element
  where they agree and zero elsewhere, and adds everything up over `w`, then `h`, then `j`; the eight sums go into
  column `q` of the `[8, 16]` output block.  The sixteen column stores tile the block, so after the body the
  output buffer is one function of the two input blocks.
-/
import proofs.«417907_j30227979829940_1_alg».proof.Proof.Gen.Kernel.Skeleton
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The flat position `h * 2048 + w * 16 + j` of element `(j, h, w)` of a `[16, 128, 128]` slab. -/
def flatPos : IVec S16x128x128 32 :=
  addi (addi (muli (iota .tc S16x128x128 32 [1] iota_S16x128x128_d1_w32) (broadcast S16x128x128 2048#32))
             (muli (iota .tc S16x128x128 32 [2] iota_S16x128x128_d2_w32) (broadcast S16x128x128 16#32)))
       (iota .tc S16x128x128 32 [0] iota_S16x128x128_d0_w32)

/-- One query's column: for each of the eight rows, the sum over the slab of the elements whose flat position is the
    row's index (zero elsewhere), added over `w`, then `h`, then `j`. -/
def colVal (ic : Vec F S8x1 .i32) (x : Vec F S8x16x128x128 .f32) : FVec F S8x1 .f32 :=
  shapeCast S8x1
    (multiReduction .add [1] S8
      (multiReduction .add [2] S8x16
        (multiReduction .add [3] S8x16x128
          (select
            (cmpi .eq
              (broadcastTo S8x16x128x128 (shapeCast S1x16x128x128 flatPos shapeCasts_S16x128x128_S1x16x128x128) broadcasts_S1x16x128x128_S8x16x128x128)
              (broadcastTo S8x16x128x128 (shapeCast S8x1x1x1 (shapeCast S8 ic shapeCasts_S8x1_S8) shapeCasts_S8_S8x1x1x1) broadcasts_S8x1x1x1_S8x16x128x128))
            x (broadcast S8x16x128x128 (Scalar.ofBits .f32 0x00000000#32)))
          0x00000000#32 reduces_S8x16x128x128_S8x16x128 (.inl rfl) rfl)
        0x00000000#32 reduces_S8x16x128_S8x16 (.inl rfl) rfl)
      0x00000000#32 reduces_S8x16_S8 (.inl rfl) rfl)
    shapeCasts_S8_S8x1

/-- Column `q` of an `[8, 16]` block. -/
abbrev rcol0 : Rect S8x16 := Rect.unit (s := S8x16) ![0, 0] S8x1.size inb_S8x16_S8x1_0_0
abbrev rcol1 : Rect S8x16 := Rect.unit (s := S8x16) ![0, 1] S8x1.size inb_S8x16_S8x1_0_1
abbrev rcol2 : Rect S8x16 := Rect.unit (s := S8x16) ![0, 2] S8x1.size inb_S8x16_S8x1_0_2
abbrev rcol3 : Rect S8x16 := Rect.unit (s := S8x16) ![0, 3] S8x1.size inb_S8x16_S8x1_0_3
abbrev rcol4 : Rect S8x16 := Rect.unit (s := S8x16) ![0, 4] S8x1.size inb_S8x16_S8x1_0_4
abbrev rcol5 : Rect S8x16 := Rect.unit (s := S8x16) ![0, 5] S8x1.size inb_S8x16_S8x1_0_5
abbrev rcol6 : Rect S8x16 := Rect.unit (s := S8x16) ![0, 6] S8x1.size inb_S8x16_S8x1_0_6
abbrev rcol7 : Rect S8x16 := Rect.unit (s := S8x16) ![0, 7] S8x1.size inb_S8x16_S8x1_0_7
abbrev rcol8 : Rect S8x16 := Rect.unit (s := S8x16) ![0, 8] S8x1.size inb_S8x16_S8x1_0_8
abbrev rcol9 : Rect S8x16 := Rect.unit (s := S8x16) ![0, 9] S8x1.size inb_S8x16_S8x1_0_9
abbrev rcol10 : Rect S8x16 := Rect.unit (s := S8x16) ![0, 10] S8x1.size inb_S8x16_S8x1_0_10
abbrev rcol11 : Rect S8x16 := Rect.unit (s := S8x16) ![0, 11] S8x1.size inb_S8x16_S8x1_0_11
abbrev rcol12 : Rect S8x16 := Rect.unit (s := S8x16) ![0, 12] S8x1.size inb_S8x16_S8x1_0_12
abbrev rcol13 : Rect S8x16 := Rect.unit (s := S8x16) ![0, 13] S8x1.size inb_S8x16_S8x1_0_13
abbrev rcol14 : Rect S8x16 := Rect.unit (s := S8x16) ![0, 14] S8x1.size inb_S8x16_S8x1_0_14
abbrev rcol15 : Rect S8x16 := Rect.unit (s := S8x16) ![0, 15] S8x1.size inb_S8x16_S8x1_0_15

/-- The output block after the body, from the two input blocks: its sixteen column stores as pieces, last first. -/
def out0_2 (x0 : Vec F S8x16x128x128 .f32) (x1 : Vec F S8x16 .i32) : Vec F S8x16 .f32 :=
  View.canon
    [ ⟨rcol15, colVal (View.ld x1 rcol15) x0⟩,
      ⟨rcol14, colVal (View.ld x1 rcol14) x0⟩,
      ⟨rcol13, colVal (View.ld x1 rcol13) x0⟩,
      ⟨rcol12, colVal (View.ld x1 rcol12) x0⟩,
      ⟨rcol11, colVal (View.ld x1 rcol11) x0⟩,
      ⟨rcol10, colVal (View.ld x1 rcol10) x0⟩,
      ⟨rcol9, colVal (View.ld x1 rcol9) x0⟩,
      ⟨rcol8, colVal (View.ld x1 rcol8) x0⟩,
      ⟨rcol7, colVal (View.ld x1 rcol7) x0⟩,
      ⟨rcol6, colVal (View.ld x1 rcol6) x0⟩,
      ⟨rcol5, colVal (View.ld x1 rcol5) x0⟩,
      ⟨rcol4, colVal (View.ld x1 rcol4) x0⟩,
      ⟨rcol3, colVal (View.ld x1 rcol3) x0⟩,
      ⟨rcol2, colVal (View.ld x1 rcol2) x0⟩,
      ⟨rcol1, colVal (View.ld x1 rcol1) x0⟩,
      ⟨rcol0, colVal (View.ld x1 rcol0) x0⟩ ]

/-- The sixteen columns tile the block, so they cover it. -/
theorem cover0_2 (p0 p1 p2 p3 p4 p5 p6 p7 p8 p9 p10 p11 p12 p13 p14 p15 : Vec F S8x1 .f32) (y : S8x16.Idx) :
    ∃ pc ∈ ([⟨rcol15, p15⟩, ⟨rcol14, p14⟩, ⟨rcol13, p13⟩, ⟨rcol12, p12⟩, ⟨rcol11, p11⟩, ⟨rcol10, p10⟩, ⟨rcol9, p9⟩, ⟨rcol8, p8⟩, ⟨rcol7, p7⟩, ⟨rcol6, p6⟩, ⟨rcol5, p5⟩, ⟨rcol4, p4⟩, ⟨rcol3, p3⟩, ⟨rcol2, p2⟩, ⟨rcol1, p1⟩, ⟨rcol0, p0⟩] : List (View.Piece (Elt F) S8x16 .f32)), y ∈ pc.1.set :=
  View.cover_of_tiled [⟨rcol15, p15⟩, ⟨rcol14, p14⟩, ⟨rcol13, p13⟩, ⟨rcol12, p12⟩, ⟨rcol11, p11⟩, ⟨rcol10, p10⟩, ⟨rcol9, p9⟩, ⟨rcol8, p8⟩, ⟨rcol7, p7⟩, ⟨rcol6, p6⟩, ⟨rcol5, p5⟩, ⟨rcol4, p4⟩, ⟨rcol3, p3⟩, ⟨rcol2, p2⟩, ⟨rcol1, p1⟩, ⟨rcol0, p0⟩] S8x1.size (by rfl) y

/-! ## The stored values are the columns

The body computes the flat-position vector once and, per query, the masked slab and its three sums; the printed
body is cut into parts at fixed statement counts, so a query's sums may be finished in the part after the one that
began them.  Whichever way a query's computation is cut, it is the same composition of the same operations, and
each stored value is `colVal` of the loaded index column and the loaded slab by unfolding. -/

/-- The flat-position vector as the body computes it. -/
theorem pay2_eq : k0_pay2 = flatPos := rfl

section Payloads
variable (ic : Vec F S8x1 .i32) (x : Vec F S8x16x128x128 .f32)
theorem pay3_eq : k0_pay3 ic x = colVal ic x := rfl
theorem pay5_eq : k0_pay5 (k0_pay4 ic x) = colVal ic x := rfl
theorem pay6_eq : k0_pay6 k0_pay2 ic x = colVal ic x := rfl
theorem pay8_eq : k0_pay8 (k0_pay7 k0_pay2 ic x) = colVal ic x := rfl
theorem pay9_eq : k0_pay9 k0_pay2 ic x = colVal ic x := rfl
theorem pay11_eq : k0_pay11 (k0_pay10 k0_pay2 ic x) = colVal ic x := rfl
theorem pay12_eq : k0_pay12 k0_pay2 ic x = colVal ic x := rfl
theorem pay14_eq : k0_pay14 (k0_pay13 k0_pay2 ic x) = colVal ic x := rfl
theorem pay15_eq : k0_pay15 k0_pay2 ic x = colVal ic x := rfl
theorem pay17_eq : k0_pay17 (k0_pay16 k0_pay2 ic x) = colVal ic x := rfl
theorem pay18_eq : k0_pay18 k0_pay2 ic x = colVal ic x := rfl
theorem pay19_eq : k0_pay19 k0_pay2 ic x = colVal ic x := rfl
theorem pay20_eq : k0_pay20 k0_pay2 ic x = colVal ic x := rfl
theorem pay21_eq : k0_pay21 k0_pay2 ic x = colVal ic x := rfl
theorem pay22_eq : k0_pay22 k0_pay2 ic x = colVal ic x := rfl
theorem pay1_eq : k0_pay1 (k0_pay23 k0_pay2 ic x) = colVal ic x := rfl
end Payloads

/-- The offsets of the whole-slab load are all zero, so that load reads the slab's contents. -/
theorem slab_off_zero : (![0, 0, 0, 0] : Fin S8x16x128x128.rank → ℕ) = fun _ => 0 := by
  funext a; fin_cases a <;> rfl

/-- The body on whole staging buffers, the inputs' at contents `x0`, `x1` and the output's at anything, runs to the
    continuation holding the inputs' as they were and the output's at `out0_2 x0 x1`. -/
theorem sound_kernel (c : Dev nD) (E : Set ℕ) (i : grid0.Coords)
    (arg1 : Memref sig .tc .vmem S8x16x128x128 .f32) (harg1 : arg1.IsWhole)
    (arg2 : Memref sig .tc .vmem S8x16 .i32) (harg2 : arg2.IsWhole)
    (arg3 : Memref sig .tc .vmem S8x16 .f32) (harg3 : arg3.IsWhole)
    (x0 : Vec F S8x16x128x128 .f32) (x1 : Vec F S8x16 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0; subst hf1
  sl_exec_parts
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the output buffer holds its prior contents under the sixteen column stores, last first; the columns cover
  -- the block, so it reads as the canon of the stores, and each stored value is its query's column
  sl_unfold_run_names
  rw [View.read_writes_eq_canon _ _ _ (cover0_2 _ _ _ _ _ _ _ _ _ _ _ _ _ _ _ _)]
  unfold out0_2
  simp only [View.readAt_eq_ld, View.ld_unit_zero (S := S8x16x128x128) slab_off_zero, pay1_eq, pay3_eq, pay5_eq, pay6_eq,
    pay8_eq, pay9_eq, pay11_eq, pay12_eq, pay14_eq, pay15_eq, pay17_eq, pay18_eq, pay19_eq, pay20_eq, pay21_eq, pay22_eq]

end Cert.Kernel.Hand

end
-- ==== Proof.WRun.lean ====
/-
  The proof data of the pipeline and its run.  Each input window's staging buffer holds, at every grid point, that
  point's block of the array (eight batch rows); after the body the output window's buffer holds the body's function
  of the two input blocks.  With these the pipelined region runs, the later lines run after it, and every array ends
  at what the write-backs leave: the frame, and the run the value claim reads the result from.
-/
import proofs.«417907_j30227979829940_1_alg».proof.Proof.WHost
import proofs.«417907_j30227979829940_1_alg».proof.Proof.WBody
import proofs.«417907_j30227979829940_1_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`: the arrays as the region finds them; after the body at point `t` each input's buffer at
    its block and the output's at the body's function of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t := by
  have hkeep : ∀ s, (cfg0.win 0).cut (cfg0.grid.coords s) ((dats m 0 c).after 0 s) = (dats m 0 c).blockOf 0 s := by
    intro s; rw [after0_0]; unfold Dat.blockOf iblk; rw [A_eq]
  rw [(dats m 0 c).before_in_eq_fetched 0 rfl (fun _ => rfl) (fun _ _ _ => rfl) hkeep t d]
  unfold Dat.fetched Dat.blockOf iblk; rw [A_eq]; rfl
theorem before0_1 (c : Dev nD) (t : Fin cfg0.N) (d) : (dats m 0 c).before 1 t d = iblk m c 1 t := by
  have hkeep : ∀ s, (cfg0.win 1).cut (cfg0.grid.coords s) ((dats m 0 c).after 1 s) = (dats m 0 c).blockOf 1 s := by
    intro s; rw [after0_1]; unfold Dat.blockOf iblk; rw [A_eq]
  rw [(dats m 0 c).before_in_eq_fetched 1 rfl (fun _ => rfl) (fun _ _ _ => rfl) hkeep t d]
  unfold Dat.fetched Dat.blockOf iblk; rw [A_eq]; rfl

/-- The body at point `t` under any frame `R`: the two input buffers hold their blocks, whatever the pipeline did there,
    and the output buffer holds something; the body returns the inputs as they were and the output at its function of the
    two blocks, and `R` (the invariant and what the core owes, which the body never reads) comes back untouched. -/
theorem body_at (c : Dev nD) (t : Fin cfg0.N) (R R' : sProp 𝕄) :
    iprop(R ∗ R'
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop(R ∗ R'
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  simp only [before0_0, before0_1]
  rw [after0_0, after0_1, after0_2]
  unfold bodyAt0
  iintro ⟨HR, HR', ⟨%d0, Hx⟩, ⟨%d1, Hi⟩, ⟨%d2, Hy⟩⟩
  iapply (sound_kernel c Set.univ (grid0.coords t) _ _ _ _ _ _ (iblk m c 0 t) (iblk m c 1 t) _)
  isplitl [Hx]; · iexact Hx
  isplitl [Hi]; · iexact Hi
  isplitl [Hy]; · iexists _; iexact Hy
  iintro ⟨Hx, Hi, Hy⟩
  isplitl [HR]; · iexact HR
  isplitl [HR']; · iexact HR'
  isplitl [Hx]; · iexact Hx
  isplitl [Hi]; · iexact Hi
  iexact Hy

/-- The library's body obligation, at every point: the windows one by one, the invariant and the core's debt (the same
    before and after a point) as the frame. -/
theorem body_obligation (c : Dev nD) : BodyObligation (dats (F := F) m 0 c) (defs₀ (F := F)) Variants.none () Set.univ := fun t => by
  rw [bigSep_W0, bigSep_W0]
  exact body_at m c t ((dats m 0 c).Φ t.castSucc) ((dats m 0 c).owesAt () t.castSucc)

set_option backward.isDefEq.respectTransparency.types false in
/-- Every weakly fair execution of the program terminates, with every staged array at what the write-backs leave and every
    other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KHost.lean ====
/-
  The kernel's program around its one pipelined region: four constant tables are written first, the region
  runs, and eleven stretches of element-wise, gather, reduce and matrix-product lines follow.  Here: the buffer
  contents when the region is entered, the shape of the program as "lines, region, lines", and the three facts the
  later lines owe the region's arrays (they touch only unscoped TensorCore buffers, allocate nothing, and never
  write an array the region stages); each argument array is as launched both when the region starts and when the
  program ends.
-/
import proofs.«417907_j30227979829940_1_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The lines after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- Core `c`'s buffer contents when the region is entered: the launch contents after the four constant tables. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is: the constant tables, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ### Lines that write one buffer apart from the protected ones -/

/-- The references no line outside the region may overwrite: the five argument arrays and the region's result array. -/
abbrev kept : List (Ref sig .tc) := [main_arg0, main_arg1, main_arg2, main_arg3, main_arg4, main_v0]

/-- A line is quiet when it allocates nothing and writes exactly one buffer, which is none of the protected ones. -/
inductive Quiet (op : HloOp τ sig (Elt F)) : Prop
  | mk (y : Ref sig .tc) (hf : op.fresh = ∅) (hw : op.writes = {Proc.devRef .tc y}) (hy : y ∉ kept)

theorem Quiet.fresh {op : HloOp τ sig (Elt F)} : Quiet op → op.fresh = ∅
  | ⟨_, hf, _, _⟩ => hf

/-- A quiet line writes no protected reference. -/
theorem Quiet.keeps {op : HloOp τ sig (Elt F)} {b : Ref sig .tc} (hb : b ∈ kept) : Quiet op → Proc.devRef .tc b ∉ op.writes
  | ⟨y, _, hw, hy⟩ => by
    rw [hw, Finset.mem_singleton]
    exact StableHlo.devRef_ne_of_ne fun e => hy (e ▸ hb)

/-- Every array the region stages is protected. -/
theorem arr_kept : ∀ w, Pipeline.arrRef spec0 w ∈ kept := by decide

/-- A stretch of quiet lines, one line at a time: each line's result buffer is read off the line, and it is told
    apart from the protected references by comparing reference numbers. -/
macro "quiet_lines" : tactic =>
  `(tactic| ((repeat (refine (List.forall_cons _ _ _).2 ⟨Quiet.mk _ rfl rfl (by decide), ?_⟩)); exact trivial))

theorem hostOps0_quiet : (hostOps0 : List (HloOp τ sig (Elt F))).Forall Quiet := by quiet_lines
theorem hostOps1_quiet : (hostOps1 : List (HloOp τ sig (Elt F))).Forall Quiet := by quiet_lines
theorem hostOps1_1_quiet : (hostOps1_1 : List (HloOp τ sig (Elt F))).Forall Quiet := by quiet_lines
theorem hostOps1_2_quiet : (hostOps1_2 : List (HloOp τ sig (Elt F))).Forall Quiet := by quiet_lines
theorem hostOps1_3_quiet : (hostOps1_3 : List (HloOp τ sig (Elt F))).Forall Quiet := by quiet_lines
theorem hostOps1_4_quiet : (hostOps1_4 : List (HloOp τ sig (Elt F))).Forall Quiet := by quiet_lines
theorem hostOps1_5_quiet : (hostOps1_5 : List (HloOp τ sig (Elt F))).Forall Quiet := by quiet_lines
theorem hostOps1_6_quiet : (hostOps1_6 : List (HloOp τ sig (Elt F))).Forall Quiet := by quiet_lines
theorem hostOps1_7_quiet : (hostOps1_7 : List (HloOp τ sig (Elt F))).Forall Quiet := by quiet_lines
theorem hostOps1_8_quiet : (hostOps1_8 : List (HloOp τ sig (Elt F))).Forall Quiet := by quiet_lines
theorem hostOps1_9_quiet : (hostOps1_9 : List (HloOp τ sig (Elt F))).Forall Quiet := by quiet_lines
theorem hostOps1_10_quiet : (hostOps1_10 : List (HloOp τ sig (Elt F))).Forall Quiet := by quiet_lines

/-- Every later line is quiet, stretch by stretch. -/
theorem tail_quiet : ∀ ops ∈ (tailOps : List (List (HloOp τ sig (Elt F)))), ∀ op ∈ ops, Quiet op :=
  fun ops hops => List.forall_iff_forall_mem.mp
    (List.forall_iff_forall_mem.mp
      (show (tailOps : List (List (HloOp τ sig (Elt F)))).Forall fun ops => ops.Forall Quiet from
        ⟨hostOps1_quiet, hostOps1_1_quiet, hostOps1_2_quiet, hostOps1_3_quiet, hostOps1_4_quiet, hostOps1_5_quiet,
          hostOps1_6_quiet, hostOps1_7_quiet, hostOps1_8_quiet, hostOps1_9_quiet, hostOps1_10_quiet⟩) ops hops)

/-- Every later line touches TensorCore references only, stretch by stretch. -/
theorem tail_sub : ∀ ops ∈ (tailOps : List (List (HloOp τ sig (Elt F)))), ∀ op ∈ ops, op.bufs ⊆ StableHlo.tcRefs τ sig :=
  fun ops hops => List.forall_iff_forall_mem.mp
    (List.forall_iff_forall_mem.mp
      (show (tailOps : List (List (HloOp τ sig (Elt F)))).Forall fun ops => ops.Forall fun op => op.bufs ⊆ StableHlo.tcRefs τ sig from
        ⟨hostOps1_sub, hostOps1_1_sub, hostOps1_2_sub, hostOps1_3_sub, hostOps1_4_sub, hostOps1_5_sub,
          hostOps1_6_sub, hostOps1_7_sub, hostOps1_8_sub, hostOps1_9_sub, hostOps1_10_sub⟩) ops hops)

/-- Through stretches of quiet lines a protected reference keeps its contents. -/
theorem after_kept {opss : List (List (HloOp τ sig (Elt F)))} (h : ∀ ops ∈ opss, ∀ op ∈ ops, Quiet op)
    {b : Ref sig .tc} (hb : b ∈ kept) (V : Valuation τ sig (Elt F)) :
    StableHlo.after opss.flatten V (Proc.devRef .tc b) = V (Proc.devRef .tc b) :=
  StableHlo.after_of_forall_not_mem _ _ fun op hop => by
    obtain ⟨ops, hops, hop⟩ := List.mem_flatten.mp hop
    exact (h ops hops op hop).keeps hb

/-- The later lines touch only the region's arrays and buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (tail_sub ops hops op hop)
/-- They allocate nothing. -/
theorem sfx_fresh : ∀ ops ∈ (tailOps : List (List (HloOp τ sig (Elt F)))), ∀ op ∈ ops, op.fresh = ∅ :=
  fun ops hops op hop => (tail_quiet ops hops op hop).fresh
/-- And none writes an array the region stages: each writes only its own result buffer. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_quiet ops hops op hop).keeps (arr_kept w)

/-- The constant tables are quiet lines: a protected reference is as launched when the region starts. -/
theorem V_kept (c : Dev nD) {b : Ref sig .tc} (hb : b ∈ kept) : V m c b = m ((c : Thread nD τ).loc b) :=
  after_kept (opss := [hostOps0]) (fun ops hops => by
    obtain rfl := List.mem_singleton.mp hops
    exact List.forall_iff_forall_mem.mp hostOps0_quiet) hb _

/-- The constant tables are not the argument arrays: the region finds each argument as launched. -/
theorem V_main_arg0 (c : Dev nD) : V m c main_arg0 = m ((c : Thread nD τ).loc main_arg0) := V_kept m c (by decide)
theorem V_main_arg1 (c : Dev nD) : V m c main_arg1 = m ((c : Thread nD τ).loc main_arg1) := V_kept m c (by decide)
theorem V_main_arg2 (c : Dev nD) : V m c main_arg2 = m ((c : Thread nD τ).loc main_arg2) := V_kept m c (by decide)
theorem V_main_arg3 (c : Dev nD) : V m c main_arg3 = m ((c : Thread nD τ).loc main_arg3) := V_kept m c (by decide)
theorem V_main_arg4 (c : Dev nD) : V m c main_arg4 = m ((c : Thread nD τ).loc main_arg4) := V_kept m c (by decide)

/-- A protected reference the region does not stage is, after the later lines, what the region found: the lines are
    quiet, and the region's exit contents differ from its entry contents at the staged arrays only. -/
theorem W_kept (dats : (p : Fin 1) → (c : Dev nD) → Dat τ (Elt F) Unit ℕ (UR sig nD τ) ℕ (cfgs p) c) (c : Dev nD)
    {b : Ref sig .tc} (hb : b ∈ kept) (hw : ∀ w, Pipeline.arrRef spec0 w ≠ b) :
    Pipeline.afterTail₀ cfgs dats 0 (V0 m) tailOps c b = m ((c : Thread nD τ).loc b) := by
  unfold Pipeline.afterTail₀
  rw [after_kept tail_quiet hb, Pipeline.withArrays_of_ne _ c (V0 m c) _ b (by exact hw)]
  exact V_kept m c hb

/-- No later line writes an argument the region does not stage: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_kept m dats c (by decide) (by decide)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_kept m dats c (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_kept m dats c (by decide) (by decide)

/-- From a run that ends with every staged array at what the proof data say and every other unscoped buffer as the later
    lines leave it, the five argument arrays end as launched: the two staged ones are inputs of the region (never written
    back), the other three are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).1 1).trans (((dats 0 c).arrAt_in 1 rfl _).trans ((hA c 1).trans (V_main_arg2 m c))),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

end Cert.KernelIdeal.Hand

end
-- ==== Proof.KBody.lean ====
/-
  The kernel body on one block of eight batch rows.  For each of the sixteen queries it compares the flat position
  `h * 2048 + w * 16 + j` of every element of the `[16, 128, 128]` slab with that row's index, keeps the element
  where they agree and zero elsewhere, and adds everything up over `w`, then `h`, then `j`; the eight sums go into
  column `q` of the `[8, 16]` output block.  The sixteen column stores tile the block, so after the body the
  output buffer is one function of the two input blocks.
-/
import proofs.«417907_j30227979829940_1_alg».proof.Proof.Gen.KernelIdeal.Skeleton
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The flat position `h * 2048 + w * 16 + j` of element `(j, h, w)` of a `[16, 128, 128]` slab. -/
def flatPos : IVec S16x128x128 32 :=
  addi (addi (muli (iota .tc S16x128x128 32 [1] iota_S16x128x128_d1_w32) (broadcast S16x128x128 2048#32))
             (muli (iota .tc S16x128x128 32 [2] iota_S16x128x128_d2_w32) (broadcast S16x128x128 16#32)))
       (iota .tc S16x128x128 32 [0] iota_S16x128x128_d0_w32)

/-- One query's column: for each of the eight rows, the sum over the slab of the elements whose flat position is the
    row's index (zero elsewhere), added over `w`, then `h`, then `j`. -/
def colVal (ic : Vec F S8x1 .i32) (x : Vec F S8x16x128x128 .f32) : FVec F S8x1 .f32 :=
  shapeCast S8x1
    (multiReduction .add [1] S8
      (multiReduction .add [2] S8x16
        (multiReduction .add [3] S8x16x128
          (select
            (cmpi .eq
              (broadcastTo S8x16x128x128 (shapeCast S1x16x128x128 flatPos shapeCasts_S16x128x128_S1x16x128x128) broadcasts_S1x16x128x128_S8x16x128x128)
              (broadcastTo S8x16x128x128 (shapeCast S8x1x1x1 (shapeCast S8 ic shapeCasts_S8x1_S8) shapeCasts_S8_S8x1x1x1) broadcasts_S8x1x1x1_S8x16x128x128))
            x (broadcast S8x16x128x128 (Scalar.ofBits .f32 0x00000000#32)))
          0x00000000#32 reduces_S8x16x128x128_S8x16x128 (.inl rfl) rfl)
        0x00000000#32 reduces_S8x16x128_S8x16 (.inl rfl) rfl)
      0x00000000#32 reduces_S8x16_S8 (.inl rfl) rfl)
    shapeCasts_S8_S8x1

/-- Column `q` of an `[8, 16]` block. -/
abbrev rcol0 : Rect S8x16 := Rect.unit (s := S8x16) ![0, 0] S8x1.size inb_S8x16_S8x1_0_0
abbrev rcol1 : Rect S8x16 := Rect.unit (s := S8x16) ![0, 1] S8x1.size inb_S8x16_S8x1_0_1
abbrev rcol2 : Rect S8x16 := Rect.unit (s := S8x16) ![0, 2] S8x1.size inb_S8x16_S8x1_0_2
abbrev rcol3 : Rect S8x16 := Rect.unit (s := S8x16) ![0, 3] S8x1.size inb_S8x16_S8x1_0_3
abbrev rcol4 : Rect S8x16 := Rect.unit (s := S8x16) ![0, 4] S8x1.size inb_S8x16_S8x1_0_4
abbrev rcol5 : Rect S8x16 := Rect.unit (s := S8x16) ![0, 5] S8x1.size inb_S8x16_S8x1_0_5
abbrev rcol6 : Rect S8x16 := Rect.unit (s := S8x16) ![0, 6] S8x1.size inb_S8x16_S8x1_0_6
abbrev rcol7 : Rect S8x16 := Rect.unit (s := S8x16) ![0, 7] S8x1.size inb_S8x16_S8x1_0_7
abbrev rcol8 : Rect S8x16 := Rect.unit (s := S8x16) ![0, 8] S8x1.size inb_S8x16_S8x1_0_8
abbrev rcol9 : Rect S8x16 := Rect.unit (s := S8x16) ![0, 9] S8x1.size inb_S8x16_S8x1_0_9
abbrev rcol10 : Rect S8x16 := Rect.unit (s := S8x16) ![0, 10] S8x1.size inb_S8x16_S8x1_0_10
abbrev rcol11 : Rect S8x16 := Rect.unit (s := S8x16) ![0, 11] S8x1.size inb_S8x16_S8x1_0_11
abbrev rcol12 : Rect S8x16 := Rect.unit (s := S8x16) ![0, 12] S8x1.size inb_S8x16_S8x1_0_12
abbrev rcol13 : Rect S8x16 := Rect.unit (s := S8x16) ![0, 13] S8x1.size inb_S8x16_S8x1_0_13
abbrev rcol14 : Rect S8x16 := Rect.unit (s := S8x16) ![0, 14] S8x1.size inb_S8x16_S8x1_0_14
abbrev rcol15 : Rect S8x16 := Rect.unit (s := S8x16) ![0, 15] S8x1.size inb_S8x16_S8x1_0_15

/-- The output block after the body, from the two input blocks: its sixteen column stores as pieces, last first. -/
def out0_2 (x0 : Vec F S8x16x128x128 .f32) (x1 : Vec F S8x16 .i32) : Vec F S8x16 .f32 :=
  View.canon
    [ ⟨rcol15, colVal (View.ld x1 rcol15) x0⟩,
      ⟨rcol14, colVal (View.ld x1 rcol14) x0⟩,
      ⟨rcol13, colVal (View.ld x1 rcol13) x0⟩,
      ⟨rcol12, colVal (View.ld x1 rcol12) x0⟩,
      ⟨rcol11, colVal (View.ld x1 rcol11) x0⟩,
      ⟨rcol10, colVal (View.ld x1 rcol10) x0⟩,
      ⟨rcol9, colVal (View.ld x1 rcol9) x0⟩,
      ⟨rcol8, colVal (View.ld x1 rcol8) x0⟩,
      ⟨rcol7, colVal (View.ld x1 rcol7) x0⟩,
      ⟨rcol6, colVal (View.ld x1 rcol6) x0⟩,
      ⟨rcol5, colVal (View.ld x1 rcol5) x0⟩,
      ⟨rcol4, colVal (View.ld x1 rcol4) x0⟩,
      ⟨rcol3, colVal (View.ld x1 rcol3) x0⟩,
      ⟨rcol2, colVal (View.ld x1 rcol2) x0⟩,
      ⟨rcol1, colVal (View.ld x1 rcol1) x0⟩,
      ⟨rcol0, colVal (View.ld x1 rcol0) x0⟩ ]

/-- The sixteen columns tile the block, so they cover it. -/
theorem cover0_2 (p0 p1 p2 p3 p4 p5 p6 p7 p8 p9 p10 p11 p12 p13 p14 p15 : Vec F S8x1 .f32) (y : S8x16.Idx) :
    ∃ pc ∈ ([⟨rcol15, p15⟩, ⟨rcol14, p14⟩, ⟨rcol13, p13⟩, ⟨rcol12, p12⟩, ⟨rcol11, p11⟩, ⟨rcol10, p10⟩, ⟨rcol9, p9⟩, ⟨rcol8, p8⟩, ⟨rcol7, p7⟩, ⟨rcol6, p6⟩, ⟨rcol5, p5⟩, ⟨rcol4, p4⟩, ⟨rcol3, p3⟩, ⟨rcol2, p2⟩, ⟨rcol1, p1⟩, ⟨rcol0, p0⟩] : List (View.Piece (Elt F) S8x16 .f32)), y ∈ pc.1.set :=
  View.cover_of_tiled [⟨rcol15, p15⟩, ⟨rcol14, p14⟩, ⟨rcol13, p13⟩, ⟨rcol12, p12⟩, ⟨rcol11, p11⟩, ⟨rcol10, p10⟩, ⟨rcol9, p9⟩, ⟨rcol8, p8⟩, ⟨rcol7, p7⟩, ⟨rcol6, p6⟩, ⟨rcol5, p5⟩, ⟨rcol4, p4⟩, ⟨rcol3, p3⟩, ⟨rcol2, p2⟩, ⟨rcol1, p1⟩, ⟨rcol0, p0⟩] S8x1.size (by rfl) y

/-! ## The stored values are the columns

The body computes the flat-position vector once and, per query, the masked slab and its three sums; the printed
body is cut into parts at fixed statement counts, so a query's sums may be finished in the part after the one that
began them.  Whichever way a query's computation is cut, it is the same composition of the same operations, and
each stored value is `colVal` of the loaded index column and the loaded slab by unfolding. -/

/-- The flat-position vector as the body computes it. -/
theorem pay2_eq : k0_pay2 = flatPos := rfl

section Payloads
variable (ic : Vec F S8x1 .i32) (x : Vec F S8x16x128x128 .f32)
theorem pay3_eq : k0_pay3 ic x = colVal ic x := rfl
theorem pay5_eq : k0_pay5 (k0_pay4 ic x) = colVal ic x := rfl
theorem pay6_eq : k0_pay6 k0_pay2 ic x = colVal ic x := rfl
theorem pay8_eq : k0_pay8 (k0_pay7 k0_pay2 ic x) = colVal ic x := rfl
theorem pay9_eq : k0_pay9 k0_pay2 ic x = colVal ic x := rfl
theorem pay11_eq : k0_pay11 (k0_pay10 k0_pay2 ic x) = colVal ic x := rfl
theorem pay12_eq : k0_pay12 k0_pay2 ic x = colVal ic x := rfl
theorem pay14_eq : k0_pay14 (k0_pay13 k0_pay2 ic x) = colVal ic x := rfl
theorem pay15_eq : k0_pay15 k0_pay2 ic x = colVal ic x := rfl
theorem pay17_eq : k0_pay17 (k0_pay16 k0_pay2 ic x) = colVal ic x := rfl
theorem pay18_eq : k0_pay18 k0_pay2 ic x = colVal ic x := rfl
theorem pay19_eq : k0_pay19 k0_pay2 ic x = colVal ic x := rfl
theorem pay20_eq : k0_pay20 k0_pay2 ic x = colVal ic x := rfl
theorem pay21_eq : k0_pay21 k0_pay2 ic x = colVal ic x := rfl
theorem pay22_eq : k0_pay22 k0_pay2 ic x = colVal ic x := rfl
theorem pay1_eq : k0_pay1 (k0_pay23 k0_pay2 ic x) = colVal ic x := rfl
end Payloads

/-- The offsets of the whole-slab load are all zero, so that load reads the slab's contents. -/
theorem slab_off_zero : (![0, 0, 0, 0] : Fin S8x16x128x128.rank → ℕ) = fun _ => 0 := by
  funext a; fin_cases a <;> rfl

/-- The body on whole staging buffers, the inputs' at contents `x0`, `x1` and the output's at anything, runs to the
    continuation holding the inputs' as they were and the output's at `out0_2 x0 x1`. -/
theorem sound_kernel (c : Dev nD) (E : Set ℕ) (i : grid0.Coords)
    (arg1 : Memref sig .tc .vmem S8x16x128x128 .f32) (harg1 : arg1.IsWhole)
    (arg2 : Memref sig .tc .vmem S8x16 .i32) (harg2 : arg2.IsWhole)
    (arg3 : Memref sig .tc .vmem S8x16 .f32) (harg3 : arg3.IsWhole)
    (x0 : Vec F S8x16x128x128 .f32) (x1 : Vec F S8x16 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0; subst hf1
  sl_exec_parts
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the output buffer holds its prior contents under the sixteen column stores, last first; the columns cover
  -- the block, so it reads as the canon of the stores, and each stored value is its query's column
  sl_unfold_run_names
  rw [View.read_writes_eq_canon _ _ _ (cover0_2 _ _ _ _ _ _ _ _ _ _ _ _ _ _ _ _)]
  unfold out0_2
  simp only [View.readAt_eq_ld, View.ld_unit_zero (S := S8x16x128x128) slab_off_zero, pay1_eq, pay3_eq, pay5_eq, pay6_eq,
    pay8_eq, pay9_eq, pay11_eq, pay12_eq, pay14_eq, pay15_eq, pay17_eq, pay18_eq, pay19_eq, pay20_eq, pay21_eq, pay22_eq]

end Cert.KernelIdeal.Hand

end
-- ==== Proof.KRun.lean ====
/-
  The proof data of the pipeline and its run.  Each input window's staging buffer holds, at every grid point, that
  point's block of the array (eight batch rows); after the body the output window's buffer holds the body's function
  of the two input blocks.  With these the pipelined region runs, the later lines run after it, and every array ends
  at what the write-backs leave: the frame, and the run the value claim reads the result from.
-/
import proofs.«417907_j30227979829940_1_alg».proof.Proof.KHost
import proofs.«417907_j30227979829940_1_alg».proof.Proof.KBody
import proofs.«417907_j30227979829940_1_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`: the arrays as the region finds them; after the body at point `t` each input's buffer at
    its block and the output's at the body's function of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t := by
  have hkeep : ∀ s, (cfg0.win 0).cut (cfg0.grid.coords s) ((dats m 0 c).after 0 s) = (dats m 0 c).blockOf 0 s := by
    intro s; rw [after0_0]; unfold Dat.blockOf iblk; rw [A_eq]
  rw [(dats m 0 c).before_in_eq_fetched 0 rfl (fun _ => rfl) (fun _ _ _ => rfl) hkeep t d]
  unfold Dat.fetched Dat.blockOf iblk; rw [A_eq]; rfl
theorem before0_1 (c : Dev nD) (t : Fin cfg0.N) (d) : (dats m 0 c).before 1 t d = iblk m c 1 t := by
  have hkeep : ∀ s, (cfg0.win 1).cut (cfg0.grid.coords s) ((dats m 0 c).after 1 s) = (dats m 0 c).blockOf 1 s := by
    intro s; rw [after0_1]; unfold Dat.blockOf iblk; rw [A_eq]
  rw [(dats m 0 c).before_in_eq_fetched 1 rfl (fun _ => rfl) (fun _ _ _ => rfl) hkeep t d]
  unfold Dat.fetched Dat.blockOf iblk; rw [A_eq]; rfl

/-- The body at point `t` under any frame `R`: the two input buffers hold their blocks, whatever the pipeline did there,
    and the output buffer holds something; the body returns the inputs as they were and the output at its function of the
    two blocks, and `R` (the invariant and what the core owes, which the body never reads) comes back untouched. -/
theorem body_at (c : Dev nD) (t : Fin cfg0.N) (R R' : sProp 𝕄) :
    iprop(R ∗ R'
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop(R ∗ R'
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  simp only [before0_0, before0_1]
  rw [after0_0, after0_1, after0_2]
  unfold bodyAt0
  iintro ⟨HR, HR', ⟨%d0, Hx⟩, ⟨%d1, Hi⟩, ⟨%d2, Hy⟩⟩
  iapply (sound_kernel c Set.univ (grid0.coords t) _ _ _ _ _ _ (iblk m c 0 t) (iblk m c 1 t) _)
  isplitl [Hx]; · iexact Hx
  isplitl [Hi]; · iexact Hi
  isplitl [Hy]; · iexists _; iexact Hy
  iintro ⟨Hx, Hi, Hy⟩
  isplitl [HR]; · iexact HR
  isplitl [HR']; · iexact HR'
  isplitl [Hx]; · iexact Hx
  isplitl [Hi]; · iexact Hi
  iexact Hy

/-- The library's body obligation, at every point: the windows one by one, the invariant and the core's debt (the same
    before and after a point) as the frame. -/
theorem body_obligation (c : Dev nD) : BodyObligation (dats (F := F) m 0 c) (defs₀ (F := F)) Variants.none () Set.univ := fun t => by
  rw [bigSep_W0, bigSep_W0]
  exact body_at m c t ((dats m 0 c).Φ t.castSucc) ((dats m 0 c).owesAt () t.castSucc)

set_option backward.isDefEq.respectTransparency.types false in
/-- Every weakly fair execution of the program terminates, with every staged array at what the write-backs leave and every
    other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KConsts.lean ====
/-
  The four constant tables as the region finds them: each is what its one line wrote, and no other of the four lines
  touches it.
-/
import proofs.«417907_j30227979829940_1_alg».proof.Proof.KHost
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

theorem V_main_c (c : Dev nD) : (V m c main_c : IVec S12 32) = fun i => lit0 (S12.rowMajor i) := by
  dsimp only [V, V0]; simp only [hostOps0, List.flatten_cons, List.flatten_nil, List.append_nil]; after_results; rfl
theorem V_main_c_0 (c : Dev nD) : (V m c main_c_0 : IVec S12 32) = fun i => lit1 (S12.rowMajor i) := by
  dsimp only [V, V0]; simp only [hostOps0, List.flatten_cons, List.flatten_nil, List.append_nil]; after_results; rfl
theorem V_main_c_1 (c : Dev nD) : (V m c main_c_1 : IVec S12 32) = fun i => lit2 (S12.rowMajor i) := by
  dsimp only [V, V0]; simp only [hostOps0, List.flatten_cons, List.flatten_nil, List.append_nil]; after_results; rfl
theorem V_main_cst (c : Dev nD) : (V m c main_cst : FVec Ideal S12 .f32) = fun i => FloatOps.ofBits (F := Ideal) .f32 (lit3 (S12.rowMajor i)) := by
  dsimp only [V, V0]; simp only [hostOps0, List.flatten_cons, List.flatten_nil, List.append_nil]; after_results; rfl

end Cert.KernelIdeal.Hand

end
-- ==== Proof.KCol.lean ====
/-
  One query's column at the ideal reading.  Row `r`'s entry is the sum over `j < 16`, `h < 128`, `w < 128` of
  `x[r, j, h, w]` where `h · 2048 + w · 16 + j` equals the row's index `k` and of zero elsewhere.  The flat position is
  below `2 ^ 18`, so the 32-bit products and sums do not wrap, and for `0 ≤ k < 16 · 128 · 128` the position equals `k`
  exactly at `j = k % 16`, `h = k / 2048`, `w = k / 16 % 128`: the three nested sums collapse to that one element
  (a sum of one value and zeros is that value on the extended reals, whatever the value).
-/
import proofs.«417907_j30227979829940_1_alg».proof.Proof.KBody
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

/-! ## Casts and broadcasts read at an index -/

/-- A length-`a` vector cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A length-`a` vector cast to `[a, 1, 1, 1]` reads, at `(i, u, v, w)`, the operand at `i`. -/
theorem shapeCast_a_a111_apply {α : Type} {a : ℕ} (x : (⟨1, ![a]⟩ : Shape).Idx → α)
    (h : (⟨1, ![a]⟩ : Shape).ShapeCasts ⟨4, ![a, 1, 1, 1]⟩) (i : Fin a) (u v w : Fin 1) :
    shapeCast ⟨4, ![a, 1, 1, 1]⟩ x h (ix4 i u v w) = x (ix1 i) :=
  shapeCast_apply x h _ _ (by
    have hu : u.val = 0 := by omega
    have hv : v.val = 0 := by omega
    have hw : w.val = 0 := by omega
    rw [Shape.rowMajor_val_four, Shape.rowMajor_val_one]
    show i.val = ((i.val * 1 + u.val) * 1 + v.val) * 1 + w.val
    simp only [hu, hv, hw, Nat.mul_one, Nat.add_zero])

/-- The slab of positions broadcast over the eight rows reads, at `(r, j, h, w)`, its one row at `(j, h, w)`. -/
theorem bcast_rows_apply {α : Type} (v : S1x16x128x128.Idx → α) (r : Fin 8) (j : Fin 16) (h w : Fin 128) :
    broadcastTo S8x16x128x128 v broadcasts_S1x16x128x128_S8x16x128x128 (ix4 r j h w) = v (ix4 (0 : Fin 1) j h w) := by
  refine broadcastTo_apply v _ (ix4 r j h w) (ix4 (0 : Fin 1) j h w) fun ax => ?_
  match ax with
  | ⟨0, _⟩ => rfl
  | ⟨1, _⟩ => rfl
  | ⟨2, _⟩ => rfl
  | ⟨3, _⟩ => rfl

/-- The column of indices broadcast over a slab reads, at `(r, j, h, w)`, row `r`'s index. -/
theorem bcast_slab_apply {α : Type} (v : S8x1x1x1.Idx → α) (r : Fin 8) (j : Fin 16) (h w : Fin 128) :
    broadcastTo S8x16x128x128 v broadcasts_S8x1x1x1_S8x16x128x128 (ix4 r j h w) = v (ix4 r (0 : Fin 1) (0 : Fin 1) (0 : Fin 1)) := by
  refine broadcastTo_apply v _ (ix4 r j h w) (ix4 r (0 : Fin 1) (0 : Fin 1) (0 : Fin 1)) fun ax => ?_
  match ax with
  | ⟨0, _⟩ => rfl
  | ⟨1, _⟩ => rfl
  | ⟨2, _⟩ => rfl
  | ⟨3, _⟩ => rfl

/-! ## The flat position -/

/-- The flat position at `(j, h, w)` is the word of `h · 2048 + w · 16 + j`: nothing wraps below `2 ^ 18`. -/
theorem flatPos_apply (j : Fin 16) (h w : Fin 128) :
    flatPos (ix3 j h w) = BitVec.ofNat 32 (h.val * 2048 + w.val * 16 + j.val) := by
  unfold flatPos
  show IntOp.addi (IntOp.addi (IntOp.muli (iota .tc S16x128x128 32 [1] iota_S16x128x128_d1_w32 (ix3 j h w)) 2048#32)
      (IntOp.muli (iota .tc S16x128x128 32 [2] iota_S16x128x128_d2_w32 (ix3 j h w)) 16#32))
      (iota .tc S16x128x128 32 [0] iota_S16x128x128_d0_w32 (ix3 j h w)) = _
  rw [iota_single_apply, iota_single_apply, iota_single_apply]
  show (BitVec.ofNat 32 h.val * 2048#32 + BitVec.ofNat 32 w.val * 16#32) + BitVec.ofNat 32 j.val = _
  apply BitVec.eq_of_toNat_eq
  simp only [BitVec.toNat_add, BitVec.toNat_mul, BitVec.toNat_ofNat]
  have := j.isLt; have := h.isLt; have := w.isLt
  omega

/-! ## The masked slab -/

/-- The one-bit word of an equality test is one exactly when the two words are equal. -/
theorem ofBool_beq_eq_one {n : ℕ} (a b : BitVec n) : BitVec.ofBool (a == b) = 1#1 ↔ a = b := by
  by_cases e : a = b
  · subst e; simp
  · have hb : (a == b) = false := by simpa using e
    rw [hb]; simp [e]

/-- The masked slab at `(r, j, h, w)`: the slab's element where the flat position is row `r`'s index, zero elsewhere. -/
theorem masked_apply (ic : IVec S8x1 32) (x : FVec Ideal S8x16x128x128 .f32) (r : Fin 8) (j : Fin 16) (h w : Fin 128) :
    select
        (cmpi .eq
          (broadcastTo S8x16x128x128 (shapeCast S1x16x128x128 flatPos shapeCasts_S16x128x128_S1x16x128x128) broadcasts_S1x16x128x128_S8x16x128x128)
          (broadcastTo S8x16x128x128 (shapeCast S8x1x1x1 (shapeCast S8 ic shapeCasts_S8x1_S8) shapeCasts_S8_S8x1x1x1) broadcasts_S8x1x1x1_S8x16x128x128))
        x (broadcast S8x16x128x128 (Scalar.ofBits (F := Ideal) .f32 0x00000000#32)) (ix4 r j h w)
      = if h.val * 2048 + w.val * 16 + j.val = (ic (ix2 r (0 : Fin 1))).toNat then x (ix4 r j h w) else 0 := by
  show Scalar.select (IntOp.cmpi .eq
        (broadcastTo S8x16x128x128 (shapeCast S1x16x128x128 flatPos shapeCasts_S16x128x128_S1x16x128x128) broadcasts_S1x16x128x128_S8x16x128x128 (ix4 r j h w))
        (broadcastTo S8x16x128x128 (shapeCast S8x1x1x1 (shapeCast S8 ic shapeCasts_S8x1_S8) shapeCasts_S8_S8x1x1x1) broadcasts_S8x1x1x1_S8x16x128x128 (ix4 r j h w)))
      (x (ix4 r j h w)) (Ideal.ofBits .f32 0x00000000#32) = _
  rw [bcast_rows_apply, bcast_slab_apply, shapeCast_abc_1abc_apply, shapeCast_a_a111_apply, shapeCast_a1_a_apply,
    flatPos_apply, Ideal.ofBits_zero_f32]
  have hj := j.isLt; have hh := h.isLt; have hw := w.isLt
  unfold Scalar.select IntOp.cmpi
  by_cases e : h.val * 2048 + w.val * 16 + j.val = (ic (ix2 r (0 : Fin 1))).toNat
  · rw [if_pos e, if_pos]
    refine (ofBool_beq_eq_one _ _).mpr (BitVec.eq_of_toNat_eq ?_)
    rw [BitVec.toNat_ofNat, ← e]; omega
  · rw [if_neg e, if_neg]
    intro hc
    apply e
    rw [← (ofBool_beq_eq_one _ _).mp hc, BitVec.toNat_ofNat]; omega

/-! ## The three sums -/

/-- The sum over `j` of an `[8, 16]` array at row `r`. -/
theorem sum_j_apply (v : FVec Ideal S8x16 .f32) (r : Fin 8) :
    multiReduction .add [1] S8 v 0x00000000#32 reduces_S8x16_S8 (.inl rfl) rfl (ix1 r) = ∑ j : Fin 16, v (ix2 r j) :=
  (Ideal.multiReduction_add_single v _ reduces_S8x16_S8 _ _ (ix1 r)).trans
    (Finset.sum_congr rfl fun k _ => congrArg v (funext fun a => Fin.ext (match a with | ⟨0, _⟩ => rfl | ⟨1, _⟩ => rfl)))

/-- The sum over `h` of an `[8, 16, 128]` array at `(r, j)`. -/
theorem sum_h_apply (v : FVec Ideal S8x16x128 .f32) (r : Fin 8) (j : Fin 16) :
    multiReduction .add [2] S8x16 v 0x00000000#32 reduces_S8x16x128_S8x16 (.inl rfl) rfl (ix2 r j) = ∑ h : Fin 128, v (ix3 r j h) :=
  (Ideal.multiReduction_add_single v _ reduces_S8x16x128_S8x16 _ _ (ix2 r j)).trans
    (Finset.sum_congr rfl fun k _ => congrArg v (funext fun a => Fin.ext (match a with | ⟨0, _⟩ => rfl | ⟨1, _⟩ => rfl | ⟨2, _⟩ => rfl)))

/-- The sum over `w` of an `[8, 16, 128, 128]` array at `(r, j, h)`. -/
theorem sum_w_apply (v : FVec Ideal S8x16x128x128 .f32) (r : Fin 8) (j : Fin 16) (h : Fin 128) :
    multiReduction .add [3] S8x16x128 v 0x00000000#32 reduces_S8x16x128x128_S8x16x128 (.inl rfl) rfl (ix3 r j h) = ∑ w : Fin 128, v (ix4 r j h w) :=
  (Ideal.multiReduction_add_single v _ reduces_S8x16x128x128_S8x16x128 _ _ (ix3 r j h)).trans
    (Finset.sum_congr rfl fun k _ => congrArg v (funext fun a => Fin.ext (match a with | ⟨0, _⟩ => rfl | ⟨1, _⟩ => rfl | ⟨2, _⟩ => rfl | ⟨3, _⟩ => rfl)))

/-- A sum over the slab's positions of a value where the flat position is `n` and of zero elsewhere is the value at
    `n`'s position `(n % 16, n / 2048, n / 16 % 128)`. -/
theorem sum_at_pos (f : Fin 16 → Fin 128 → Fin 128 → EReal) (n : ℕ) (hn : n < 262144) :
    ∑ j : Fin 16, ∑ h : Fin 128, ∑ w : Fin 128, (if h.val * 2048 + w.val * 16 + j.val = n then f j h w else 0)
      = f ⟨n % 16, Nat.mod_lt _ (by decide)⟩ ⟨n / 2048 % 128, Nat.mod_lt _ (by decide)⟩ ⟨n / 16 % 128, Nat.mod_lt _ (by decide)⟩ := by
  refine (Finset.sum_eq_single (⟨n % 16, Nat.mod_lt _ (by decide)⟩ : Fin 16) (fun j _ hj => ?_) (fun h => absurd (Finset.mem_univ _) h)).trans ?_
  · refine Finset.sum_eq_zero fun h _ => Finset.sum_eq_zero fun w _ => if_neg fun e => hj (Fin.ext ?_)
    show j.val = n % 16
    omega
  refine (Finset.sum_eq_single (⟨n / 2048 % 128, Nat.mod_lt _ (by decide)⟩ : Fin 128) (fun h _ hh => ?_) (fun h => absurd (Finset.mem_univ _) h)).trans ?_
  · refine Finset.sum_eq_zero fun w _ => if_neg fun e => hh (Fin.ext ?_)
    have e' : h.val * 2048 + w.val * 16 + n % 16 = n := e
    have := w.isLt
    show h.val = n / 2048 % 128
    omega
  refine (Finset.sum_eq_single (⟨n / 16 % 128, Nat.mod_lt _ (by decide)⟩ : Fin 128) (fun w _ hw => ?_) (fun h => absurd (Finset.mem_univ _) h)).trans ?_
  · refine if_neg fun e => hw (Fin.ext ?_)
    have e' : n / 2048 % 128 * 2048 + w.val * 16 + n % 16 = n := e
    show w.val = n / 16 % 128
    omega
  · refine if_pos ?_
    show n / 2048 % 128 * 2048 + n / 16 % 128 * 16 + n % 16 = n
    omega

/-! ## The column's entry -/

/-- Row `r` of one query's column is the slab's element at the row's index, where the index is in range. -/
theorem colVal_apply (ic : IVec S8x1 32) (x : FVec Ideal S8x16x128x128 .f32) (r : Fin 8)
    (h0 : 0 ≤ (ic (ix2 r (0 : Fin 1))).toInt) (h1 : (ic (ix2 r (0 : Fin 1))).toInt < 262144) :
    colVal (F := Ideal) ic x (ix2 r (0 : Fin 1))
      = x (ix4 r (⟨(ic (ix2 r (0 : Fin 1))).toNat % 16, Nat.mod_lt _ (by decide)⟩ : Fin 16)
               (⟨(ic (ix2 r (0 : Fin 1))).toNat / 2048 % 128, Nat.mod_lt _ (by decide)⟩ : Fin 128)
               (⟨(ic (ix2 r (0 : Fin 1))).toNat / 16 % 128, Nat.mod_lt _ (by decide)⟩ : Fin 128)) := by
  have hn : (ic (ix2 r (0 : Fin 1))).toNat < 262144 := by
    have := BitVec.toInt_eq_toNat_cond (ic (ix2 r (0 : Fin 1)))
    have := (ic (ix2 r (0 : Fin 1))).isLt
    omega
  unfold colVal
  refine (shapeCast_a_a1_apply _ _ r 0).trans ?_
  refine (sum_j_apply _ r).trans ?_
  refine (Finset.sum_congr rfl fun j _ => (sum_h_apply _ r j).trans (Finset.sum_congr rfl fun h _ =>
    (sum_w_apply _ r j h).trans (Finset.sum_congr rfl fun w _ => masked_apply ic x r j h w))).trans ?_
  exact sum_at_pos (fun j h w => x (ix4 r j h w)) _ hn

end Cert.KernelIdeal.Hand

end
-- ==== Proof.Spec.lean ====
/-
  What both programs compute before their common closing lines: for batch row `b` and query `q`, the element of row
  `b`'s `[16, 128, 128]` slab that sits at flat position `k = ind[b, q]` of the slab laid out as `[128, 128, 16]`
  (height, width, channel): channel `k % 16`, height `k / 2048`, width `k / 16 % 128`.  Meaningful where
  `0 ≤ k < 16 · 128 · 128`.
-/
import Idealize.ShloMosaic.PureOps.Ideal
import Idealize.ShloMosaic.Lib.ValueIdx

noncomputable section

namespace Cert.Spec

open Idealize.ShloMosaic Idealize.ShloMosaic.ValueIdx

abbrev SOut : Shape := ⟨4, ![128, 16, 128, 128]⟩
abbrev SInd : Shape := ⟨2, ![128, 16]⟩

/-- Every index, read as a signed number, is a position of the flattened slab. -/
def InRange (ind : IVec SInd 32) : Prop := ∀ i, 0 ≤ (ind i).toInt ∧ (ind i).toInt < 262144

/-- The gathered values: `x[b, k % 16, k / 2048, k / 16 % 128]` at `(b, q)`, `k = ind[b, q]`. -/
def pred (x : FVec Ideal SOut .f32) (ind : IVec SInd 32) : FVec Ideal SInd .f32 := fun i =>
  x (ix4 (⟨(i 0).val, (i 0).isLt⟩ : Fin 128)
         (⟨(ind i).toNat % 16, Nat.mod_lt _ (by decide)⟩ : Fin 16)
         (⟨(ind i).toNat / 2048 % 128, Nat.mod_lt _ (by decide)⟩ : Fin 128)
         (⟨(ind i).toNat / 16 % 128, Nat.mod_lt _ (by decide)⟩ : Fin 128))

end Cert.Spec

end
-- ==== Proof.KValue.lean ====
/-
  What the region leaves in its output array at the ideal reading.  Block `t` of the `[128, 16]` output is rows
  `8 t … 8 t + 7`; entry `(r, q)` of a block is the sum, over the row's whole `[16, 128, 128]` slab, of the elements whose
  flat position `h · 2048 + w · 16 + j` equals the row's index `k` for query `q` (zero elsewhere).  Where
  `0 ≤ k < 16 · 128 · 128` exactly one position matches, so the sum is that one element (adding zeros changes no
  extended real): the array is the gathered values.
-/
import proofs.«417907_j30227979829940_1_alg».proof.Proof.KRun
import proofs.«417907_j30227979829940_1_alg».proof.Proof.KCol
import proofs.«417907_j30227979829940_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The slab element that flat position `k` names in batch row `b`: channel `k % 16`, height `k / 2048`,
    width `k / 16 % 128`. -/
def pick (n : Nat) (X : FVec Ideal ⟨4, ![n, 16, 128, 128]⟩ .f32) (b : Fin n) (k : BitVec 32) : Ideal .f32 :=
  X (ix4 b (⟨k.toNat % 16, Nat.mod_lt _ (by decide)⟩ : Fin 16)
           (⟨k.toNat / 2048 % 128, Nat.mod_lt _ (by decide)⟩ : Fin 128)
           (⟨k.toNat / 16 % 128, Nat.mod_lt _ (by decide)⟩ : Fin 128))

/-- Two arrays that agree on a batch row's slab give the same element for every position. -/
theorem pick_congr (n n' : Nat) (X : FVec Ideal ⟨4, ![n, 16, 128, 128]⟩ .f32) (X' : FVec Ideal ⟨4, ![n', 16, 128, 128]⟩ .f32)
    (b : Fin n) (b' : Fin n') (k : BitVec 32)
    (h : ∀ (q : Fin 16) (h w : Fin 128), X (ix4 b q h w) = X' (ix4 b' q h w)) : pick n X b k = pick n' X' b' k :=
  h _ _ _

/-- The gathered values of one block: entry `(r, q)` is the element of row `r`'s slab at position `x1[r, q]`. -/
def blockPred (x0 : FVec Ideal S8x16x128x128 .f32) (x1 : IVec S8x16 32) : FVec Ideal S8x16 .f32 := fun y =>
  pick 8 x0 ⟨(y 0).val, idx2_lt0 y⟩ (x1 y)

/-- One column store holds the gathered values of its column: a column rectangle starts at row zero, so its row `r`
    is the block's row `r`, and the column's index there is the block's. -/
theorem col_piece (x0 : FVec Ideal S8x16x128x128 .f32) (x1 : IVec S8x16 32)
    (hin : ∀ y, 0 ≤ (x1 y).toInt ∧ (x1 y).toInt < 262144)
    (off : Fin S8x16.rank → Nat) (inb : ∀ a, off a + S8x1.size a ≤ S8x16.size a) (h0 : off 0 = 0) (x : S8x1.Idx) :
    colVal (F := Ideal) (View.ld x1 (Rect.unit (s := S8x16) off S8x1.size inb)) x0 x
      = blockPred x0 x1 ((Rect.unit (s := S8x16) off S8x1.size inb).emb x) := by
  obtain ⟨r, z, rfl⟩ : ∃ (r : Fin 8) (z : Fin 1), x = ix2 r z := ⟨x 0, x 1, eq_ix2 x⟩
  obtain rfl : z = 0 := Subsingleton.elim _ _
  have hr := hin ((Rect.unit (s := S8x16) off S8x1.size inb).emb (ix2 r (0 : Fin 1)))
  refine (colVal_apply _ x0 r hr.1 hr.2).trans ?_
  have hrow : (⟨((Rect.unit (s := S8x16) off S8x1.size inb).emb (ix2 r (0 : Fin 1)) 0).val,
      idx2_lt0 ((Rect.unit (s := S8x16) off S8x1.size inb).emb (ix2 r (0 : Fin 1)))⟩ : Fin 8) = r :=
    Fin.ext (by show off 0 + 1 * r.val = r.val; omega)
  unfold blockPred
  rw [hrow]
  rfl

/-- The block after the body is the gathered values of the two input blocks, where every index is in range. -/
theorem out0_2_eq (x0 : FVec Ideal S8x16x128x128 .f32) (x1 : IVec S8x16 32)
    (hin : ∀ y, 0 ≤ (x1 y).toInt ∧ (x1 y).toInt < 262144) :
    out0_2 (F := Ideal) x0 x1 = blockPred x0 x1 := by
  funext y
  unfold out0_2
  refine View.canon_apply_of_pieces (Val := Elt Ideal) (blockPred x0 x1) _ ?_ y (cover0_2 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  all_goals exact col_piece x0 x1 hin _ _ rfl x

variable (m : (ℓ : Loc nD τ sig) → Buf (Elt Ideal) ℓ)

/-- The block index of each window at point `t`: `t` along the batch rows, zero along every other axis. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the gathered values of the launch contents. -/
theorem flushed_eq (c : Dev nD) (hin : Cert.Spec.InRange (m ((c : Thread nD τ).loc main_arg2))) (t : Fin cfg0.N) :
    (dats (F := Ideal) m 0 c).flushed 2 t = ((cfg0.win 2).blk t).view.read (Elt Ideal)
      (Cert.Spec.pred (m ((c : Thread nD τ).loc main_arg0)) (m ((c : Thread nD τ).loc main_arg2))) := by
  show (cfg0.win 2).cut (grid0.coords t) ((dats m 0 c).after 2 t) = _
  rw [after0_2]
  have h1 : ∀ y, 0 ≤ ((iblk m c 1 t : IVec S8x16 32) y).toInt ∧ ((iblk m c 1 t : IVec S8x16 32) y).toInt < 262144 := by
    intro y
    show 0 ≤ ((V m c main_arg2) (((cfg0.win 1).blk t).view.emb y)).toInt ∧ _
    rw [V_main_arg2]; exact hin _
  rw [out0_2_eq _ _ h1]
  obtain ⟨e00, e01, e02, e03, e10, e11, e20, e21⟩ := idx_facts t
  funext j
  have hemb : ((cfg0.win 1).blk t).view.emb j = ((cfg0.win 2).blk t).view.emb j := by
    funext a; apply Fin.ext
    match a with
    | ⟨0, _⟩ => show win0_1.index t (0 : Fin 2) * 8 + 1 * (j 0).val = win0_2.index t (0 : Fin 2) * 8 + 1 * (j 0).val; omega
    | ⟨1, _⟩ => show win0_1.index t (1 : Fin 2) * 16 + 1 * (j 1).val = win0_2.index t (1 : Fin 2) * 16 + 1 * (j 1).val; omega
  have hI : (iblk m c 1 t : IVec S8x16 32) j = m ((c : Thread nD τ).loc main_arg2) (((cfg0.win 2).blk t).view.emb j) := by
    show V m c main_arg2 (((cfg0.win 1).blk t).view.emb j) = _
    rw [V_main_arg2, hemb]
  show pick 8 (iblk m c 0 t) ⟨(j 0).val, idx2_lt0 j⟩ ((iblk m c 1 t : IVec S8x16 32) j)
    = pick 128 (m ((c : Thread nD τ).loc main_arg0)) ⟨((((cfg0.win 2).blk t).view.emb j) 0).val, ((((cfg0.win 2).blk t).view.emb j) 0).isLt⟩
        (m ((c : Thread nD τ).loc main_arg2) (((cfg0.win 2).blk t).view.emb j))
  rw [hI]
  refine pick_congr 8 128 _ _ _ _ _ (fun q h w => ?_)
  show V m c main_arg0 (((cfg0.win 0).blk t).view.emb (ix4 (⟨(j 0).val, idx2_lt0 j⟩ : Fin 8) q h w)) = _
  rw [V_main_arg0]
  refine congrArg (m ((c : Thread nD τ).loc main_arg0)) (funext fun a => Fin.ext ?_)
  match a with
  | ⟨0, _⟩ => show win0_0.index t (0 : Fin 4) * 8 + 1 * (j 0).val = win0_2.index t (0 : Fin 2) * 8 + 1 * (j 0).val; omega
  | ⟨1, _⟩ => show win0_0.index t (1 : Fin 4) * 16 + 1 * q.val = q.val; omega
  | ⟨2, _⟩ => show win0_0.index t (2 : Fin 4) * 128 + 1 * h.val = h.val; omega
  | ⟨3, _⟩ => show win0_0.index t (3 : Fin 4) * 128 + 1 * w.val = w.val; omega

/-- Every row of the array is in some point's block: row `r` in the block of point `r / 8`. -/
theorem cover (i : S128x16.Idx) :
    ∃ t : Fin cfg0.N, (cfg0.win 2).flush t = true ∧ i ∈ ((cfg0.win 2).blk t).view.set := by
  have hi0 : (i 0).val < 128 := idx2_lt0 i
  have hi1 : (i 1).val < 16 := idx2_lt1 i
  have ht : (i 0).val / 8 < cfg0.N := by show _ < grid0.N; rw [N_0]; omega
  obtain ⟨-, -, -, -, -, -, e20, e21⟩ := idx_facts ⟨(i 0).val / 8, ht⟩
  refine ⟨⟨(i 0).val / 8, ht⟩, flush0_2 _, ?_⟩
  show i ∈ ((View.whole main_v0).slice (win0_2.rect ⟨(i 0).val / 8, ht⟩)).set
  rw [View.set_slice_whole, Rect.mem_set_unit]
  intro a
  match a with
  | ⟨0, _⟩ =>
    show win0_2.index ⟨(i 0).val / 8, ht⟩ (0 : Fin 2) * 8 ≤ (i 0).val
      ∧ (i 0).val < win0_2.index ⟨(i 0).val / 8, ht⟩ (0 : Fin 2) * 8 + 8
    rw [e20]; show (i 0).val / 8 * 8 ≤ (i 0).val ∧ (i 0).val < (i 0).val / 8 * 8 + 8; omega
  | ⟨1, _⟩ =>
    show win0_2.index ⟨(i 0).val / 8, ht⟩ (1 : Fin 2) * 16 ≤ (i 1).val
      ∧ (i 1).val < win0_2.index ⟨(i 0).val / 8, ht⟩ (1 : Fin 2) * 16 + 16
    rw [e21]; omega

/-- After the run the region's output array holds the gathered values of the launch contents. -/
theorem final (c : Dev nD) (hin : Cert.Spec.InRange (m ((c : Thread nD τ).loc main_arg2))) :
    ((dats (F := Ideal) m 0 c).arrAt 2 cfg0.N : FVec Ideal S128x16 .f32)
      = Cert.Spec.pred (m ((c : Thread nD τ).loc main_arg0)) (m ((c : Thread nD τ).loc main_arg2)) :=
  (dats (F := Ideal) m 0 c).arrAt_eq_of_cover 2
    (Cert.Spec.pred (m ((c : Thread nD τ).loc main_arg0)) (m ((c : Thread nD τ).loc main_arg2)))
    (fun t _ => flushed_eq m c hin t) cover

end Cert.KernelIdeal.Hand

end
-- ==== Proof.RefOps.lean ====
import proofs.«417907_j30227979829940_1_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The 28 operations up to the gathered values: the four constant tables, the transpose and the flattening, and the index-normalising gather. -/
abbrev headOps : List (HloOp τ sig (Elt F)) :=
  [ StableHlo.nullary main_c (fun i => lit0 (S12.rowMajor i)),
    StableHlo.nullary main_c_0 (fun i => lit1 (S12.rowMajor i)),
    StableHlo.nullary main_c_1 (fun i => lit2 (S12.rowMajor i)),
    StableHlo.nullary main_cst (fun i => FloatOps.ofBits .f32 (lit3 (S12.rowMajor i))),
    StableHlo.unary main_arg0 main_v0 ((transpose S128x128x128x16 [0, 2, 3, 1] · transposes_S128x16x128x128_S128x128x128x16_0_2_3_1) : (⟨S128x16x128x128, .f32⟩ : BufTy).Contents (Elt F) → (⟨S128x128x128x16, .f32⟩ : BufTy).Contents (Elt F)),
    StableHlo.reshape main_v0 main_v1 rfl shapeCasts_S128x128x128x16_S128x262144,
    StableHlo.TRef.nullary main_call0.c (constantI S_ 32 0#32),
    StableHlo.TRef.unary main_call0.c main_call0.v0 (broadcastInDim S128x16 ![] bcast_S_S128x16),
    StableHlo.TRef.binary (.of main_arg2 : StableHlo.TRef sig ⟨S128x16, .i32⟩) main_call0.v0 main_call0.v1 (cmpi .slt),
    StableHlo.TRef.nullary main_call0.c_0 (constantI S_ 32 262144#32),
    StableHlo.TRef.unary main_call0.c_0 main_call0.v2 (broadcastInDim S128x16 ![] bcast_S_S128x16),
    StableHlo.TRef.binary (.of main_arg2 : StableHlo.TRef sig ⟨S128x16, .i32⟩) main_call0.v2 main_call0.v3 addi,
    StableHlo.TRef.ternary main_call0.v1 main_call0.v3 (.of main_arg2 : StableHlo.TRef sig ⟨S128x16, .i32⟩) main_call0.v4 select,
    StableHlo.TRef.reshape main_call0.v4 main_call0.v5 rfl shapeCasts_S128x16_S128x16x1,
    StableHlo.TRef.nullary main_call0.c_1 (constantI S1 32 262143#32),
    StableHlo.TRef.nullary main_call0.c_2 (constantI S_ 32 0#32),
    StableHlo.TRef.unary main_call0.c_2 main_call0.v6 (broadcastInDim S128x16x1 ![] bcast_S_S128x16x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S128x16x1 ![0, 1, 2] bcast_S1x1x1_S128x16x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S128x16x1_S128x16_d2 h_S_),
    StableHlo.TRef.binary (.of main_v1 : StableHlo.TRef sig ⟨S128x262144, .f32⟩) main_call0.v5 main_call0.v13 (fun x i => Host.gather gather_S128x262144_S128x16x1_S128x16_n_1_0_0_1_2_11 x i),
    StableHlo.TRef.nullary main_call0.cst (constant S_ .f32 0x7FC00000#32),
    StableHlo.TRef.unary main_call0.cst main_call0.v14 (broadcastInDim S128x16 ![] bcast_S_S128x16),
    StableHlo.TRef.ternary main_call0.v12 main_call0.v13 main_call0.v14 main_call0.v15 select ]
/-- Each touches TensorCore references only. -/
theorem headOps_sub : (headOps : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Stretch 0 of the lines after the gathered values: 20 operations. -/
abbrev tailOps0 : List (HloOp τ sig (Elt F)) :=
  [ StableHlo.unary main_v2 main_v3 (broadcastInDim S128x16x1 ![0, 1] bcast_S128x16_S128x16x1_0_1 : (⟨S128x16, .f32⟩ : BufTy).Contents (Elt F) → (⟨S128x16x1, .f32⟩ : BufTy).Contents (Elt F)),
    StableHlo.unary main_arg1 main_v4 (sitofp .f32 : (⟨S128x16, .i32⟩ : BufTy).Contents (Elt F) → (⟨S128x16, .f32⟩ : BufTy).Contents (Elt F)),
    StableHlo.nullary main_cst_2 (constant S_ .f32 0x00000000#32),
    StableHlo.binary main_v4 main_cst_2 main_v5 ((fun x v => Host.reduceAdd x v reducesTo_S128x16_S_d0_1 h_S_) : (⟨S128x16, .f32⟩ : BufTy).Contents (Elt F) → (⟨S_, .f32⟩ : BufTy).Contents (Elt F) → (⟨S_, .f32⟩ : BufTy).Contents (Elt F)),
    StableHlo.unary main_arg1 main_v6 (sitofp .f32 : (⟨S128x16, .i32⟩ : BufTy).Contents (Elt F) → (⟨S128x16, .f32⟩ : BufTy).Contents (Elt F)),
    StableHlo.unary main_v6 main_v7 (broadcastInDim S128x16x1 ![0, 1] bcast_S128x16_S128x16x1_0_1 : (⟨S128x16, .f32⟩ : BufTy).Contents (Elt F) → (⟨S128x16x1, .f32⟩ : BufTy).Contents (Elt F)),
    StableHlo.binary main_v3 main_v7 main_v8 (mulf : (⟨S128x16x1, .f32⟩ : BufTy).Contents (Elt F) → (⟨S128x16x1, .f32⟩ : BufTy).Contents (Elt F) → (⟨S128x16x1, .f32⟩ : BufTy).Contents (Elt F)),
    StableHlo.binary main_arg3 main_v7 main_v9 (mulf : (⟨S128x16x1, .f32⟩ : BufTy).Contents (Elt F) → (⟨S128x16x1, .f32⟩ : BufTy).Contents (Elt F) → (⟨S128x16x1, .f32⟩ : BufTy).Contents (Elt F)),
    StableHlo.binary main_v8 main_v9 main_v10 (subf : (⟨S128x16x1, .f32⟩ : BufTy).Contents (Elt F) → (⟨S128x16x1, .f32⟩ : BufTy).Contents (Elt F) → (⟨S128x16x1, .f32⟩ : BufTy).Contents (Elt F)),
    StableHlo.unary main_v10 main_v11 (Host.absf : (⟨S128x16x1, .f32⟩ : BufTy).Contents (Elt F) → (⟨S128x16x1, .f32⟩ : BufTy).Contents (Elt F)),
    StableHlo.nullary main_cst_3 (constant S_ .f32 0x3F800000#32),
    StableHlo.unary main_cst_3 main_v12 (broadcastInDim S128x16x1 ![] bcast_S_S128x16x1 : (⟨S_, .f32⟩ : BufTy).Contents (Elt F) → (⟨S128x16x1, .f32⟩ : BufTy).Contents (Elt F)),
    StableHlo.binary main_v11 main_v12 main_v13 (cmpf .olt : (⟨S128x16x1, .f32⟩ : BufTy).Contents (Elt F) → (⟨S128x16x1, .f32⟩ : BufTy).Contents (Elt F) → (⟨S128x16x1, .i1⟩ : BufTy).Contents (Elt F)),
    StableHlo.nullary main_cst_4 (constant S_ .f32 0x3F000000#32),
    StableHlo.unary main_cst_4 main_v14 (broadcastInDim S128x16x1 ![] bcast_S_S128x16x1 : (⟨S_, .f32⟩ : BufTy).Contents (Elt F) → (⟨S128x16x1, .f32⟩ : BufTy).Contents (Elt F)),
    StableHlo.binary main_v14 main_v10 main_v15 (mulf : (⟨S128x16x1, .f32⟩ : BufTy).Contents (Elt F) → (⟨S128x16x1, .f32⟩ : BufTy).Contents (Elt F) → (⟨S128x16x1, .f32⟩ : BufTy).Contents (Elt F)),
    StableHlo.binary main_v15 main_v10 main_v16 (mulf : (⟨S128x16x1, .f32⟩ : BufTy).Contents (Elt F) → (⟨S128x16x1, .f32⟩ : BufTy).Contents (Elt F) → (⟨S128x16x1, .f32⟩ : BufTy).Contents (Elt F)),
    StableHlo.nullary main_cst_5 (constant S_ .f32 0x3F000000#32),
    StableHlo.unary main_cst_5 main_v17 (broadcastInDim S128x16x1 ![] bcast_S_S128x16x1 : (⟨S_, .f32⟩ : BufTy).Contents (Elt F) → (⟨S128x16x1, .f32⟩ : BufTy).Contents (Elt F)),
    StableHlo.binary main_v11 main_v17 main_v18 (subf : (⟨S128x16x1, .f32⟩ : BufTy).Contents (Elt F) → (⟨S128x16x1, .f32⟩ : BufTy).Contents (Elt F) → (⟨S128x16x1, .f32⟩ : BufTy).Contents (Elt F)) ]
/-- Each touches TensorCore references only. -/
theorem tailOps0_sub : (tailOps0 : List (HloOp τ sig (Elt F))).Forall fun op => op.bufs ⊆ StableHlo.tcRefs τ sig :=
  ⟨StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩

/-- Stretch 1 of the lines after the gathered values: 1 operations. -/
abbrev tailOps1 : List (HloOp τ sig (Elt F)) :=
  [ StableHlo.TRef.ternary (.of main_v13 : StableHlo.TRef sig ⟨S128x16x1, .i1⟩) (.of main_v16 : StableHlo.TRef sig ⟨S128x16x1, .f32⟩) (.of main_v18 : StableHlo.TRef sig ⟨S128x16x1, .f32⟩) main_call1.v0 select ]
/-- Each touches TensorCore references only. -/
theorem tailOps1_sub : (tailOps1 : List (HloOp τ sig (Elt F))).Forall fun op => op.bufs ⊆ StableHlo.tcRefs τ sig :=
  StableHlo.ternary_bufs_sub ..

set_option maxHeartbeats 40000000 in
/-- Stretch 2 of the lines after the gathered values: 81 operations. -/
abbrev tailOps2 : List (HloOp τ sig (Elt F)) :=
  ( StableHlo.nullary main_cst_6 (constant S_ .f32 0x00000000#32)
  :: StableHlo.binary main_v19 main_cst_6 main_v20 ((fun x v => Host.reduceAdd x v reducesTo_S128x16x1_S_d0_1_2 h_S_) : (⟨S128x16x1, .f32⟩ : BufTy).Contents (Elt F) → (⟨S_, .f32⟩ : BufTy).Contents (Elt F) → (⟨S_, .f32⟩ : BufTy).Contents (Elt F))
  :: StableHlo.nullary main_cst_7 (constant S_ .f32 0x38D1B717#32)
  :: StableHlo.binary main_v5 main_cst_7 main_v21 (addf : (⟨S_, .f32⟩ : BufTy).Contents (Elt F) → (⟨S_, .f32⟩ : BufTy).Contents (Elt F) → (⟨S_, .f32⟩ : BufTy).Contents (Elt F))
  :: StableHlo.binary main_v20 main_v21 main_v22 (Host.divf : (⟨S_, .f32⟩ : BufTy).Contents (Elt F) → (⟨S_, .f32⟩ : BufTy).Contents (Elt F) → (⟨S_, .f32⟩ : BufTy).Contents (Elt F))
  :: StableHlo.nullary main_cst_8 (constant S_ .f32 0x3F800000#32)
  :: StableHlo.binary main_cst_8 main_v22 main_v23 (mulf : (⟨S_, .f32⟩ : BufTy).Contents (Elt F) → (⟨S_, .f32⟩ : BufTy).Contents (Elt F) → (⟨S_, .f32⟩ : BufTy).Contents (Elt F))
  :: StableHlo.nullary main_cst_9 (constant S_ .f32 0x00000000#32)
  :: StableHlo.binary main_cst_9 main_v23 main_v24 (addf : (⟨S_, .f32⟩ : BufTy).Contents (Elt F) → (⟨S_, .f32⟩ : BufTy).Contents (Elt F) → (⟨S_, .f32⟩ : BufTy).Contents (Elt F))
  :: StableHlo.reshape main_arg4 main_v25 rfl shapeCasts_S128x32_S128x16x2
  :: StableHlo.reshape main_v3 main_v26 rfl shapeCasts_S128x16x1_S128x16
  :: StableHlo.reshape main_arg3 main_v27 rfl shapeCasts_S128x16x1_S128x16
  :: StableHlo.nullary main_c_10 (constantI S_ 32 0#32)
  :: StableHlo.unary main_c_10 main_v28 (broadcastInDim S12 ![] bcast_S_S12 : (⟨S_, .i32⟩ : BufTy).Contents (Elt F) → (⟨S12, .i32⟩ : BufTy).Contents (Elt F))
  :: StableHlo.binary main_c main_v28 main_v29 (cmpi .slt : (⟨S12, .i32⟩ : BufTy).Contents (Elt F) → (⟨S12, .i32⟩ : BufTy).Contents (Elt F) → (⟨S12, .i1⟩ : BufTy).Contents (Elt F))
  :: StableHlo.nullary main_c_11 (constantI S_ 32 16#32)
  :: StableHlo.unary main_c_11 main_v30 (broadcastInDim S12 ![] bcast_S_S12 : (⟨S_, .i32⟩ : BufTy).Contents (Elt F) → (⟨S12, .i32⟩ : BufTy).Contents (Elt F))
  :: StableHlo.binary main_c main_v30 main_v31 (addi : (⟨S12, .i32⟩ : BufTy).Contents (Elt F) → (⟨S12, .i32⟩ : BufTy).Contents (Elt F) → (⟨S12, .i32⟩ : BufTy).Contents (Elt F))
  :: StableHlo.ternary main_v29 main_v31 main_c main_v32 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v32 main_v33 (broadcastInDim S12x1 ![0] bcast_S12_S12x1_0 : (⟨S12, .i32⟩ : BufTy).Contents (Elt F) → (⟨S12x1, .i32⟩ : BufTy).Contents (Elt F))
  :: StableHlo.binary main_v27 main_v33 main_v34 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.nullary main_cst_12 (constant S_ .f32 0x3F000000#32)
  :: StableHlo.unary main_cst_12 main_v35 (broadcastInDim S128x12 ![] bcast_S_S128x12 : (⟨S_, .f32⟩ : BufTy).Contents (Elt F) → (⟨S128x12, .f32⟩ : BufTy).Contents (Elt F))
  :: StableHlo.binary main_v34 main_v35 main_v36 (cmpf .ogt : (⟨S128x12, .f32⟩ : BufTy).Contents (Elt F) → (⟨S128x12, .f32⟩ : BufTy).Contents (Elt F) → (⟨S128x12, .i1⟩ : BufTy).Contents (Elt F))
  :: StableHlo.nullary main_c_13 (constantI S_ 32 0#32)
  :: StableHlo.unary main_c_13 main_v37 (broadcastInDim S12 ![] bcast_S_S12 : (⟨S_, .i32⟩ : BufTy).Contents (Elt F) → (⟨S12, .i32⟩ : BufTy).Contents (Elt F))
  :: StableHlo.binary main_c_0 main_v37 main_v38 (cmpi .slt : (⟨S12, .i32⟩ : BufTy).Contents (Elt F) → (⟨S12, .i32⟩ : BufTy).Contents (Elt F) → (⟨S12, .i1⟩ : BufTy).Contents (Elt F))
  :: StableHlo.nullary main_c_14 (constantI S_ 32 16#32)
  :: StableHlo.unary main_c_14 main_v39 (broadcastInDim S12 ![] bcast_S_S12 : (⟨S_, .i32⟩ : BufTy).Contents (Elt F) → (⟨S12, .i32⟩ : BufTy).Contents (Elt F))
  :: StableHlo.binary main_c_0 main_v39 main_v40 (addi : (⟨S12, .i32⟩ : BufTy).Contents (Elt F) → (⟨S12, .i32⟩ : BufTy).Contents (Elt F) → (⟨S12, .i32⟩ : BufTy).Contents (Elt F))
  :: StableHlo.ternary main_v38 main_v40 main_c_0 main_v41 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v41 main_v42 (broadcastInDim S12x1 ![0] bcast_S12_S12x1_0 : (⟨S12, .i32⟩ : BufTy).Contents (Elt F) → (⟨S12x1, .i32⟩ : BufTy).Contents (Elt F))
  :: StableHlo.binary main_v27 main_v42 main_v43 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.nullary main_cst_15 (constant S_ .f32 0x3F000000#32)
  :: StableHlo.unary main_cst_15 main_v44 (broadcastInDim S128x12 ![] bcast_S_S128x12 : (⟨S_, .f32⟩ : BufTy).Contents (Elt F) → (⟨S128x12, .f32⟩ : BufTy).Contents (Elt F))
  :: StableHlo.binary main_v43 main_v44 main_v45 (cmpf .ogt : (⟨S128x12, .f32⟩ : BufTy).Contents (Elt F) → (⟨S128x12, .f32⟩ : BufTy).Contents (Elt F) → (⟨S128x12, .i1⟩ : BufTy).Contents (Elt F))
  :: StableHlo.binary main_v36 main_v45 main_v46 (andi : (⟨S128x12, .i1⟩ : BufTy).Contents (Elt F) → (⟨S128x12, .i1⟩ : BufTy).Contents (Elt F) → (⟨S128x12, .i1⟩ : BufTy).Contents (Elt F))
  :: StableHlo.nullary main_c_16 (constantI S_ 32 0#32)
  :: StableHlo.unary main_c_16 main_v47 (broadcastInDim S12 ![] bcast_S_S12 : (⟨S_, .i32⟩ : BufTy).Contents (Elt F) → (⟨S12, .i32⟩ : BufTy).Contents (Elt F))
  :: StableHlo.binary main_c main_v47 main_v48 (cmpi .slt : (⟨S12, .i32⟩ : BufTy).Contents (Elt F) → (⟨S12, .i32⟩ : BufTy).Contents (Elt F) → (⟨S12, .i1⟩ : BufTy).Contents (Elt F))
  :: StableHlo.nullary main_c_17 (constantI S_ 32 16#32)
  :: StableHlo.unary main_c_17 main_v49 (broadcastInDim S12 ![] bcast_S_S12 : (⟨S_, .i32⟩ : BufTy).Contents (Elt F) → (⟨S12, .i32⟩ : BufTy).Contents (Elt F))
  :: StableHlo.binary main_c main_v49 main_v50 (addi : (⟨S12, .i32⟩ : BufTy).Contents (Elt F) → (⟨S12, .i32⟩ : BufTy).Contents (Elt F) → (⟨S12, .i32⟩ : BufTy).Contents (Elt F))
  :: StableHlo.ternary main_v48 main_v50 main_c main_v51 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v51 main_v52 (broadcastInDim S12x1 ![0] bcast_S12_S12x1_0 : (⟨S12, .i32⟩ : BufTy).Contents (Elt F) → (⟨S12x1, .i32⟩ : BufTy).Contents (Elt F))
  :: StableHlo.binary main_v25 main_v52 main_v53 ((fun x i => Host.gather gather_S128x16x2_S12x1_S128x12x2_02_1_n_n_1_1_12812 x i) : (⟨S128x16x2, .f32⟩ : BufTy).Contents (Elt F) → (⟨S12x1, .i32⟩ : BufTy).Contents (Elt F) → (⟨S128x12x2, .f32⟩ : BufTy).Contents (Elt F))
  :: StableHlo.nullary main_c_18 (constantI S_ 32 0#32)
  :: StableHlo.unary main_c_18 main_v54 (broadcastInDim S12 ![] bcast_S_S12 : (⟨S_, .i32⟩ : BufTy).Contents (Elt F) → (⟨S12, .i32⟩ : BufTy).Contents (Elt F))
  :: StableHlo.binary main_c_0 main_v54 main_v55 (cmpi .slt : (⟨S12, .i32⟩ : BufTy).Contents (Elt F) → (⟨S12, .i32⟩ : BufTy).Contents (Elt F) → (⟨S12, .i1⟩ : BufTy).Contents (Elt F))
  :: StableHlo.nullary main_c_19 (constantI S_ 32 16#32)
  :: StableHlo.unary main_c_19 main_v56 (broadcastInDim S12 ![] bcast_S_S12 : (⟨S_, .i32⟩ : BufTy).Contents (Elt F) → (⟨S12, .i32⟩ : BufTy).Contents (Elt F))
  :: StableHlo.binary main_c_0 main_v56 main_v57 (addi : (⟨S12, .i32⟩ : BufTy).Contents (Elt F) → (⟨S12, .i32⟩ : BufTy).Contents (Elt F) → (⟨S12, .i32⟩ : BufTy).Contents (Elt F))
  :: StableHlo.ternary main_v55 main_v57 main_c_0 main_v58 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v58 main_v59 (broadcastInDim S12x1 ![0] bcast_S12_S12x1_0 : (⟨S12, .i32⟩ : BufTy).Contents (Elt F) → (⟨S12x1, .i32⟩ : BufTy).Contents (Elt F))
  :: StableHlo.binary main_v25 main_v59 main_v60 ((fun x i => Host.gather gather_S128x16x2_S12x1_S128x12x2_02_1_n_n_1_1_12812 x i) : (⟨S128x16x2, .f32⟩ : BufTy).Contents (Elt F) → (⟨S12x1, .i32⟩ : BufTy).Contents (Elt F) → (⟨S128x12x2, .f32⟩ : BufTy).Contents (Elt F))
  :: StableHlo.binary main_v53 main_v60 main_v61 (subf : (⟨S128x12x2, .f32⟩ : BufTy).Contents (Elt F) → (⟨S128x12x2, .f32⟩ : BufTy).Contents (Elt F) → (⟨S128x12x2, .f32⟩ : BufTy).Contents (Elt F))
  :: StableHlo.binary main_v61 main_v61 main_v62 (mulf : (⟨S128x12x2, .f32⟩ : BufTy).Contents (Elt F) → (⟨S128x12x2, .f32⟩ : BufTy).Contents (Elt F) → (⟨S128x12x2, .f32⟩ : BufTy).Contents (Elt F))
  :: StableHlo.nullary main_cst_20 (constant S_ .f32 0x00000000#32)
  :: StableHlo.binary main_v62 main_cst_20 main_v63 ((fun x v => Host.reduceAdd x v reducesTo_S128x12x2_S128x12_d2 h_S_) : (⟨S128x12x2, .f32⟩ : BufTy).Contents (Elt F) → (⟨S_, .f32⟩ : BufTy).Contents (Elt F) → (⟨S128x12, .f32⟩ : BufTy).Contents (Elt F))
  :: StableHlo.nullary main_c_21 (constantI S_ 32 0#32)
  :: StableHlo.unary main_c_21 main_v64 (broadcastInDim S12 ![] bcast_S_S12 : (⟨S_, .i32⟩ : BufTy).Contents (Elt F) → (⟨S12, .i32⟩ : BufTy).Contents (Elt F))
  :: StableHlo.binary main_c main_v64 main_v65 (cmpi .slt : (⟨S12, .i32⟩ : BufTy).Contents (Elt F) → (⟨S12, .i32⟩ : BufTy).Contents (Elt F) → (⟨S12, .i1⟩ : BufTy).Contents (Elt F))
  :: StableHlo.nullary main_c_22 (constantI S_ 32 16#32)
  :: StableHlo.unary main_c_22 main_v66 (broadcastInDim S12 ![] bcast_S_S12 : (⟨S_, .i32⟩ : BufTy).Contents (Elt F) → (⟨S12, .i32⟩ : BufTy).Contents (Elt F))
  :: StableHlo.binary main_c main_v66 main_v67 (addi : (⟨S12, .i32⟩ : BufTy).Contents (Elt F) → (⟨S12, .i32⟩ : BufTy).Contents (Elt F) → (⟨S12, .i32⟩ : BufTy).Contents (Elt F))
  :: StableHlo.ternary main_v65 main_v67 main_c main_v68 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v68 main_v69 (broadcastInDim S12x1 ![0] bcast_S12_S12x1_0 : (⟨S12, .i32⟩ : BufTy).Contents (Elt F) → (⟨S12x1, .i32⟩ : BufTy).Contents (Elt F))
  :: StableHlo.binary main_v26 main_v69 main_v70 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.nullary main_c_23 (constantI S_ 32 0#32)
  :: StableHlo.unary main_c_23 main_v71 (broadcastInDim S12 ![] bcast_S_S12 : (⟨S_, .i32⟩ : BufTy).Contents (Elt F) → (⟨S12, .i32⟩ : BufTy).Contents (Elt F))
  :: StableHlo.binary main_c_0 main_v71 main_v72 (cmpi .slt : (⟨S12, .i32⟩ : BufTy).Contents (Elt F) → (⟨S12, .i32⟩ : BufTy).Contents (Elt F) → (⟨S12, .i1⟩ : BufTy).Contents (Elt F))
  :: StableHlo.nullary main_c_24 (constantI S_ 32 16#32)
  :: StableHlo.unary main_c_24 main_v73 (broadcastInDim S12 ![] bcast_S_S12 : (⟨S_, .i32⟩ : BufTy).Contents (Elt F) → (⟨S12, .i32⟩ : BufTy).Contents (Elt F))
  :: StableHlo.binary main_c_0 main_v73 main_v74 (addi : (⟨S12, .i32⟩ : BufTy).Contents (Elt F) → (⟨S12, .i32⟩ : BufTy).Contents (Elt F) → (⟨S12, .i32⟩ : BufTy).Contents (Elt F))
  :: StableHlo.ternary main_v72 main_v74 main_c_0 main_v75 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v75 main_v76 (broadcastInDim S12x1 ![0] bcast_S12_S12x1_0 : (⟨S12, .i32⟩ : BufTy).Contents (Elt F) → (⟨S12x1, .i32⟩ : BufTy).Contents (Elt F))
  :: StableHlo.binary main_v26 main_v76 main_v77 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.binary main_v70 main_v77 main_v78 (subf : (⟨S128x12, .f32⟩ : BufTy).Contents (Elt F) → (⟨S128x12, .f32⟩ : BufTy).Contents (Elt F) → (⟨S128x12, .f32⟩ : BufTy).Contents (Elt F))
  :: StableHlo.binary main_v78 main_v78 main_v79 (mulf : (⟨S128x12, .f32⟩ : BufTy).Contents (Elt F) → (⟨S128x12, .f32⟩ : BufTy).Contents (Elt F) → (⟨S128x12, .f32⟩ : BufTy).Contents (Elt F))
  :: StableHlo.binary main_v63 main_v79 main_v80 (addf : (⟨S128x12, .f32⟩ : BufTy).Contents (Elt F) → (⟨S128x12, .f32⟩ : BufTy).Contents (Elt F) → (⟨S128x12, .f32⟩ : BufTy).Contents (Elt F))
  :: StableHlo.nullary main_cst_25 (constant S_ .f32 0x3F800000#32)
  :: [] )
set_option maxHeartbeats 40000000 in
/-- Each touches TensorCore references only. -/
theorem tailOps2_sub : (tailOps2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.reshape_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub ..⟩

/-- Stretch 3 of the lines after the gathered values: 3 operations. -/
abbrev tailOps3 : List (HloOp τ sig (Elt F)) :=
  [ StableHlo.TRef.unary (.of main_cst_25 : StableHlo.TRef sig ⟨S_, .f32⟩) main_call2.v0 id,
    StableHlo.TRef.unary main_call2.v0 main_call2.v1 (broadcastInDim S128x12 ![] bcast_S_S128x12),
    StableHlo.TRef.ternary (.of main_v46 : StableHlo.TRef sig ⟨S128x12, .i1⟩) (.of main_v80 : StableHlo.TRef sig ⟨S128x12, .f32⟩) main_call2.v1 main_call2.v2 select ]
/-- Each touches TensorCore references only. -/
theorem tailOps3_sub : (tailOps3 : List (HloOp τ sig (Elt F))).Forall fun op => op.bufs ⊆ StableHlo.tcRefs τ sig :=
  ⟨StableHlo.unary_bufs_sub .., StableHlo.unary_bufs_sub .., StableHlo.ternary_bufs_sub ..⟩

/-- Stretch 4 of the lines after the gathered values: 5 operations. -/
abbrev tailOps4 : List (HloOp τ sig (Elt F)) :=
  [ StableHlo.unary main_v81 main_v82 (Host.sqrt : (⟨S128x12, .f32⟩ : BufTy).Contents (Elt F) → (⟨S128x12, .f32⟩ : BufTy).Contents (Elt F)),
    StableHlo.unary main_cst main_v83 (broadcastInDim S1x12 ![1] bcast_S12_S1x12_1 : (⟨S12, .f32⟩ : BufTy).Contents (Elt F) → (⟨S1x12, .f32⟩ : BufTy).Contents (Elt F)),
    StableHlo.unary main_v83 main_v84 (broadcastInDim S128x12 ![0, 1] bcast_S1x12_S128x12_0_1 : (⟨S1x12, .f32⟩ : BufTy).Contents (Elt F) → (⟨S128x12, .f32⟩ : BufTy).Contents (Elt F)),
    StableHlo.binary main_v82 main_v84 main_v85 (mulf : (⟨S128x12, .f32⟩ : BufTy).Contents (Elt F) → (⟨S128x12, .f32⟩ : BufTy).Contents (Elt F) → (⟨S128x12, .f32⟩ : BufTy).Contents (Elt F)),
    StableHlo.nullary main_cst_26 (constant S_ .f32 0x00000000#32) ]
/-- Each touches TensorCore references only. -/
theorem tailOps4_sub : (tailOps4 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.nullary_bufs_sub ..⟩

/-- Stretch 5 of the lines after the gathered values: 3 operations. -/
abbrev tailOps5 : List (HloOp τ sig (Elt F)) :=
  [ StableHlo.TRef.unary (.of main_cst_26 : StableHlo.TRef sig ⟨S_, .f32⟩) main_call3.v0 id,
    StableHlo.TRef.unary main_call3.v0 main_call3.v1 (broadcastInDim S128x12 ![] bcast_S_S128x12),
    StableHlo.TRef.ternary (.of main_v46 : StableHlo.TRef sig ⟨S128x12, .i1⟩) (.of main_v85 : StableHlo.TRef sig ⟨S128x12, .f32⟩) main_call3.v1 main_call3.v2 select ]
/-- Each touches TensorCore references only. -/
theorem tailOps5_sub : (tailOps5 : List (HloOp τ sig (Elt F))).Forall fun op => op.bufs ⊆ StableHlo.tcRefs τ sig :=
  ⟨StableHlo.unary_bufs_sub .., StableHlo.unary_bufs_sub .., StableHlo.ternary_bufs_sub ..⟩

/-- Stretch 6 of the lines after the gathered values: 18 operations. -/
abbrev tailOps6 : List (HloOp τ sig (Elt F)) :=
  [ StableHlo.unary main_c_1 main_v87 (broadcastInDim S12x1 ![0] bcast_S12_S12x1_0 : (⟨S12, .i32⟩ : BufTy).Contents (Elt F) → (⟨S12x1, .i32⟩ : BufTy).Contents (Elt F)),
    StableHlo.nullary main_v88 (iotaInDim S4 32 0),
    StableHlo.unary main_v88 main_v89 (broadcastInDim S1x4 ![1] bcast_S4_S1x4_1 : (⟨S4, .i32⟩ : BufTy).Contents (Elt F) → (⟨S1x4, .i32⟩ : BufTy).Contents (Elt F)),
    StableHlo.unary main_v87 main_v90 (broadcastInDim S12x4 ![0, 1] bcast_S12x1_S12x4_0_1 : (⟨S12x1, .i32⟩ : BufTy).Contents (Elt F) → (⟨S12x4, .i32⟩ : BufTy).Contents (Elt F)),
    StableHlo.unary main_v89 main_v91 (broadcastInDim S12x4 ![0, 1] bcast_S1x4_S12x4_0_1 : (⟨S1x4, .i32⟩ : BufTy).Contents (Elt F) → (⟨S12x4, .i32⟩ : BufTy).Contents (Elt F)),
    StableHlo.binary main_v90 main_v91 main_v92 (cmpi .eq : (⟨S12x4, .i32⟩ : BufTy).Contents (Elt F) → (⟨S12x4, .i32⟩ : BufTy).Contents (Elt F) → (⟨S12x4, .i1⟩ : BufTy).Contents (Elt F)),
    StableHlo.unary main_v92 main_v93 (uitofp .f32 : (⟨S12x4, .i1⟩ : BufTy).Contents (Elt F) → (⟨S12x4, .f32⟩ : BufTy).Contents (Elt F)),
    StableHlo.unary main_v46 main_v94 (uitofp .f32 : (⟨S128x12, .i1⟩ : BufTy).Contents (Elt F) → (⟨S128x12, .f32⟩ : BufTy).Contents (Elt F)),
    StableHlo.binary main_v94 main_v93 main_v95 ((fun l r => Host.dotGeneral dot_S128x12_S12x4_S128x4_1_0_0_1_n_n none l r) : (⟨S128x12, .f32⟩ : BufTy).Contents (Elt F) → (⟨S12x4, .f32⟩ : BufTy).Contents (Elt F) → (⟨S128x4, .f32⟩ : BufTy).Contents (Elt F)),
    StableHlo.binary main_v86 main_v93 main_v96 ((fun l r => Host.dotGeneral dot_S128x12_S12x4_S128x4_1_0_0_1_n_n none l r) : (⟨S128x12, .f32⟩ : BufTy).Contents (Elt F) → (⟨S12x4, .f32⟩ : BufTy).Contents (Elt F) → (⟨S128x4, .f32⟩ : BufTy).Contents (Elt F)),
    StableHlo.nullary main_cst_27 (constant S_ .f32 0x3F000000#32),
    StableHlo.unary main_cst_27 main_v97 (broadcastInDim S128x4 ![] bcast_S_S128x4 : (⟨S_, .f32⟩ : BufTy).Contents (Elt F) → (⟨S128x4, .f32⟩ : BufTy).Contents (Elt F)),
    StableHlo.binary main_v95 main_v97 main_v98 (cmpf .oge : (⟨S128x4, .f32⟩ : BufTy).Contents (Elt F) → (⟨S128x4, .f32⟩ : BufTy).Contents (Elt F) → (⟨S128x4, .i1⟩ : BufTy).Contents (Elt F)),
    StableHlo.nullary main_cst_28 (constant S_ .f32 0x3F800000#32),
    StableHlo.unary main_cst_28 main_v99 (broadcastInDim S128x4 ![] bcast_S_S128x4 : (⟨S_, .f32⟩ : BufTy).Contents (Elt F) → (⟨S128x4, .f32⟩ : BufTy).Contents (Elt F)),
    StableHlo.binary main_v95 main_v99 main_v100 (maximumf : (⟨S128x4, .f32⟩ : BufTy).Contents (Elt F) → (⟨S128x4, .f32⟩ : BufTy).Contents (Elt F) → (⟨S128x4, .f32⟩ : BufTy).Contents (Elt F)),
    StableHlo.binary main_v96 main_v100 main_v101 (Host.divf : (⟨S128x4, .f32⟩ : BufTy).Contents (Elt F) → (⟨S128x4, .f32⟩ : BufTy).Contents (Elt F) → (⟨S128x4, .f32⟩ : BufTy).Contents (Elt F)),
    StableHlo.nullary main_cst_29 (constant S_ .f32 0x00000000#32) ]
/-- Each touches TensorCore references only. -/
theorem tailOps6_sub : (tailOps6 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- Stretch 7 of the lines after the gathered values: 3 operations. -/
abbrev tailOps7 : List (HloOp τ sig (Elt F)) :=
  [ StableHlo.TRef.unary (.of main_cst_29 : StableHlo.TRef sig ⟨S_, .f32⟩) main_call4.v0 id,
    StableHlo.TRef.unary main_call4.v0 main_call4.v1 (broadcastInDim S128x4 ![] bcast_S_S128x4),
    StableHlo.TRef.ternary (.of main_v98 : StableHlo.TRef sig ⟨S128x4, .i1⟩) (.of main_v101 : StableHlo.TRef sig ⟨S128x4, .f32⟩) main_call4.v1 main_call4.v2 select ]
/-- Each touches TensorCore references only. -/
theorem tailOps7_sub : (tailOps7 : List (HloOp τ sig (Elt F))).Forall fun op => op.bufs ⊆ StableHlo.tcRefs τ sig :=
  ⟨StableHlo.unary_bufs_sub .., StableHlo.unary_bufs_sub .., StableHlo.ternary_bufs_sub ..⟩

/-- Stretch 8 of the lines after the gathered values: 28 operations. -/
abbrev tailOps8 : List (HloOp τ sig (Elt F)) :=
  [ StableHlo.nullary main_c_30 (constantI S_ 32 0#32),
    StableHlo.unary main_c_30 main_v103 (broadcastInDim S12 ![] bcast_S_S12 : (⟨S_, .i32⟩ : BufTy).Contents (Elt F) → (⟨S12, .i32⟩ : BufTy).Contents (Elt F)),
    StableHlo.binary main_c_1 main_v103 main_v104 (cmpi .slt : (⟨S12, .i32⟩ : BufTy).Contents (Elt F) → (⟨S12, .i32⟩ : BufTy).Contents (Elt F) → (⟨S12, .i1⟩ : BufTy).Contents (Elt F)),
    StableHlo.nullary main_c_31 (constantI S_ 32 4#32),
    StableHlo.unary main_c_31 main_v105 (broadcastInDim S12 ![] bcast_S_S12 : (⟨S_, .i32⟩ : BufTy).Contents (Elt F) → (⟨S12, .i32⟩ : BufTy).Contents (Elt F)),
    StableHlo.binary main_c_1 main_v105 main_v106 (addi : (⟨S12, .i32⟩ : BufTy).Contents (Elt F) → (⟨S12, .i32⟩ : BufTy).Contents (Elt F) → (⟨S12, .i32⟩ : BufTy).Contents (Elt F)),
    StableHlo.ternary main_v104 main_v106 main_c_1 main_v107 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    StableHlo.unary main_v107 main_v108 (broadcastInDim S12x1 ![0] bcast_S12_S12x1_0 : (⟨S12, .i32⟩ : BufTy).Contents (Elt F) → (⟨S12x1, .i32⟩ : BufTy).Contents (Elt F)),
    StableHlo.binary main_v102 main_v108 main_v109 ((fun x i => Host.gather gather_S128x4_S12x1_S128x12_0_1_n_n_1_1_1281 x i) : (⟨S128x4, .f32⟩ : BufTy).Contents (Elt F) → (⟨S12x1, .i32⟩ : BufTy).Contents (Elt F) → (⟨S128x12, .f32⟩ : BufTy).Contents (Elt F)),
    StableHlo.nullary main_c_32 (constantI S_ 32 0#32),
    StableHlo.unary main_c_32 main_v110 (broadcastInDim S12 ![] bcast_S_S12 : (⟨S_, .i32⟩ : BufTy).Contents (Elt F) → (⟨S12, .i32⟩ : BufTy).Contents (Elt F)),
    StableHlo.binary main_c_1 main_v110 main_v111 (cmpi .slt : (⟨S12, .i32⟩ : BufTy).Contents (Elt F) → (⟨S12, .i32⟩ : BufTy).Contents (Elt F) → (⟨S12, .i1⟩ : BufTy).Contents (Elt F)),
    StableHlo.nullary main_c_33 (constantI S_ 32 4#32),
    StableHlo.unary main_c_33 main_v112 (broadcastInDim S12 ![] bcast_S_S12 : (⟨S_, .i32⟩ : BufTy).Contents (Elt F) → (⟨S12, .i32⟩ : BufTy).Contents (Elt F)),
    StableHlo.binary main_c_1 main_v112 main_v113 (addi : (⟨S12, .i32⟩ : BufTy).Contents (Elt F) → (⟨S12, .i32⟩ : BufTy).Contents (Elt F) → (⟨S12, .i32⟩ : BufTy).Contents (Elt F)),
    StableHlo.ternary main_v111 main_v113 main_c_1 main_v114 (select : (⟨S12, .i1⟩ : BufTy).Contents (Elt F) → (⟨S12, .i32⟩ : BufTy).Contents (Elt F) → (⟨S12, .i32⟩ : BufTy).Contents (Elt F) → (⟨S12, .i32⟩ : BufTy).Contents (Elt F)),
    StableHlo.unary main_v114 main_v115 (broadcastInDim S12x1 ![0] bcast_S12_S12x1_0 : (⟨S12, .i32⟩ : BufTy).Contents (Elt F) → (⟨S12x1, .i32⟩ : BufTy).Contents (Elt F)),
    StableHlo.binary main_v95 main_v115 main_v116 ((fun x i => Host.gather gather_S128x4_S12x1_S128x12_0_1_n_n_1_1_1281 x i) : (⟨S128x4, .f32⟩ : BufTy).Contents (Elt F) → (⟨S12x1, .i32⟩ : BufTy).Contents (Elt F) → (⟨S128x12, .f32⟩ : BufTy).Contents (Elt F)),
    StableHlo.nullary main_cst_34 (constant S_ .f32 0x3F800000#32),
    StableHlo.unary main_cst_34 main_v117 (broadcastInDim S128x12 ![] bcast_S_S128x12 : (⟨S_, .f32⟩ : BufTy).Contents (Elt F) → (⟨S128x12, .f32⟩ : BufTy).Contents (Elt F)),
    StableHlo.binary main_v116 main_v117 main_v118 (maximumf : (⟨S128x12, .f32⟩ : BufTy).Contents (Elt F) → (⟨S128x12, .f32⟩ : BufTy).Contents (Elt F) → (⟨S128x12, .f32⟩ : BufTy).Contents (Elt F)),
    StableHlo.binary main_v86 main_v109 main_v119 (subf : (⟨S128x12, .f32⟩ : BufTy).Contents (Elt F) → (⟨S128x12, .f32⟩ : BufTy).Contents (Elt F) → (⟨S128x12, .f32⟩ : BufTy).Contents (Elt F)),
    StableHlo.binary main_v119 main_v119 main_v120 (mulf : (⟨S128x12, .f32⟩ : BufTy).Contents (Elt F) → (⟨S128x12, .f32⟩ : BufTy).Contents (Elt F) → (⟨S128x12, .f32⟩ : BufTy).Contents (Elt F)),
    StableHlo.nullary main_cst_35 (constant S_ .f32 0x40000000#32),
    StableHlo.unary main_cst_35 main_v121 (broadcastInDim S128x12 ![] bcast_S_S128x12 : (⟨S_, .f32⟩ : BufTy).Contents (Elt F) → (⟨S128x12, .f32⟩ : BufTy).Contents (Elt F)),
    StableHlo.binary main_v121 main_v118 main_v122 (mulf : (⟨S128x12, .f32⟩ : BufTy).Contents (Elt F) → (⟨S128x12, .f32⟩ : BufTy).Contents (Elt F) → (⟨S128x12, .f32⟩ : BufTy).Contents (Elt F)),
    StableHlo.binary main_v120 main_v122 main_v123 (Host.divf : (⟨S128x12, .f32⟩ : BufTy).Contents (Elt F) → (⟨S128x12, .f32⟩ : BufTy).Contents (Elt F) → (⟨S128x12, .f32⟩ : BufTy).Contents (Elt F)),
    StableHlo.nullary main_cst_36 (constant S_ .f32 0x00000000#32) ]
/-- Each touches TensorCore references only. -/
theorem tailOps8_sub : (tailOps8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩

/-- Stretch 9 of the lines after the gathered values: 3 operations. -/
abbrev tailOps9 : List (HloOp τ sig (Elt F)) :=
  [ StableHlo.TRef.unary (.of main_cst_36 : StableHlo.TRef sig ⟨S_, .f32⟩) main_call5.v0 id,
    StableHlo.TRef.unary main_call5.v0 main_call5.v1 (broadcastInDim S128x12 ![] bcast_S_S128x12),
    StableHlo.TRef.ternary (.of main_v46 : StableHlo.TRef sig ⟨S128x12, .i1⟩) (.of main_v123 : StableHlo.TRef sig ⟨S128x12, .f32⟩) main_call5.v1 main_call5.v2 select ]
/-- Each touches TensorCore references only. -/
theorem tailOps9_sub : (tailOps9 : List (HloOp τ sig (Elt F))).Forall fun op => op.bufs ⊆ StableHlo.tcRefs τ sig :=
  ⟨StableHlo.unary_bufs_sub .., StableHlo.unary_bufs_sub .., StableHlo.ternary_bufs_sub ..⟩

/-- Stretch 10 of the lines after the gathered values: 16 operations. -/
abbrev tailOps10 : List (HloOp τ sig (Elt F)) :=
  [ StableHlo.nullary main_c_37 (constantI S_ 32 0#32),
    StableHlo.binary main_arg1 main_c_37 main_v125 ((fun x v => Host.reduce IntOp.addi x v reducesTo_S128x16_S128_d1 h_S_) : (⟨S128x16, .i32⟩ : BufTy).Contents (Elt F) → (⟨S_, .i32⟩ : BufTy).Contents (Elt F) → (⟨S128, .i32⟩ : BufTy).Contents (Elt F)),
    StableHlo.nullary main_c_38 (constantI S_ 32 0#32),
    StableHlo.unary main_c_38 main_v126 (broadcastInDim S128 ![] bcast_S_S128 : (⟨S_, .i32⟩ : BufTy).Contents (Elt F) → (⟨S128, .i32⟩ : BufTy).Contents (Elt F)),
    StableHlo.binary main_v125 main_v126 main_v127 (cmpi .eq : (⟨S128, .i32⟩ : BufTy).Contents (Elt F) → (⟨S128, .i32⟩ : BufTy).Contents (Elt F) → (⟨S128, .i1⟩ : BufTy).Contents (Elt F)),
    StableHlo.unary main_v127 main_v128 (uitofp .f32 : (⟨S128, .i1⟩ : BufTy).Contents (Elt F) → (⟨S128, .f32⟩ : BufTy).Contents (Elt F)),
    StableHlo.nullary main_cst_39 (constant S_ .f32 0x00000000#32),
    StableHlo.binary main_v124 main_cst_39 main_v129 ((fun x v => Host.reduceAdd x v reducesTo_S128x12_S128_d1 h_S_) : (⟨S128x12, .f32⟩ : BufTy).Contents (Elt F) → (⟨S_, .f32⟩ : BufTy).Contents (Elt F) → (⟨S128, .f32⟩ : BufTy).Contents (Elt F)),
    StableHlo.binary main_v129 main_v128 main_v130 (mulf : (⟨S128, .f32⟩ : BufTy).Contents (Elt F) → (⟨S128, .f32⟩ : BufTy).Contents (Elt F) → (⟨S128, .f32⟩ : BufTy).Contents (Elt F)),
    StableHlo.nullary main_cst_40 (constant S_ .f32 0x00000000#32),
    StableHlo.binary main_v130 main_cst_40 main_v131 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_41 (constant S_ .f32 0x3C23D70A#32),
    StableHlo.binary main_cst_41 main_v131 main_v132 (mulf : (⟨S_, .f32⟩ : BufTy).Contents (Elt F) → (⟨S_, .f32⟩ : BufTy).Contents (Elt F) → (⟨S_, .f32⟩ : BufTy).Contents (Elt F)),
    StableHlo.nullary main_cst_42 (constant S_ .f32 0x43000000#32),
    StableHlo.binary main_v132 main_cst_42 main_v133 (Host.divf : (⟨S_, .f32⟩ : BufTy).Contents (Elt F) → (⟨S_, .f32⟩ : BufTy).Contents (Elt F) → (⟨S_, .f32⟩ : BufTy).Contents (Elt F)),
    StableHlo.binary main_v24 main_v133 main_v134 (addf : (⟨S_, .f32⟩ : BufTy).Contents (Elt F) → (⟨S_, .f32⟩ : BufTy).Contents (Elt F) → (⟨S_, .f32⟩ : BufTy).Contents (Elt F)) ]
/-- Each touches TensorCore references only. -/
theorem tailOps10_sub : (tailOps10 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩

/-- The lines after the gathered values, stretch by stretch. -/
abbrev tailOps : List (List (HloOp τ sig (Elt F))) :=
  [tailOps0, tailOps1, tailOps2, tailOps3, tailOps4, tailOps5, tailOps6, tailOps7, tailOps8, tailOps9, tailOps10]

end Cert.ReferenceIdeal.Hand

end
-- ==== Proof.RefRun.lean ====
/-
  The reference program is a straight line: four constant tables, the transpose of the feature maps to
  `[batch, height, width, channel]` and its flattening, the index-normalising gather, and the closing lines.  Here: the
  program IS that list of operations, so every weakly fair execution terminates with every buffer at the fold of the
  operations over the launch contents; the argument arrays are written by no operation.

  The program is printed in four windows of sixty statements; two of them end inside a stretch of operations (stretch 2
  after its 32nd operation, stretch 6 after its 4th), so those two stretches are cut there, each window is the chain of
  its stretches, and the chains are put end to end.  Every operation writes one buffer, and that buffer lies past the
  first five of the table, which are the argument arrays: so the fold leaves the arguments as launched.
-/
import proofs.«417907_j30227979829940_1_alg».proof.Proof.RefOps
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole program's operations, in order. -/
abbrev ops : List (HloOp τ sig (Elt F)) := headOps ++ (tailOps (F := F)).flatten

/-- Running two lines one after the other folds the second over the first's result. -/
theorem after_append {Val : EltTy → Type} {τ' : Topo} {sig' : RefSig} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-! ## The program is its operations -/

set_option maxHeartbeats 40000000 in
/-- The first 32 operations of stretch 2: up to the index column of the second gather of the ground-truth weights. -/
abbrev tailOps2a : List (HloOp τ sig (Elt F)) :=
  ( StableHlo.nullary main_cst_6 (constant S_ .f32 0x00000000#32)
  :: StableHlo.binary main_v19 main_cst_6 main_v20 ((fun x v => Host.reduceAdd x v reducesTo_S128x16x1_S_d0_1_2 h_S_) : (⟨S128x16x1, .f32⟩ : BufTy).Contents (Elt F) → (⟨S_, .f32⟩ : BufTy).Contents (Elt F) → (⟨S_, .f32⟩ : BufTy).Contents (Elt F))
  :: StableHlo.nullary main_cst_7 (constant S_ .f32 0x38D1B717#32)
  :: StableHlo.binary main_v5 main_cst_7 main_v21 (addf : (⟨S_, .f32⟩ : BufTy).Contents (Elt F) → (⟨S_, .f32⟩ : BufTy).Contents (Elt F) → (⟨S_, .f32⟩ : BufTy).Contents (Elt F))
  :: StableHlo.binary main_v20 main_v21 main_v22 (Host.divf : (⟨S_, .f32⟩ : BufTy).Contents (Elt F) → (⟨S_, .f32⟩ : BufTy).Contents (Elt F) → (⟨S_, .f32⟩ : BufTy).Contents (Elt F))
  :: StableHlo.nullary main_cst_8 (constant S_ .f32 0x3F800000#32)
  :: StableHlo.binary main_cst_8 main_v22 main_v23 (mulf : (⟨S_, .f32⟩ : BufTy).Contents (Elt F) → (⟨S_, .f32⟩ : BufTy).Contents (Elt F) → (⟨S_, .f32⟩ : BufTy).Contents (Elt F))
  :: StableHlo.nullary main_cst_9 (constant S_ .f32 0x00000000#32)
  :: StableHlo.binary main_cst_9 main_v23 main_v24 (addf : (⟨S_, .f32⟩ : BufTy).Contents (Elt F) → (⟨S_, .f32⟩ : BufTy).Contents (Elt F) → (⟨S_, .f32⟩ : BufTy).Contents (Elt F))
  :: StableHlo.reshape main_arg4 main_v25 rfl shapeCasts_S128x32_S128x16x2
  :: StableHlo.reshape main_v3 main_v26 rfl shapeCasts_S128x16x1_S128x16
  :: StableHlo.reshape main_arg3 main_v27 rfl shapeCasts_S128x16x1_S128x16
  :: StableHlo.nullary main_c_10 (constantI S_ 32 0#32)
  :: StableHlo.unary main_c_10 main_v28 (broadcastInDim S12 ![] bcast_S_S12 : (⟨S_, .i32⟩ : BufTy).Contents (Elt F) → (⟨S12, .i32⟩ : BufTy).Contents (Elt F))
  :: StableHlo.binary main_c main_v28 main_v29 (cmpi .slt : (⟨S12, .i32⟩ : BufTy).Contents (Elt F) → (⟨S12, .i32⟩ : BufTy).Contents (Elt F) → (⟨S12, .i1⟩ : BufTy).Contents (Elt F))
  :: StableHlo.nullary main_c_11 (constantI S_ 32 16#32)
  :: StableHlo.unary main_c_11 main_v30 (broadcastInDim S12 ![] bcast_S_S12 : (⟨S_, .i32⟩ : BufTy).Contents (Elt F) → (⟨S12, .i32⟩ : BufTy).Contents (Elt F))
  :: StableHlo.binary main_c main_v30 main_v31 (addi : (⟨S12, .i32⟩ : BufTy).Contents (Elt F) → (⟨S12, .i32⟩ : BufTy).Contents (Elt F) → (⟨S12, .i32⟩ : BufTy).Contents (Elt F))
  :: StableHlo.ternary main_v29 main_v31 main_c main_v32 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v32 main_v33 (broadcastInDim S12x1 ![0] bcast_S12_S12x1_0 : (⟨S12, .i32⟩ : BufTy).Contents (Elt F) → (⟨S12x1, .i32⟩ : BufTy).Contents (Elt F))
  :: StableHlo.binary main_v27 main_v33 main_v34 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.nullary main_cst_12 (constant S_ .f32 0x3F000000#32)
  :: StableHlo.unary main_cst_12 main_v35 (broadcastInDim S128x12 ![] bcast_S_S128x12 : (⟨S_, .f32⟩ : BufTy).Contents (Elt F) → (⟨S128x12, .f32⟩ : BufTy).Contents (Elt F))
  :: StableHlo.binary main_v34 main_v35 main_v36 (cmpf .ogt : (⟨S128x12, .f32⟩ : BufTy).Contents (Elt F) → (⟨S128x12, .f32⟩ : BufTy).Contents (Elt F) → (⟨S128x12, .i1⟩ : BufTy).Contents (Elt F))
  :: StableHlo.nullary main_c_13 (constantI S_ 32 0#32)
  :: StableHlo.unary main_c_13 main_v37 (broadcastInDim S12 ![] bcast_S_S12 : (⟨S_, .i32⟩ : BufTy).Contents (Elt F) → (⟨S12, .i32⟩ : BufTy).Contents (Elt F))
  :: StableHlo.binary main_c_0 main_v37 main_v38 (cmpi .slt : (⟨S12, .i32⟩ : BufTy).Contents (Elt F) → (⟨S12, .i32⟩ : BufTy).Contents (Elt F) → (⟨S12, .i1⟩ : BufTy).Contents (Elt F))
  :: StableHlo.nullary main_c_14 (constantI S_ 32 16#32)
  :: StableHlo.unary main_c_14 main_v39 (broadcastInDim S12 ![] bcast_S_S12 : (⟨S_, .i32⟩ : BufTy).Contents (Elt F) → (⟨S12, .i32⟩ : BufTy).Contents (Elt F))
  :: StableHlo.binary main_c_0 main_v39 main_v40 (addi : (⟨S12, .i32⟩ : BufTy).Contents (Elt F) → (⟨S12, .i32⟩ : BufTy).Contents (Elt F) → (⟨S12, .i32⟩ : BufTy).Contents (Elt F))
  :: StableHlo.ternary main_v38 main_v40 main_c_0 main_v41 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v41 main_v42 (broadcastInDim S12x1 ![0] bcast_S12_S12x1_0 : (⟨S12, .i32⟩ : BufTy).Contents (Elt F) → (⟨S12x1, .i32⟩ : BufTy).Contents (Elt F))
  :: [] )

set_option maxHeartbeats 40000000 in
/-- The other 49 operations of stretch 2. -/
abbrev tailOps2b : List (HloOp τ sig (Elt F)) :=
  ( StableHlo.binary main_v27 main_v42 main_v43 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.nullary main_cst_15 (constant S_ .f32 0x3F000000#32)
  :: StableHlo.unary main_cst_15 main_v44 (broadcastInDim S128x12 ![] bcast_S_S128x12 : (⟨S_, .f32⟩ : BufTy).Contents (Elt F) → (⟨S128x12, .f32⟩ : BufTy).Contents (Elt F))
  :: StableHlo.binary main_v43 main_v44 main_v45 (cmpf .ogt : (⟨S128x12, .f32⟩ : BufTy).Contents (Elt F) → (⟨S128x12, .f32⟩ : BufTy).Contents (Elt F) → (⟨S128x12, .i1⟩ : BufTy).Contents (Elt F))
  :: StableHlo.binary main_v36 main_v45 main_v46 (andi : (⟨S128x12, .i1⟩ : BufTy).Contents (Elt F) → (⟨S128x12, .i1⟩ : BufTy).Contents (Elt F) → (⟨S128x12, .i1⟩ : BufTy).Contents (Elt F))
  :: StableHlo.nullary main_c_16 (constantI S_ 32 0#32)
  :: StableHlo.unary main_c_16 main_v47 (broadcastInDim S12 ![] bcast_S_S12 : (⟨S_, .i32⟩ : BufTy).Contents (Elt F) → (⟨S12, .i32⟩ : BufTy).Contents (Elt F))
  :: StableHlo.binary main_c main_v47 main_v48 (cmpi .slt : (⟨S12, .i32⟩ : BufTy).Contents (Elt F) → (⟨S12, .i32⟩ : BufTy).Contents (Elt F) → (⟨S12, .i1⟩ : BufTy).Contents (Elt F))
  :: StableHlo.nullary main_c_17 (constantI S_ 32 16#32)
  :: StableHlo.unary main_c_17 main_v49 (broadcastInDim S12 ![] bcast_S_S12 : (⟨S_, .i32⟩ : BufTy).Contents (Elt F) → (⟨S12, .i32⟩ : BufTy).Contents (Elt F))
  :: StableHlo.binary main_c main_v49 main_v50 (addi : (⟨S12, .i32⟩ : BufTy).Contents (Elt F) → (⟨S12, .i32⟩ : BufTy).Contents (Elt F) → (⟨S12, .i32⟩ : BufTy).Contents (Elt F))
  :: StableHlo.ternary main_v48 main_v50 main_c main_v51 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v51 main_v52 (broadcastInDim S12x1 ![0] bcast_S12_S12x1_0 : (⟨S12, .i32⟩ : BufTy).Contents (Elt F) → (⟨S12x1, .i32⟩ : BufTy).Contents (Elt F))
  :: StableHlo.binary main_v25 main_v52 main_v53 ((fun x i => Host.gather gather_S128x16x2_S12x1_S128x12x2_02_1_n_n_1_1_12812 x i) : (⟨S128x16x2, .f32⟩ : BufTy).Contents (Elt F) → (⟨S12x1, .i32⟩ : BufTy).Contents (Elt F) → (⟨S128x12x2, .f32⟩ : BufTy).Contents (Elt F))
  :: StableHlo.nullary main_c_18 (constantI S_ 32 0#32)
  :: StableHlo.unary main_c_18 main_v54 (broadcastInDim S12 ![] bcast_S_S12 : (⟨S_, .i32⟩ : BufTy).Contents (Elt F) → (⟨S12, .i32⟩ : BufTy).Contents (Elt F))
  :: StableHlo.binary main_c_0 main_v54 main_v55 (cmpi .slt : (⟨S12, .i32⟩ : BufTy).Contents (Elt F) → (⟨S12, .i32⟩ : BufTy).Contents (Elt F) → (⟨S12, .i1⟩ : BufTy).Contents (Elt F))
  :: StableHlo.nullary main_c_19 (constantI S_ 32 16#32)
  :: StableHlo.unary main_c_19 main_v56 (broadcastInDim S12 ![] bcast_S_S12 : (⟨S_, .i32⟩ : BufTy).Contents (Elt F) → (⟨S12, .i32⟩ : BufTy).Contents (Elt F))
  :: StableHlo.binary main_c_0 main_v56 main_v57 (addi : (⟨S12, .i32⟩ : BufTy).Contents (Elt F) → (⟨S12, .i32⟩ : BufTy).Contents (Elt F) → (⟨S12, .i32⟩ : BufTy).Contents (Elt F))
  :: StableHlo.ternary main_v55 main_v57 main_c_0 main_v58 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v58 main_v59 (broadcastInDim S12x1 ![0] bcast_S12_S12x1_0 : (⟨S12, .i32⟩ : BufTy).Contents (Elt F) → (⟨S12x1, .i32⟩ : BufTy).Contents (Elt F))
  :: StableHlo.binary main_v25 main_v59 main_v60 ((fun x i => Host.gather gather_S128x16x2_S12x1_S128x12x2_02_1_n_n_1_1_12812 x i) : (⟨S128x16x2, .f32⟩ : BufTy).Contents (Elt F) → (⟨S12x1, .i32⟩ : BufTy).Contents (Elt F) → (⟨S128x12x2, .f32⟩ : BufTy).Contents (Elt F))
  :: StableHlo.binary main_v53 main_v60 main_v61 (subf : (⟨S128x12x2, .f32⟩ : BufTy).Contents (Elt F) → (⟨S128x12x2, .f32⟩ : BufTy).Contents (Elt F) → (⟨S128x12x2, .f32⟩ : BufTy).Contents (Elt F))
  :: StableHlo.binary main_v61 main_v61 main_v62 (mulf : (⟨S128x12x2, .f32⟩ : BufTy).Contents (Elt F) → (⟨S128x12x2, .f32⟩ : BufTy).Contents (Elt F) → (⟨S128x12x2, .f32⟩ : BufTy).Contents (Elt F))
  :: StableHlo.nullary main_cst_20 (constant S_ .f32 0x00000000#32)
  :: StableHlo.binary main_v62 main_cst_20 main_v63 ((fun x v => Host.reduceAdd x v reducesTo_S128x12x2_S128x12_d2 h_S_) : (⟨S128x12x2, .f32⟩ : BufTy).Contents (Elt F) → (⟨S_, .f32⟩ : BufTy).Contents (Elt F) → (⟨S128x12, .f32⟩ : BufTy).Contents (Elt F))
  :: StableHlo.nullary main_c_21 (constantI S_ 32 0#32)
  :: StableHlo.unary main_c_21 main_v64 (broadcastInDim S12 ![] bcast_S_S12 : (⟨S_, .i32⟩ : BufTy).Contents (Elt F) → (⟨S12, .i32⟩ : BufTy).Contents (Elt F))
  :: StableHlo.binary main_c main_v64 main_v65 (cmpi .slt : (⟨S12, .i32⟩ : BufTy).Contents (Elt F) → (⟨S12, .i32⟩ : BufTy).Contents (Elt F) → (⟨S12, .i1⟩ : BufTy).Contents (Elt F))
  :: StableHlo.nullary main_c_22 (constantI S_ 32 16#32)
  :: StableHlo.unary main_c_22 main_v66 (broadcastInDim S12 ![] bcast_S_S12 : (⟨S_, .i32⟩ : BufTy).Contents (Elt F) → (⟨S12, .i32⟩ : BufTy).Contents (Elt F))
  :: StableHlo.binary main_c main_v66 main_v67 (addi : (⟨S12, .i32⟩ : BufTy).Contents (Elt F) → (⟨S12, .i32⟩ : BufTy).Contents (Elt F) → (⟨S12, .i32⟩ : BufTy).Contents (Elt F))
  :: StableHlo.ternary main_v65 main_v67 main_c main_v68 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v68 main_v69 (broadcastInDim S12x1 ![0] bcast_S12_S12x1_0 : (⟨S12, .i32⟩ : BufTy).Contents (Elt F) → (⟨S12x1, .i32⟩ : BufTy).Contents (Elt F))
  :: StableHlo.binary main_v26 main_v69 main_v70 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.nullary main_c_23 (constantI S_ 32 0#32)
  :: StableHlo.unary main_c_23 main_v71 (broadcastInDim S12 ![] bcast_S_S12 : (⟨S_, .i32⟩ : BufTy).Contents (Elt F) → (⟨S12, .i32⟩ : BufTy).Contents (Elt F))
  :: StableHlo.binary main_c_0 main_v71 main_v72 (cmpi .slt : (⟨S12, .i32⟩ : BufTy).Contents (Elt F) → (⟨S12, .i32⟩ : BufTy).Contents (Elt F) → (⟨S12, .i1⟩ : BufTy).Contents (Elt F))
  :: StableHlo.nullary main_c_24 (constantI S_ 32 16#32)
  :: StableHlo.unary main_c_24 main_v73 (broadcastInDim S12 ![] bcast_S_S12 : (⟨S_, .i32⟩ : BufTy).Contents (Elt F) → (⟨S12, .i32⟩ : BufTy).Contents (Elt F))
  :: StableHlo.binary main_c_0 main_v73 main_v74 (addi : (⟨S12, .i32⟩ : BufTy).Contents (Elt F) → (⟨S12, .i32⟩ : BufTy).Contents (Elt F) → (⟨S12, .i32⟩ : BufTy).Contents (Elt F))
  :: StableHlo.ternary main_v72 main_v74 main_c_0 main_v75 (select : (⟨S12, .i1⟩ : BufTy).Contents (Elt F) → (⟨S12, .i32⟩ : BufTy).Contents (Elt F) → (⟨S12, .i32⟩ : BufTy).Contents (Elt F) → (⟨S12, .i32⟩ : BufTy).Contents (Elt F))
  :: StableHlo.unary main_v75 main_v76 (broadcastInDim S12x1 ![0] bcast_S12_S12x1_0 : (⟨S12, .i32⟩ : BufTy).Contents (Elt F) → (⟨S12x1, .i32⟩ : BufTy).Contents (Elt F))
  :: StableHlo.binary main_v26 main_v76 main_v77 ((fun x i => Host.gather gather_S128x16_S12x1_S128x12_0_1_n_n_1_1_1281 x i) : (⟨S128x16, .f32⟩ : BufTy).Contents (Elt F) → (⟨S12x1, .i32⟩ : BufTy).Contents (Elt F) → (⟨S128x12, .f32⟩ : BufTy).Contents (Elt F))
  :: StableHlo.binary main_v70 main_v77 main_v78 (subf : (⟨S128x12, .f32⟩ : BufTy).Contents (Elt F) → (⟨S128x12, .f32⟩ : BufTy).Contents (Elt F) → (⟨S128x12, .f32⟩ : BufTy).Contents (Elt F))
  :: StableHlo.binary main_v78 main_v78 main_v79 (mulf : (⟨S128x12, .f32⟩ : BufTy).Contents (Elt F) → (⟨S128x12, .f32⟩ : BufTy).Contents (Elt F) → (⟨S128x12, .f32⟩ : BufTy).Contents (Elt F))
  :: StableHlo.binary main_v63 main_v79 main_v80 (addf : (⟨S128x12, .f32⟩ : BufTy).Contents (Elt F) → (⟨S128x12, .f32⟩ : BufTy).Contents (Elt F) → (⟨S128x12, .f32⟩ : BufTy).Contents (Elt F))
  :: StableHlo.nullary main_cst_25 (constant S_ .f32 0x3F800000#32)
  :: [] )

/-- The first 4 operations of stretch 6. -/
abbrev tailOps6a : List (HloOp τ sig (Elt F)) :=
  ( StableHlo.unary main_c_1 main_v87 (broadcastInDim S12x1 ![0] bcast_S12_S12x1_0 : (⟨S12, .i32⟩ : BufTy).Contents (Elt F) → (⟨S12x1, .i32⟩ : BufTy).Contents (Elt F))
  :: StableHlo.nullary main_v88 (iotaInDim S4 32 0)
  :: StableHlo.unary main_v88 main_v89 (broadcastInDim S1x4 ![1] bcast_S4_S1x4_1 : (⟨S4, .i32⟩ : BufTy).Contents (Elt F) → (⟨S1x4, .i32⟩ : BufTy).Contents (Elt F))
  :: StableHlo.unary main_v87 main_v90 (broadcastInDim S12x4 ![0, 1] bcast_S12x1_S12x4_0_1 : (⟨S12x1, .i32⟩ : BufTy).Contents (Elt F) → (⟨S12x4, .i32⟩ : BufTy).Contents (Elt F))
  :: [] )

/-- The other 14 operations of stretch 6. -/
abbrev tailOps6b : List (HloOp τ sig (Elt F)) :=
  ( StableHlo.unary main_v89 main_v91 (broadcastInDim S12x4 ![0, 1] bcast_S1x4_S12x4_0_1 : (⟨S1x4, .i32⟩ : BufTy).Contents (Elt F) → (⟨S12x4, .i32⟩ : BufTy).Contents (Elt F))
  :: StableHlo.binary main_v90 main_v91 main_v92 (cmpi .eq : (⟨S12x4, .i32⟩ : BufTy).Contents (Elt F) → (⟨S12x4, .i32⟩ : BufTy).Contents (Elt F) → (⟨S12x4, .i1⟩ : BufTy).Contents (Elt F))
  :: StableHlo.unary main_v92 main_v93 (uitofp .f32 : (⟨S12x4, .i1⟩ : BufTy).Contents (Elt F) → (⟨S12x4, .f32⟩ : BufTy).Contents (Elt F))
  :: StableHlo.unary main_v46 main_v94 (uitofp .f32 : (⟨S128x12, .i1⟩ : BufTy).Contents (Elt F) → (⟨S128x12, .f32⟩ : BufTy).Contents (Elt F))
  :: StableHlo.binary main_v94 main_v93 main_v95 ((fun l r => Host.dotGeneral dot_S128x12_S12x4_S128x4_1_0_0_1_n_n none l r) : (⟨S128x12, .f32⟩ : BufTy).Contents (Elt F) → (⟨S12x4, .f32⟩ : BufTy).Contents (Elt F) → (⟨S128x4, .f32⟩ : BufTy).Contents (Elt F))
  :: StableHlo.binary main_v86 main_v93 main_v96 ((fun l r => Host.dotGeneral dot_S128x12_S12x4_S128x4_1_0_0_1_n_n none l r) : (⟨S128x12, .f32⟩ : BufTy).Contents (Elt F) → (⟨S12x4, .f32⟩ : BufTy).Contents (Elt F) → (⟨S128x4, .f32⟩ : BufTy).Contents (Elt F))
  :: StableHlo.nullary main_cst_27 (constant S_ .f32 0x3F000000#32)
  :: StableHlo.unary main_cst_27 main_v97 (broadcastInDim S128x4 ![] bcast_S_S128x4 : (⟨S_, .f32⟩ : BufTy).Contents (Elt F) → (⟨S128x4, .f32⟩ : BufTy).Contents (Elt F))
  :: StableHlo.binary main_v95 main_v97 main_v98 (cmpf .oge : (⟨S128x4, .f32⟩ : BufTy).Contents (Elt F) → (⟨S128x4, .f32⟩ : BufTy).Contents (Elt F) → (⟨S128x4, .i1⟩ : BufTy).Contents (Elt F))
  :: StableHlo.nullary main_cst_28 (constant S_ .f32 0x3F800000#32)
  :: StableHlo.unary main_cst_28 main_v99 (broadcastInDim S128x4 ![] bcast_S_S128x4 : (⟨S_, .f32⟩ : BufTy).Contents (Elt F) → (⟨S128x4, .f32⟩ : BufTy).Contents (Elt F))
  :: StableHlo.binary main_v95 main_v99 main_v100 (maximumf : (⟨S128x4, .f32⟩ : BufTy).Contents (Elt F) → (⟨S128x4, .f32⟩ : BufTy).Contents (Elt F) → (⟨S128x4, .f32⟩ : BufTy).Contents (Elt F))
  :: StableHlo.binary main_v96 main_v100 main_v101 (Host.divf : (⟨S128x4, .f32⟩ : BufTy).Contents (Elt F) → (⟨S128x4, .f32⟩ : BufTy).Contents (Elt F) → (⟨S128x4, .f32⟩ : BufTy).Contents (Elt F))
  :: StableHlo.nullary main_cst_29 (constant S_ .f32 0x00000000#32)
  :: [] )

/-- Stretch 2 is its two pieces end to end. -/
theorem tailOps2_cut : (tailOps2 : List (HloOp τ sig (Elt F))) = tailOps2a ++ tailOps2b := by chain_rfl
/-- Stretch 6 is its two pieces end to end. -/
theorem tailOps6_cut : (tailOps6 : List (HloOp τ sig (Elt F))) = tailOps6a ++ tailOps6b := by chain_rfl

/-- The stretches, with stretches 2 and 6 cut where a printed window ends. -/
abbrev windowPieces : List (List (HloOp τ sig (Elt F))) :=
  [headOps, tailOps0, tailOps1, tailOps2a, tailOps2b, tailOps3, tailOps4, tailOps5, tailOps6a, tailOps6b, tailOps7, tailOps8,
   tailOps9, tailOps10]

/-- The pieces end to end are the whole list. -/
theorem windowPieces_flatten : (windowPieces (F := F)).flatten = ops := by
  simp only [windowPieces, ops, tailOps, List.flatten_cons, List.flatten_nil, List.append_nil, tailOps2_cut, tailOps6_cut, List.append_assoc]

/-- Lines run one after another are their concatenation run as one line. -/
theorem chain_map_seq {Λ : Labels} (ls : List (List (HloOp τ sig (Elt F)))) :
    Pipeline.chain (ls.map fun l => (seq l : Prog (TpuEff nD τ sig (Elt F) Λ .tc) PUnit)) = seq ls.flatten := by
  induction ls with
  | nil => rfl
  | cons l ls ih => simp only [List.map_cons, Pipeline.chain_cons, List.flatten_cons, seq_append, ih]

set_option maxHeartbeats 40000000 in
/-- Statements 1 … 60: the head, stretches 0 and 1 and the first piece of stretch 2, the last in tail position. -/
theorem part0_chain (c : Dev nD) :
    main_part0 (F := F) c = Pipeline.chainK [seq headOps, seq tailOps0, seq tailOps1] (seq tailOps2a) := by
  chain_rfl

set_option maxHeartbeats 40000000 in
/-- Statements 61 … 120: the rest of stretch 2, stretches 3, 4, 5 and the first piece of stretch 6. -/
theorem part1_chain (c : Dev nD) :
    main_part1 (F := F) c = Pipeline.chainK [seq tailOps2b, seq tailOps3, seq tailOps4, seq tailOps5] (seq tailOps6a) := by
  chain_rfl

set_option maxHeartbeats 40000000 in
/-- Statements 121 … 180: the rest of stretch 6 and stretches 7 to 10. -/
theorem part2_chain (c : Dev nD) :
    main_part2 (F := F) c = Pipeline.chainK [seq tailOps6b, seq tailOps7, seq tailOps8, seq tailOps9] (seq tailOps10) := by
  chain_rfl

/-- Statement 181 is the return. -/
theorem part3_chain (c : Dev nD) : main_part3 (F := F) c = Pipeline.chain [] := rfl

/-- The program is its operations in order (every call's body written out at the call). -/
theorem main_eq (c : Dev nD) : main (F := F) c = seq ops := by
  show (main_part0 (F := F) c >>= fun _ => main_part1 (F := F) c >>= fun _ => main_part2 (F := F) c >>= fun _ =>
    main_part3 (F := F) c) = _
  rewrite [part3_chain, part2_chain, Pipeline.chainK_bind_chain, part1_chain, Pipeline.chainK_bind_chain, part0_chain,
    Pipeline.chainK_bind_chain, ← windowPieces_flatten, ← chain_map_seq]
  rfl

theorem scopedRefs_eq : (Finset.univ.filter fun b : Ref sig .tc => b.isScoped) = ∅ := by decide
theorem scopedSems_eq : (Finset.univ.filter fun sm : SemLoc sig => sm.isScoped .tc) = ∅ := by decide

/-! ## What the operations touch -/

/-- What holds of every entry of every list holds of every entry of the lists end to end. -/
theorem forall_flatten {α : Type} {p : α → Prop} (ls : List (List α)) (h : ls.Forall fun l => l.Forall p) : ls.flatten.Forall p := by
  induction ls with
  | nil => trivial
  | cons l ls ih =>
    rw [List.forall_cons] at h
    rw [List.flatten_cons, List.forall_append]
    exact ⟨h.1, ih h.2⟩

theorem ops_sub : (ops : List (HloOp τ sig (Elt F))).Forall fun op => op.bufs ⊆ tcRefs τ sig :=
  List.forall_append.2 ⟨headOps_sub, forall_flatten tailOps
    ⟨tailOps0_sub, tailOps1_sub, tailOps2_sub, tailOps3_sub, tailOps4_sub, tailOps5_sub,
     tailOps6_sub, tailOps7_sub, tailOps8_sub, tailOps9_sub, tailOps10_sub⟩⟩

/-! Every operation determines all it writes. -/

theorem headOps_fresh : (headOps : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl⟩
theorem tailOps0_fresh : (tailOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem tailOps1_fresh : (tailOps1 : List (HloOp τ sig (Elt F))).Forall fun op => op.fresh = ∅ :=
  rfl
set_option maxHeartbeats 40000000 in
theorem tailOps2_fresh : (tailOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl,
   rfl⟩
theorem tailOps3_fresh : (tailOps3 : List (HloOp τ sig (Elt F))).Forall fun op => op.fresh = ∅ :=
  ⟨rfl, rfl, rfl⟩
theorem tailOps4_fresh : (tailOps4 : List (HloOp τ sig (Elt F))).Forall fun op => op.fresh = ∅ :=
  ⟨rfl, rfl, rfl, rfl, rfl⟩
theorem tailOps5_fresh : (tailOps5 : List (HloOp τ sig (Elt F))).Forall fun op => op.fresh = ∅ :=
  ⟨rfl, rfl, rfl⟩
theorem tailOps6_fresh : (tailOps6 : List (HloOp τ sig (Elt F))).Forall fun op => op.fresh = ∅ :=
  ⟨rfl, rfl, rfl, rfl, rfl, rfl, rfl, rfl, rfl, rfl, rfl, rfl, rfl, rfl, rfl, rfl, rfl, rfl⟩
theorem tailOps7_fresh : (tailOps7 : List (HloOp τ sig (Elt F))).Forall fun op => op.fresh = ∅ :=
  ⟨rfl, rfl, rfl⟩
theorem tailOps8_fresh : (tailOps8 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
   rfl, rfl, rfl, rfl, rfl, rfl, rfl, rfl⟩
theorem tailOps9_fresh : (tailOps9 : List (HloOp τ sig (Elt F))).Forall fun op => op.fresh = ∅ :=
  ⟨rfl, rfl, rfl⟩
theorem tailOps10_fresh : (tailOps10 : List (HloOp τ sig (Elt F))).Forall fun op => op.fresh = ∅ :=
  ⟨rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.1 (List.forall_append.2 ⟨headOps_fresh, forall_flatten tailOps
    ⟨tailOps0_fresh, tailOps1_fresh, tailOps2_fresh, tailOps3_fresh, tailOps4_fresh, tailOps5_fresh,
     tailOps6_fresh, tailOps7_fresh, tailOps8_fresh, tailOps9_fresh, tailOps10_fresh⟩⟩)

/-- Every weakly fair execution terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are kept

The argument arrays are the first five buffers of the table; each operation writes one buffer, a later one. -/

/-- An operation all of whose results lie past the first five buffers of the table. -/
def WritesPastArgs (op : HloOp τ sig (Elt F)) : Prop := ∀ r : Ref sig .tc, Proc.devRef (τ := τ) .tc r ∈ op.writes → 5 ≤ r.idx.val

/-- An operation whose one result is a buffer past the first five is such an operation. -/
theorem late_of_writes {op : HloOp τ sig (Elt F)} {y : Ref sig .tc} (hy : 5 ≤ y.idx.val) (hw : op.writes = {Proc.devRef .tc y}) :
    WritesPastArgs op := by
  intro r hr
  rw [hw, Finset.mem_singleton] at hr
  exact Proc.devRef_injective _ hr ▸ hy

theorem headOps_late : (headOps : List (HloOp τ sig (Elt F))).Forall WritesPastArgs :=
  ⟨late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl⟩
theorem tailOps0_late : (tailOps0 : List (HloOp τ sig (Elt F))).Forall WritesPastArgs :=
  ⟨late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl⟩
theorem tailOps1_late : (tailOps1 : List (HloOp τ sig (Elt F))).Forall WritesPastArgs :=
  late_of_writes (by decide) rfl
set_option maxHeartbeats 40000000 in
theorem tailOps2_late : (tailOps2 : List (HloOp τ sig (Elt F))).Forall WritesPastArgs :=
  ⟨late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl⟩
theorem tailOps3_late : (tailOps3 : List (HloOp τ sig (Elt F))).Forall WritesPastArgs :=
  ⟨late_of_writes (by decide) rfl, late_of_writes (by decide) rfl, late_of_writes (by decide) rfl⟩
theorem tailOps4_late : (tailOps4 : List (HloOp τ sig (Elt F))).Forall WritesPastArgs :=
  ⟨late_of_writes (by decide) rfl, late_of_writes (by decide) rfl, late_of_writes (by decide) rfl, late_of_writes (by decide) rfl,
   late_of_writes (by decide) rfl⟩
theorem tailOps5_late : (tailOps5 : List (HloOp τ sig (Elt F))).Forall WritesPastArgs :=
  ⟨late_of_writes (by decide) rfl, late_of_writes (by decide) rfl, late_of_writes (by decide) rfl⟩
theorem tailOps6_late : (tailOps6 : List (HloOp τ sig (Elt F))).Forall WritesPastArgs :=
  ⟨late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl⟩
theorem tailOps7_late : (tailOps7 : List (HloOp τ sig (Elt F))).Forall WritesPastArgs :=
  ⟨late_of_writes (by decide) rfl, late_of_writes (by decide) rfl, late_of_writes (by decide) rfl⟩
theorem tailOps8_late : (tailOps8 : List (HloOp τ sig (Elt F))).Forall WritesPastArgs :=
  ⟨late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl⟩
theorem tailOps9_late : (tailOps9 : List (HloOp τ sig (Elt F))).Forall WritesPastArgs :=
  ⟨late_of_writes (by decide) rfl, late_of_writes (by decide) rfl, late_of_writes (by decide) rfl⟩
theorem tailOps10_late : (tailOps10 : List (HloOp τ sig (Elt F))).Forall WritesPastArgs :=
  ⟨late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl,
   late_of_writes (by decide) rfl, late_of_writes (by decide) rfl, late_of_writes (by decide) rfl, late_of_writes (by decide) rfl⟩

theorem ops_late : ∀ op ∈ (ops : List (HloOp τ sig (Elt F))), WritesPastArgs op :=
  List.forall_iff_forall_mem.1 (List.forall_append.2 ⟨headOps_late, forall_flatten tailOps
    ⟨tailOps0_late, tailOps1_late, tailOps2_late, tailOps3_late, tailOps4_late, tailOps5_late,
     tailOps6_late, tailOps7_late, tailOps8_late, tailOps9_late, tailOps10_late⟩⟩)

/-- One of the first five buffers of the table is written by no operation: the fold leaves it as it was. -/
theorem early_kept {r : Ref sig .tc} (hr : r.idx.val < 5) (V : Valuation τ sig (Elt F)) :
    after ops V (Proc.devRef .tc r) = V (Proc.devRef .tc r) :=
  after_of_forall_not_mem ops V fun op hop hb => absurd (ops_late op hop r hb) (Nat.not_le.2 hr)

/-- No operation writes an argument array. -/
theorem arg0_kept (V : Valuation τ sig (Elt F)) : after ops V (Proc.devRef .tc main_arg0) = V (Proc.devRef .tc main_arg0) :=
  early_kept (by decide) V
theorem arg1_kept (V : Valuation τ sig (Elt F)) : after ops V (Proc.devRef .tc main_arg1) = V (Proc.devRef .tc main_arg1) :=
  early_kept (by decide) V
theorem arg2_kept (V : Valuation τ sig (Elt F)) : after ops V (Proc.devRef .tc main_arg2) = V (Proc.devRef .tc main_arg2) :=
  early_kept (by decide) V
theorem arg3_kept (V : Valuation τ sig (Elt F)) : after ops V (Proc.devRef .tc main_arg3) = V (Proc.devRef .tc main_arg3) :=
  early_kept (by decide) V
theorem arg4_kept (V : Valuation τ sig (Elt F)) : after ops V (Proc.devRef .tc main_arg4) = V (Proc.devRef .tc main_arg4) :=
  early_kept (by decide) V

/-- The frame: the program runs and its five argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_arg0).trans (arg0_kept _), (h c main_arg1).trans (arg1_kept _), (h c main_arg2).trans (arg2_kept _),
     (h c main_arg3).trans (arg3_kept _), (h c main_arg4).trans (arg4_kept _)⟩) (run_main m ρ)

end Cert.ReferenceIdeal.Hand

end
-- ==== Proof.RefHead.lean ====
/-
  What the reference's first lines leave besides the gathered values: the mask, the targets and the 2-d coordinates are
  written by none of them, and each of the four constant tables is what its one line wrote.
-/
import proofs.«417907_j30227979829940_1_alg».proof.Proof.RefOps
import Idealize.ShloMosaic.PureOps.Ideal

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The first lines write none of the other three arguments. -/
theorem head_arg1 (V : Valuation τ sig (Elt Ideal)) : after (headOps (F := Ideal)) V (Proc.devRef .tc main_arg1) = V (Proc.devRef .tc main_arg1) := by
  after_results_simp
theorem head_arg3 (V : Valuation τ sig (Elt Ideal)) : after (headOps (F := Ideal)) V (Proc.devRef .tc main_arg3) = V (Proc.devRef .tc main_arg3) := by
  after_results_simp
theorem head_arg4 (V : Valuation τ sig (Elt Ideal)) : after (headOps (F := Ideal)) V (Proc.devRef .tc main_arg4) = V (Proc.devRef .tc main_arg4) := by
  after_results_simp

/-- The four constant tables after the first lines. -/
theorem head_c (V : Valuation τ sig (Elt Ideal)) :
    (after (headOps (F := Ideal)) V (Proc.devRef .tc main_c) : IVec S12 32) = fun i => lit0 (S12.rowMajor i) := by
  after_results_simp; rfl
theorem head_c_0 (V : Valuation τ sig (Elt Ideal)) :
    (after (headOps (F := Ideal)) V (Proc.devRef .tc main_c_0) : IVec S12 32) = fun i => lit1 (S12.rowMajor i) := by
  after_results_simp; rfl
theorem head_c_1 (V : Valuation τ sig (Elt Ideal)) :
    (after (headOps (F := Ideal)) V (Proc.devRef .tc main_c_1) : IVec S12 32) = fun i => lit2 (S12.rowMajor i) := by
  after_results_simp; rfl
theorem head_cst (V : Valuation τ sig (Elt Ideal)) :
    (after (headOps (F := Ideal)) V (Proc.devRef .tc main_cst) : FVec Ideal S12 .f32) = fun i => FloatOps.ofBits (F := Ideal) .f32 (lit3 (S12.rowMajor i)) := by
  after_results_simp; rfl

end Cert.ReferenceIdeal.Hand

end
-- ==== Proof.RefValue.lean ====
/-
  What the reference's first lines leave.  The feature maps are transposed to `[batch, height, width, channel]` and each
  row flattened to `16 · 128 · 128` entries; an index below zero is shifted up by that length, the shifted index is tested
  for the range, the row's entry at it is gathered, and an out-of-range index yields the fill value instead.  Where
  `0 ≤ k < 16 · 128 · 128` nothing is shifted, the test passes and the gathered entry is channel `k % 16`, height
  `k / 2048`, width `k / 16 % 128` of the row's slab: the gathered values.
-/
import proofs.«417907_j30227979829940_1_alg».proof.Proof.RefOps
import proofs.«417907_j30227979829940_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

open Idealize.ShloMosaic.ValueIdx

/-- The indices as the gather reads them: one below zero shifted up by the row length, as a column. -/
def normIdx (ind : IVec S128x16 32) : IVec S128x16x1 32 :=
  shapeCast S128x16x1
    (select (cmpi .slt ind (broadcastInDim S128x16 ![] bcast_S_S128x16 (constantI S_ 32 0#32)))
      (addi ind (broadcastInDim S128x16 ![] bcast_S_S128x16 (constantI S_ 32 262144#32))) ind)
    shapeCasts_S128x16_S128x16x1

/-- The range test of the normalised indices, folded over the column's one entry. -/
def inMask (v : IVec S128x16x1 32) : IVec S128x16 1 :=
  Host.reduce IntOp.andi
    (andi (cmpi .sge v (broadcastInDim S128x16x1 ![] bcast_S_S128x16x1 (constantI S_ 32 0#32)))
      (cmpi .sle v (broadcastInDim S128x16x1 ![0, 1, 2] bcast_S1x1x1_S128x16x1_0_1_2
        (broadcastInDim S1x1x1 ![2] bcast_S1_S1x1x1_2 (constantI S1 32 262143#32)))))
    (constantI S_ 1 1#1) reducesTo_S128x16x1_S128x16_d2 h_S_

/-- The feature maps as rows: transposed to height, width, channel and each batch row flattened. -/
def flatRows (x : FVec Ideal S128x16x128x128 .f32) : FVec Ideal S128x262144 .f32 :=
  shapeCast S128x262144
    (transpose S128x128x128x16 [0, 2, 3, 1] x transposes_S128x16x128x128_S128x128x128x16_0_2_3_1)
    shapeCasts_S128x128x128x16_S128x262144

/-- A word read as a signed number that is not negative is its unsigned reading. -/
theorem toInt_toNat_of_nonneg (x : BitVec 32) (h : 0 ≤ x.toInt) : x.toInt.toNat = x.toNat := by
  have e := BitVec.toInt_eq_toNat_cond x
  have hl := x.isLt
  split at e <;> omega

/-- An index that is not negative is not shifted. -/
theorem normIdx_apply (ind : IVec S128x16 32) (b : Fin 128) (q : Fin 16) (u : Fin 1)
    (h : 0 ≤ (ind (ix2 b q)).toInt) : normIdx ind (ix3 b q u) = ind (ix2 b q) := by
  unfold normIdx
  rw [shapeCast_apply _ _ (ix3 b q u) (ix2 b q) (by
    have hu : u.val = 0 := by omega
    rw [Shape.rowMajor_val_three, Shape.rowMajor_val_two]
    show b.val * 16 + q.val = (b.val * 16 + q.val) * 1 + u.val
    omega)]
  show Scalar.select (IntOp.cmpi .slt (ind (ix2 b q)) 0#32) _ (ind (ix2 b q)) = _
  have hc : IntOp.cmpi .slt (ind (ix2 b q)) 0#32 = 0#1 := by
    show BitVec.ofBool ((ind (ix2 b q)).slt 0#32) = 0#1
    have : (ind (ix2 b q)).slt 0#32 = false := by
      rw [BitVec.slt]; simp only [BitVec.toInt_zero, decide_eq_false_iff_not, not_lt]; exact h
    rw [this]; rfl
  rw [hc]; rfl

/-- A fold by and of ones from one is one. -/
theorem foldl_andi_ones {ι : Type} (l : List ι) : l.foldl (fun r _ => IntOp.andi r 1#1) 1#1 = 1#1 := by
  induction l with
  | nil => rfl
  | cons a l ih => exact ih

/-- Where every normalised index is a position of the row, the range test passes everywhere. -/
theorem inMask_eq_one (v : IVec S128x16x1 32) (hv : ∀ j, 0 ≤ (v j).toInt ∧ (v j).toInt < 262144) (i : S128x16.Idx) :
    inMask v i = 1#1 := by
  unfold inMask
  rw [Host.reduce_eq_foldl]
  have hx : (andi (cmpi .sge v (broadcastInDim S128x16x1 ![] bcast_S_S128x16x1 (constantI S_ 32 0#32)))
      (cmpi .sle v (broadcastInDim S128x16x1 ![0, 1, 2] bcast_S1x1x1_S128x16x1_0_1_2
        (broadcastInDim S1x1x1 ![2] bcast_S1_S1x1x1_2 (constantI S1 32 262143#32))))) = fun _ => 1#1 := by
    funext j
    show IntOp.andi (IntOp.cmpi .sge (v j) 0#32) (IntOp.cmpi .sle (v j) 262143#32) = 1#1
    have h1 : IntOp.cmpi .sge (v j) 0#32 = 1#1 := by
      show BitVec.ofBool ((0#32).sle (v j)) = 1#1
      have : (0#32).sle (v j) = true := by
        rw [BitVec.sle]; simp only [BitVec.toInt_zero, decide_eq_true_eq]; exact (hv j).1
      rw [this]; rfl
    have h2 : IntOp.cmpi .sle (v j) 262143#32 = 1#1 := by
      show BitVec.ofBool ((v j).sle 262143#32) = 1#1
      have : (v j).sle 262143#32 = true := by
        rw [BitVec.sle]
        have e : (262143#32 : BitVec 32).toInt = 262143 := by decide
        simp only [e, decide_eq_true_eq]; have := (hv j).2; omega
      rw [this]; rfl
    rw [h1, h2]; rfl
  rw [hx]
  exact foldl_andi_ones _

/-- The rows read at a position: row b's entry k is channel k % 16, height k / 2048, width k / 16 % 128 of its slab. -/
theorem flatRows_apply (x : FVec Ideal S128x16x128x128 .f32) (b : Fin 128) (k : Nat) (hk : k < 262144) :
    flatRows x (ix2 b (⟨k, hk⟩ : Fin 262144))
      = x (ix4 b (⟨k % 16, Nat.mod_lt _ (by decide)⟩ : Fin 16) (⟨k / 2048, by omega⟩ : Fin 128)
            (⟨k / 16 % 128, Nat.mod_lt _ (by decide)⟩ : Fin 128)) := by
  unfold flatRows
  rw [shapeCast_apply _ _ (ix2 b (⟨k, hk⟩ : Fin 262144))
    (ix4 b (⟨k / 2048, by omega⟩ : Fin 128) (⟨k / 16 % 128, Nat.mod_lt _ (by decide)⟩ : Fin 128)
      (⟨k % 16, Nat.mod_lt _ (by decide)⟩ : Fin 16)) (by
    rw [Shape.rowMajor_val_four, Shape.rowMajor_val_two]
    show ((b.val * 128 + k / 2048) * 128 + k / 16 % 128) * 16 + k % 16 = b.val * 262144 + k
    omega)]
  exact transpose_apply _ x _ _ _ fun c => match c with
    | ⟨0, _⟩ => rfl | ⟨1, _⟩ => rfl | ⟨2, _⟩ => rfl | ⟨3, _⟩ => rfl

/-- The gather's dimension numbers: batch axis 0 of both operands, one collapsed slice on the row's axis. -/
abbrev gd : GatherDims S128x262144 S128x16x1 S128x16 := gather_S128x262144_S128x16x1_S128x16_n_1_0_0_1_2_11

/-- The batched gather read at a position: row b of the operand at the start index of (b, q), clamped to the row. -/
theorem gather_apply {α : Type} (x : S128x262144.Idx → α) (idx : IVec S128x16x1 32) (b : Fin 128) (q : Fin 16) :
    Host.gather gd x idx (ix2 b q)
      = x (ix2 b (⟨min (idx (ix3 b q (0 : Fin 1))).toInt.toNat 262143, by omega⟩ : Fin 262144)) := by
  unfold Host.gather
  congr 1
  funext a
  refine Fin.ext ?_
  match a with
  | ⟨0, _⟩ =>
    show gd.start (ix2 b q) idx 0 + gd.batchCoord (ix2 b q) 0 + gd.offCoord (ix2 b q) 0 = b.val
    have h0 : gd.start (ix2 b q) idx 0 = 0 := rfl
    have h1 : gd.batchCoord (ix2 b q) 0 = b.val := rfl
    have h2 : gd.offCoord (ix2 b q) 0 = 0 := rfl
    rw [h0, h1, h2, Nat.zero_add, Nat.add_zero]
  | ⟨1, _⟩ =>
    show gd.start (ix2 b q) idx 1 + gd.batchCoord (ix2 b q) 1 + gd.offCoord (ix2 b q) 1
      = min (idx (ix3 b q (0 : Fin 1))).toInt.toNat 262143
    have h1 : gd.batchCoord (ix2 b q) 1 = 0 := rfl
    have h2 : gd.offCoord (ix2 b q) 1 = 0 := rfl
    rw [h1, h2]; simp only [Nat.add_zero]
    unfold GatherDims.start
    rw [dif_pos (show (1 : Fin 2) ∈ gd.startIndexMap from List.mem_singleton.mpr rfl)]
    have hsi : gd.siIdx (ix2 b q) ⟨List.idxOf (1 : Fin 2) gd.startIndexMap,
        List.idxOf_lt_length_iff.2 (List.mem_singleton.mpr rfl)⟩ = ix3 b q (0 : Fin 1) := by
      funext c; refine Fin.ext ?_
      match c with
      | ⟨0, _⟩ => rfl
      | ⟨1, _⟩ => rfl
      | ⟨2, _⟩ => rfl
    rw [hsi]
    rfl

/-- The gathered buffer after the first lines, as one term of the launch contents. -/
theorem head_term (V : Valuation τ sig (Elt Ideal)) :
    (after (headOps (F := Ideal)) V (Proc.devRef .tc main_v2) : FVec Ideal S128x16 .f32)
      = select (inMask (normIdx (V (Proc.devRef .tc main_arg2))))
          (Host.gather gd (flatRows (V (Proc.devRef .tc main_arg0))) (normIdx (V (Proc.devRef .tc main_arg2))))
          (broadcastInDim S128x16 ![] bcast_S_S128x16 (constant S_ .f32 0x7FC00000#32)) := by
  after_results_simp
  rfl

/-- Where every index is a position of the row, the term is the gathered values. -/
theorem head_value (x : FVec Ideal S128x16x128x128 .f32) (ind : IVec S128x16 32) (hin : Cert.Spec.InRange ind) :
    select (inMask (normIdx ind)) (Host.gather gd (flatRows x) (normIdx ind))
        (broadcastInDim S128x16 ![] bcast_S_S128x16 (constant S_ .f32 0x7FC00000#32))
      = Cert.Spec.pred x ind := by
  funext i
  obtain ⟨b, q, rfl⟩ : ∃ (b : Fin 128) (q : Fin 16), i = ix2 b q := ⟨i 0, i 1, eq_ix2 i⟩
  have hv : ∀ j, 0 ≤ (normIdx ind j).toInt ∧ (normIdx ind j).toInt < 262144 := by
    intro j
    obtain ⟨a, c, u, rfl⟩ : ∃ (a : Fin 128) (c : Fin 16) (u : Fin 1), j = ix3 a c u := ⟨j 0, j 1, j 2, eq_ix3 j⟩
    rw [normIdx_apply ind a c u (hin _).1]
    exact hin _
  have hb := hin (ix2 b q)
  have hk : (ind (ix2 b q)).toInt.toNat = (ind (ix2 b q)).toNat := toInt_toNat_of_nonneg _ hb.1
  have hlt : (ind (ix2 b q)).toNat < 262144 := by omega
  have hn := normIdx_apply ind b q 0 hb.1
  rw [select_apply, inMask_eq_one _ hv, select_one, gather_apply]
  have e : (⟨min (normIdx ind (ix3 b q (0 : Fin 1))).toInt.toNat 262143, by omega⟩ : Fin 262144)
      = ⟨(ind (ix2 b q)).toNat, hlt⟩ :=
    Fin.ext (by
      show min (normIdx ind (ix3 b q (0 : Fin 1))).toInt.toNat 262143 = (ind (ix2 b q)).toNat
      rw [hn]; omega)
  rw [e, flatRows_apply]
  unfold Cert.Spec.pred
  refine congrArg x (funext fun c => ?_)
  match c with
  | ⟨0, _⟩ => rfl
  | ⟨1, _⟩ => rfl
  | ⟨2, _⟩ =>
    have h2 : (ind (ix2 b q)).toNat / 2048 < 128 := by omega
    exact Fin.ext (show (ind (ix2 b q)).toNat / 2048 = (ind (ix2 b q)).toNat / 2048 % 128 from
      (Nat.mod_eq_of_lt h2).symm)
  | ⟨3, _⟩ => rfl

/-- After the first lines the gathered buffer holds the gathered values of the contents they started from. -/
theorem head_pred (V : Valuation τ sig (Elt Ideal)) (hin : Cert.Spec.InRange (V (Proc.devRef .tc main_arg2))) :
    (after (headOps (F := Ideal)) V (Proc.devRef .tc main_v2) : FVec Ideal S128x16 .f32)
      = Cert.Spec.pred (V (Proc.devRef .tc main_arg0)) (V (Proc.devRef .tc main_arg2)) := by
  rw [head_term]
  exact head_value _ _ hin

end Cert.ReferenceIdeal.Hand

end
-- ==== Proof.Tails.lean ====
/-
  Both programs close with the same lines: the masked smooth-L1 term and the bone-length variance term, computed from
  the gathered values, the mask, the targets, the 2-d coordinates and four constant tables.  Line for line the two
  closing stretches apply the same operations to the same operands (only the buffers' names differ), so from equal
  inputs they leave equal results.  The lines form eleven stretches; between two stretches only the few buffers a later
  stretch still reads matter, and each stretch keeps the two programs equal on them.
-/
import proofs.«417907_j30227979829940_1_alg».proof.Proof.Gen.KernelIdeal.Launch
import proofs.«417907_j30227979829940_1_alg».proof.Proof.RefOps
import Idealize.ShloMosaic.Lib.StableHlo.Run
import Idealize.ShloMosaic.PureOps.Ideal

set_option maxRecDepth 16384

noncomputable section

namespace Cert.Tails

open Idealize.ShloMosaic Idealize.ShloMosaic.TcCoe Idealize.SL.Sem Idealize.ShloMosaic.StableHlo

/-- The idealized kernel's closing lines, stretch by stretch. -/
abbrev kTail : List (List (HloOp Cert.KernelIdeal.τ Cert.KernelIdeal.sig (Elt Ideal))) :=
  [Cert.KernelIdeal.Gen.hostOps1, Cert.KernelIdeal.Gen.hostOps1_1, Cert.KernelIdeal.Gen.hostOps1_2, Cert.KernelIdeal.Gen.hostOps1_3,
   Cert.KernelIdeal.Gen.hostOps1_4, Cert.KernelIdeal.Gen.hostOps1_5, Cert.KernelIdeal.Gen.hostOps1_6, Cert.KernelIdeal.Gen.hostOps1_7,
   Cert.KernelIdeal.Gen.hostOps1_8, Cert.KernelIdeal.Gen.hostOps1_9, Cert.KernelIdeal.Gen.hostOps1_10]

/-- Running two lines one after the other folds the second over the first's result. -/
theorem after_append {Val : EltTy → Type} {τ' : Topo} {sig' : RefSig} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- Eleven stretches run as one line are the stretches run in turn, each from the contents the one before left. -/
theorem after_flatten11 {Val : EltTy → Type} {τ' : Topo} {sig' : RefSig} (a0 a1 a2 a3 a4 a5 a6 a7 a8 a9 a10 : List (HloOp τ' sig' Val))
    (V : Valuation τ' sig' Val) :
    after [a0, a1, a2, a3, a4, a5, a6, a7, a8, a9, a10].flatten V
      = after a10 (after a9 (after a8 (after a7 (after a6 (after a5 (after a4 (after a3 (after a2 (after a1 (after a0 V)))))))))) := by
  simp only [List.flatten_cons, List.flatten_nil, List.append_nil, after_append]

/-! ## What the two programs hold between the stretches

Between two stretches only a few buffers matter: those a later stretch still reads.  `Agree b` says that the two programs hold
equal contents at each such pair of corresponding buffers before stretch `b` (`Agree 11`: at the result).  Every stretch takes
`Agree b` to `Agree (b+1)`: a buffer it writes is the same function of equal operands on both sides, a buffer it does not
write is what it was. -/

/-- Equal contents at the pairs still read, what the closing lines read: the gathered values, the mask, the targets, the 2-d coordinates and the four constant tables. -/
abbrev Agree0 (VK : Valuation KernelIdeal.τ KernelIdeal.sig (Elt Ideal)) (VR : Valuation ReferenceIdeal.τ ReferenceIdeal.sig (Elt Ideal)) : Prop :=
  ((VK (Proc.devRef .tc KernelIdeal.main_v0) : (⟨KernelIdeal.S128x16, .f32⟩ : BufTy).Contents (Elt Ideal)) = VR (Proc.devRef .tc ReferenceIdeal.main_v2))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_arg3) : (⟨KernelIdeal.S128x16x1, .f32⟩ : BufTy).Contents (Elt Ideal)) = VR (Proc.devRef .tc ReferenceIdeal.main_arg3))
  ∧ ((VK (Proc.devRef .tc KernelIdeal.main_arg4) : (⟨KernelIdeal.S128x32, .f32⟩ : BufTy).Contents (Elt Ideal)) = VR (Proc.devRef .tc ReferenceIdeal.main_arg4))
  ∧ ((VK (Proc.devRef .tc KernelIdeal.main_c) : (⟨KernelIdeal.S12, .i32⟩ : BufTy).Contents (Elt Ideal)) = VR (Proc.devRef .tc ReferenceIdeal.main_c))
  ∧ ((VK (Proc.devRef .tc KernelIdeal.main_c_0) : (⟨KernelIdeal.S12, .i32⟩ : BufTy).Contents (Elt Ideal)) = VR (Proc.devRef .tc ReferenceIdeal.main_c_0))
  ∧ ((VK (Proc.devRef .tc KernelIdeal.main_c_1) : (⟨KernelIdeal.S12, .i32⟩ : BufTy).Contents (Elt Ideal)) = VR (Proc.devRef .tc ReferenceIdeal.main_c_1))
  ∧ ((VK (Proc.devRef .tc KernelIdeal.main_cst) : (⟨KernelIdeal.S12, .f32⟩ : BufTy).Contents (Elt Ideal)) = VR (Proc.devRef .tc ReferenceIdeal.main_cst))

/-- Equal contents at the pairs still read, after the first stretch. -/
abbrev Agree1 (VK : Valuation KernelIdeal.τ KernelIdeal.sig (Elt Ideal)) (VR : Valuation ReferenceIdeal.τ ReferenceIdeal.sig (Elt Ideal)) : Prop :=
  ((VK (Proc.devRef .tc KernelIdeal.main_v1) : (⟨KernelIdeal.S128x16x1, .f32⟩ : BufTy).Contents (Elt Ideal)) = VR (Proc.devRef .tc ReferenceIdeal.main_v3))
  ∧ ((VK (Proc.devRef .tc KernelIdeal.main_v3) : (⟨KernelIdeal.S_, .f32⟩ : BufTy).Contents (Elt Ideal)) = VR (Proc.devRef .tc ReferenceIdeal.main_v5))
  ∧ ((VK (Proc.devRef .tc KernelIdeal.main_v11) : (⟨KernelIdeal.S128x16x1, .i1⟩ : BufTy).Contents (Elt Ideal)) = VR (Proc.devRef .tc ReferenceIdeal.main_v13))
  ∧ ((VK (Proc.devRef .tc KernelIdeal.main_v14) : (⟨KernelIdeal.S128x16x1, .f32⟩ : BufTy).Contents (Elt Ideal)) = VR (Proc.devRef .tc ReferenceIdeal.main_v16))
  ∧ ((VK (Proc.devRef .tc KernelIdeal.main_v16) : (⟨KernelIdeal.S128x16x1, .f32⟩ : BufTy).Contents (Elt Ideal)) = VR (Proc.devRef .tc ReferenceIdeal.main_v18))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_arg3) : (⟨KernelIdeal.S128x16x1, .f32⟩ : BufTy).Contents (Elt Ideal)) = VR (Proc.devRef .tc ReferenceIdeal.main_arg3))
  ∧ ((VK (Proc.devRef .tc KernelIdeal.main_arg4) : (⟨KernelIdeal.S128x32, .f32⟩ : BufTy).Contents (Elt Ideal)) = VR (Proc.devRef .tc ReferenceIdeal.main_arg4))
  ∧ ((VK (Proc.devRef .tc KernelIdeal.main_c) : (⟨KernelIdeal.S12, .i32⟩ : BufTy).Contents (Elt Ideal)) = VR (Proc.devRef .tc ReferenceIdeal.main_c))
  ∧ ((VK (Proc.devRef .tc KernelIdeal.main_c_0) : (⟨KernelIdeal.S12, .i32⟩ : BufTy).Contents (Elt Ideal)) = VR (Proc.devRef .tc ReferenceIdeal.main_c_0))
  ∧ ((VK (Proc.devRef .tc KernelIdeal.main_c_1) : (⟨KernelIdeal.S12, .i32⟩ : BufTy).Contents (Elt Ideal)) = VR (Proc.devRef .tc ReferenceIdeal.main_c_1))
  ∧ ((VK (Proc.devRef .tc KernelIdeal.main_cst) : (⟨KernelIdeal.S12, .f32⟩ : BufTy).Contents (Elt Ideal)) = VR (Proc.devRef .tc ReferenceIdeal.main_cst))

/-- Equal contents at the pairs still read, after the smooth-L1 selection. -/
abbrev Agree2 (VK : Valuation KernelIdeal.τ KernelIdeal.sig (Elt Ideal)) (VR : Valuation ReferenceIdeal.τ ReferenceIdeal.sig (Elt Ideal)) : Prop :=
  ((VK (Proc.devRef .tc KernelIdeal.main_v1) : (⟨KernelIdeal.S128x16x1, .f32⟩ : BufTy).Contents (Elt Ideal)) = VR (Proc.devRef .tc ReferenceIdeal.main_v3))
  ∧ ((VK (Proc.devRef .tc KernelIdeal.main_v3) : (⟨KernelIdeal.S_, .f32⟩ : BufTy).Contents (Elt Ideal)) = VR (Proc.devRef .tc ReferenceIdeal.main_v5))
  ∧ ((VK (Proc.devRef .tc KernelIdeal.main_v17) : (⟨KernelIdeal.S128x16x1, .f32⟩ : BufTy).Contents (Elt Ideal)) = VR (Proc.devRef .tc ReferenceIdeal.main_v19))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_arg3) : (⟨KernelIdeal.S128x16x1, .f32⟩ : BufTy).Contents (Elt Ideal)) = VR (Proc.devRef .tc ReferenceIdeal.main_arg3))
  ∧ ((VK (Proc.devRef .tc KernelIdeal.main_arg4) : (⟨KernelIdeal.S128x32, .f32⟩ : BufTy).Contents (Elt Ideal)) = VR (Proc.devRef .tc ReferenceIdeal.main_arg4))
  ∧ ((VK (Proc.devRef .tc KernelIdeal.main_c) : (⟨KernelIdeal.S12, .i32⟩ : BufTy).Contents (Elt Ideal)) = VR (Proc.devRef .tc ReferenceIdeal.main_c))
  ∧ ((VK (Proc.devRef .tc KernelIdeal.main_c_0) : (⟨KernelIdeal.S12, .i32⟩ : BufTy).Contents (Elt Ideal)) = VR (Proc.devRef .tc ReferenceIdeal.main_c_0))
  ∧ ((VK (Proc.devRef .tc KernelIdeal.main_c_1) : (⟨KernelIdeal.S12, .i32⟩ : BufTy).Contents (Elt Ideal)) = VR (Proc.devRef .tc ReferenceIdeal.main_c_1))
  ∧ ((VK (Proc.devRef .tc KernelIdeal.main_cst) : (⟨KernelIdeal.S12, .f32⟩ : BufTy).Contents (Elt Ideal)) = VR (Proc.devRef .tc ReferenceIdeal.main_cst))

/-- Equal contents at the pairs still read, after the coordinate term, the visibility and the squared bone lengths. -/
abbrev Agree3 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v78) : (⟨KernelIdeal.S128x12, .f32⟩ : BufTy).Contents (Elt Ideal)) = VR (Proc.devRef .tc ReferenceIdeal.main_v80))
  ∧ ((VK (Proc.devRef .tc KernelIdeal.main_cst_25) : (⟨KernelIdeal.S_, .f32⟩ : BufTy).Contents (Elt Ideal)) = VR (Proc.devRef .tc ReferenceIdeal.main_cst_25))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_c_1) : (⟨KernelIdeal.S12, .i32⟩ : BufTy).Contents (Elt Ideal)) = VR (Proc.devRef .tc ReferenceIdeal.main_c_1))
  ∧ ((VK (Proc.devRef .tc KernelIdeal.main_cst) : (⟨KernelIdeal.S12, .f32⟩ : BufTy).Contents (Elt Ideal)) = VR (Proc.devRef .tc ReferenceIdeal.main_cst))

/-- Equal contents at the pairs still read, after the guarded squared length. -/
abbrev Agree4 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v79) : (⟨KernelIdeal.S128x12, .f32⟩ : BufTy).Contents (Elt Ideal)) = VR (Proc.devRef .tc ReferenceIdeal.main_v81))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_c_1) : (⟨KernelIdeal.S12, .i32⟩ : BufTy).Contents (Elt Ideal)) = VR (Proc.devRef .tc ReferenceIdeal.main_c_1))
  ∧ ((VK (Proc.devRef .tc KernelIdeal.main_cst) : (⟨KernelIdeal.S12, .f32⟩ : BufTy).Contents (Elt Ideal)) = VR (Proc.devRef .tc ReferenceIdeal.main_cst))

/-- Equal contents at the pairs still read, after the weighted bone length. -/
abbrev Agree5 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v83) : (⟨KernelIdeal.S128x12, .f32⟩ : BufTy).Contents (Elt Ideal)) = VR (Proc.devRef .tc ReferenceIdeal.main_v85))
  ∧ ((VK (Proc.devRef .tc KernelIdeal.main_cst_26) : (⟨KernelIdeal.S_, .f32⟩ : BufTy).Contents (Elt Ideal)) = VR (Proc.devRef .tc ReferenceIdeal.main_cst_26))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_c_1) : (⟨KernelIdeal.S12, .i32⟩ : BufTy).Contents (Elt Ideal)) = VR (Proc.devRef .tc ReferenceIdeal.main_c_1))

/-- Equal contents at the pairs still read, after the masked bone length. -/
abbrev Agree6 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v84) : (⟨KernelIdeal.S128x12, .f32⟩ : BufTy).Contents (Elt Ideal)) = VR (Proc.devRef .tc ReferenceIdeal.main_v86))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_c_1) : (⟨KernelIdeal.S12, .i32⟩ : BufTy).Contents (Elt Ideal)) = VR (Proc.devRef .tc ReferenceIdeal.main_c_1))

/-- Equal contents at the pairs still read, after the per-group sums. -/
abbrev Agree7 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v84) : (⟨KernelIdeal.S128x12, .f32⟩ : BufTy).Contents (Elt Ideal)) = VR (Proc.devRef .tc ReferenceIdeal.main_v86))
  ∧ ((VK (Proc.devRef .tc KernelIdeal.main_v93) : (⟨KernelIdeal.S128x4, .f32⟩ : BufTy).Contents (Elt Ideal)) = VR (Proc.devRef .tc ReferenceIdeal.main_v95))
  ∧ ((VK (Proc.devRef .tc KernelIdeal.main_v96) : (⟨KernelIdeal.S128x4, .i1⟩ : BufTy).Contents (Elt Ideal)) = VR (Proc.devRef .tc ReferenceIdeal.main_v98))
  ∧ ((VK (Proc.devRef .tc KernelIdeal.main_v99) : (⟨KernelIdeal.S128x4, .f32⟩ : BufTy).Contents (Elt Ideal)) = VR (Proc.devRef .tc ReferenceIdeal.main_v101))
  ∧ ((VK (Proc.devRef .tc KernelIdeal.main_cst_29) : (⟨KernelIdeal.S_, .f32⟩ : BufTy).Contents (Elt Ideal)) = VR (Proc.devRef .tc ReferenceIdeal.main_cst_29))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_c_1) : (⟨KernelIdeal.S12, .i32⟩ : BufTy).Contents (Elt Ideal)) = VR (Proc.devRef .tc ReferenceIdeal.main_c_1))

/-- Equal contents at the pairs still read, after the group means. -/
abbrev Agree8 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v84) : (⟨KernelIdeal.S128x12, .f32⟩ : BufTy).Contents (Elt Ideal)) = VR (Proc.devRef .tc ReferenceIdeal.main_v86))
  ∧ ((VK (Proc.devRef .tc KernelIdeal.main_v93) : (⟨KernelIdeal.S128x4, .f32⟩ : BufTy).Contents (Elt Ideal)) = VR (Proc.devRef .tc ReferenceIdeal.main_v95))
  ∧ ((VK (Proc.devRef .tc KernelIdeal.main_v100) : (⟨KernelIdeal.S128x4, .f32⟩ : BufTy).Contents (Elt Ideal)) = VR (Proc.devRef .tc ReferenceIdeal.main_v102))
  ∧ ((VK (Proc.devRef .tc KernelIdeal.main_arg1) : (⟨KernelIdeal.S128x16, .i32⟩ : BufTy).Contents (Elt Ideal)) = VR (Proc.devRef .tc ReferenceIdeal.main_arg1))
  ∧ ((VK (Proc.devRef .tc KernelIdeal.main_c_1) : (⟨KernelIdeal.S12, .i32⟩ : BufTy).Contents (Elt Ideal)) = VR (Proc.devRef .tc ReferenceIdeal.main_c_1))

/-- Equal contents at the pairs still read, after the deviation terms. -/
abbrev Agree9 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v44) : (⟨KernelIdeal.S128x12, .i1⟩ : BufTy).Contents (Elt Ideal)) = VR (Proc.devRef .tc ReferenceIdeal.main_v46))
  ∧ ((VK (Proc.devRef .tc KernelIdeal.main_v121) : (⟨KernelIdeal.S128x12, .f32⟩ : BufTy).Contents (Elt Ideal)) = VR (Proc.devRef .tc ReferenceIdeal.main_v123))
  ∧ ((VK (Proc.devRef .tc KernelIdeal.main_cst_36) : (⟨KernelIdeal.S_, .f32⟩ : BufTy).Contents (Elt Ideal)) = VR (Proc.devRef .tc ReferenceIdeal.main_cst_36))
  ∧ ((VK (Proc.devRef .tc KernelIdeal.main_arg1) : (⟨KernelIdeal.S128x16, .i32⟩ : BufTy).Contents (Elt Ideal)) = VR (Proc.devRef .tc ReferenceIdeal.main_arg1))

/-- Equal contents at the pairs still read, after the masked deviation terms. -/
abbrev Agree10 (VK : Valuation KernelIdeal.τ KernelIdeal.sig (Elt Ideal)) (VR : Valuation ReferenceIdeal.τ ReferenceIdeal.sig (Elt Ideal)) : Prop :=
  ((VK (Proc.devRef .tc KernelIdeal.main_v22) : (⟨KernelIdeal.S_, .f32⟩ : BufTy).Contents (Elt Ideal)) = VR (Proc.devRef .tc ReferenceIdeal.main_v24))
  ∧ ((VK (Proc.devRef .tc KernelIdeal.main_v122) : (⟨KernelIdeal.S128x12, .f32⟩ : BufTy).Contents (Elt Ideal)) = VR (Proc.devRef .tc ReferenceIdeal.main_v124))
  ∧ ((VK (Proc.devRef .tc KernelIdeal.main_arg1) : (⟨KernelIdeal.S128x16, .i32⟩ : BufTy).Contents (Elt Ideal)) = VR (Proc.devRef .tc ReferenceIdeal.main_arg1))

/-- Equal contents at the pairs still read, the result. -/
abbrev Agree11 (VK : Valuation KernelIdeal.τ KernelIdeal.sig (Elt Ideal)) (VR : Valuation ReferenceIdeal.τ ReferenceIdeal.sig (Elt Ideal)) : Prop :=
  ((VK (Proc.devRef .tc KernelIdeal.main_v132) : (⟨KernelIdeal.S_, .f32⟩ : BufTy).Contents (Elt Ideal)) = VR (Proc.devRef .tc ReferenceIdeal.main_v134))

/-! ## The stretches -/

set_option maxHeartbeats 1000000 in
/-- Stretch 0: the mask as numbers and its sum, the masked difference `d` of the gathered values and the targets, and from it `|d| < 1`, `d²/2` and `|d| − 1/2`. -/
theorem stretch0 (VK : Valuation KernelIdeal.τ KernelIdeal.sig (Elt Ideal)) (VR : Valuation ReferenceIdeal.τ ReferenceIdeal.sig (Elt Ideal))
    (h : Agree0 VK VR) : Agree1 (after (KernelIdeal.Gen.hostOps1 (F := Ideal)) VK) (after (ReferenceIdeal.Hand.tailOps0 (F := Ideal)) VR) := by
  obtain ⟨h_v0, h_arg1, h_arg3, h_arg4, h_c, h_c_0, h_c_1, h_cst⟩ := h
  refine ⟨?_, ?_, ?_, ?_, ?_, ?_, ?_, ?_, ?_, ?_, ?_, ?_⟩
  · after_results_simp; rw [h_v0] <;> rfl
  · after_results_simp; rw [h_arg1] <;> rfl
  · after_results_simp; rw [h_v0, h_arg1, h_arg3] <;> rfl
  · after_results_simp; rw [h_v0, h_arg1, h_arg3] <;> rfl
  · after_results_simp; rw [h_v0, h_arg1, h_arg3] <;> rfl
  · after_results_simp; exact h_arg1
  · after_results_simp; exact h_arg3
  · after_results_simp; exact h_arg4
  · after_results_simp; exact h_c
  · after_results_simp; exact h_c_0
  · after_results_simp; exact h_c_1
  · after_results_simp; exact h_cst

/-- Stretch 1: the smooth-L1 term: `d²/2` where `|d| < 1`, `|d| − 1/2` elsewhere. -/
theorem stretch1 (VK : Valuation KernelIdeal.τ KernelIdeal.sig (Elt Ideal)) (VR : Valuation ReferenceIdeal.τ ReferenceIdeal.sig (Elt Ideal))
    (h : Agree1 VK VR) : Agree2 (after (KernelIdeal.Gen.hostOps1_1 (F := Ideal)) VK) (after (ReferenceIdeal.Hand.tailOps1 (F := Ideal)) VR) := by
  obtain ⟨h_v1, h_v3, h_v11, h_v14, h_v16, h_arg1, h_arg3, h_arg4, h_c, h_c_0, h_c_1, h_cst⟩ := h
  refine ⟨?_, ?_, ?_, ?_, ?_, ?_, ?_, ?_, ?_, ?_⟩
  · after_results_simp; exact h_v1
  · after_results_simp; exact h_v3
  · after_results_simp; rw [h_v11, h_v14, h_v16] <;> rfl
  · after_results_simp; exact h_arg1
  · after_results_simp; exact h_arg3
  · after_results_simp; exact h_arg4
  · after_results_simp; exact h_c
  · after_results_simp; exact h_c_0
  · after_results_simp; exact h_c_1
  · after_results_simp; exact h_cst

set_option maxHeartbeats 4000000 in
/-- Stretch 2: the coordinate term (the smooth-L1 sum over the mask's sum plus `10⁻⁴`), the visibility of each bone (both endpoints' targets above `1/2`) and each bone's squared length (the 2-d part from the coordinates, the depth part from the gathered values). -/
theorem stretch2 (VK : Valuation KernelIdeal.τ KernelIdeal.sig (Elt Ideal)) (VR : Valuation ReferenceIdeal.τ ReferenceIdeal.sig (Elt Ideal))
    (h : Agree2 VK VR) : Agree3 (after (KernelIdeal.Gen.hostOps1_2 (F := Ideal)) VK) (after (ReferenceIdeal.Hand.tailOps2 (F := Ideal)) VR) := by
  obtain ⟨h_v1, h_v3, h_v17, h_arg1, h_arg3, h_arg4, h_c, h_c_0, h_c_1, h_cst⟩ := h
  refine ⟨?_, ?_, ?_, ?_, ?_, ?_, ?_⟩
  · after_results_simp; rw [h_v17, h_v3] <;> rfl
  · after_results_simp; rw [h_arg3, h_c, h_c_0] <;> rfl
  · after_results_simp; rw [h_arg4, h_c, h_c_0, h_v1] <;> rfl
  · after_results_simp
  · after_results_simp; exact h_arg1
  · after_results_simp; exact h_c_1
  · after_results_simp; exact h_cst

/-- Stretch 3: the squared bone length where the bone is visible, `1` elsewhere. -/
theorem stretch3 (VK : Valuation KernelIdeal.τ KernelIdeal.sig (Elt Ideal)) (VR : Valuation ReferenceIdeal.τ ReferenceIdeal.sig (Elt Ideal))
    (h : Agree3 VK VR) : Agree4 (after (KernelIdeal.Gen.hostOps1_3 (F := Ideal)) VK) (after (ReferenceIdeal.Hand.tailOps3 (F := Ideal)) VR) := by
  obtain ⟨h_v22, h_v44, h_v78, h_cst_25, h_arg1, h_c_1, h_cst⟩ := h
  refine ⟨?_, ?_, ?_, ?_, ?_, ?_⟩
  · after_results_simp; exact h_v22
  · after_results_simp; exact h_v44
  · after_results_simp; rw [h_v44, h_v78, h_cst_25] <;> rfl
  · after_results_simp; exact h_arg1
  · after_results_simp; exact h_c_1
  · after_results_simp; exact h_cst

/-- Stretch 4: the bone length (the square root) times the bone's weight. -/
theorem stretch4 (VK : Valuation KernelIdeal.τ KernelIdeal.sig (Elt Ideal)) (VR : Valuation ReferenceIdeal.τ ReferenceIdeal.sig (Elt Ideal))
    (h : Agree4 VK VR) : Agree5 (after (KernelIdeal.Gen.hostOps1_4 (F := Ideal)) VK) (after (ReferenceIdeal.Hand.tailOps4 (F := Ideal)) VR) := by
  obtain ⟨h_v22, h_v44, h_v79, h_arg1, h_c_1, h_cst⟩ := h
  refine ⟨?_, ?_, ?_, ?_, ?_, ?_⟩
  · after_results_simp; exact h_v22
  · after_results_simp; exact h_v44
  · after_results_simp; rw [h_v79, h_cst] <;> rfl
  · after_results_simp
  · after_results_simp; exact h_arg1
  · after_results_simp; exact h_c_1

/-- Stretch 5: the weighted bone length where the bone is visible, `0` elsewhere. -/
theorem stretch5 (VK : Valuation KernelIdeal.τ KernelIdeal.sig (Elt Ideal)) (VR : Valuation ReferenceIdeal.τ ReferenceIdeal.sig (Elt Ideal))
    (h : Agree5 VK VR) : Agree6 (after (KernelIdeal.Gen.hostOps1_5 (F := Ideal)) VK) (after (ReferenceIdeal.Hand.tailOps5 (F := Ideal)) VR) := by
  obtain ⟨h_v22, h_v44, h_v83, h_cst_26, h_arg1, h_c_1⟩ := h
  refine ⟨?_, ?_, ?_, ?_, ?_⟩
  · after_results_simp; exact h_v22
  · after_results_simp; exact h_v44
  · after_results_simp; rw [h_v44, h_v83, h_cst_26] <;> rfl
  · after_results_simp; exact h_arg1
  · after_results_simp; exact h_c_1

set_option maxHeartbeats 1000000 in
/-- Stretch 6: per group of bones (the group table against `0 … 3`): the number of visible bones, whether there is one, and the lengths' sum over that number (at least `1`). -/
theorem stretch6 (VK : Valuation KernelIdeal.τ KernelIdeal.sig (Elt Ideal)) (VR : Valuation ReferenceIdeal.τ ReferenceIdeal.sig (Elt Ideal))
    (h : Agree6 VK VR) : Agree7 (after (KernelIdeal.Gen.hostOps1_6 (F := Ideal)) VK) (after (ReferenceIdeal.Hand.tailOps6 (F := Ideal)) VR) := by
  obtain ⟨h_v22, h_v44, h_v84, h_arg1, h_c_1⟩ := h
  refine ⟨?_, ?_, ?_, ?_, ?_, ?_, ?_, ?_, ?_⟩
  · after_results_simp; exact h_v22
  · after_results_simp; exact h_v44
  · after_results_simp; exact h_v84
  · after_results_simp; rw [h_v44, h_c_1] <;> rfl
  · after_results_simp; rw [h_v44, h_c_1] <;> rfl
  · after_results_simp; rw [h_v84, h_c_1, h_v44] <;> rfl
  · after_results_simp
  · after_results_simp; exact h_arg1
  · after_results_simp; exact h_c_1

/-- Stretch 7: the group's mean length where the group has a visible bone, `0` elsewhere. -/
theorem stretch7 (VK : Valuation KernelIdeal.τ KernelIdeal.sig (Elt Ideal)) (VR : Valuation ReferenceIdeal.τ ReferenceIdeal.sig (Elt Ideal))
    (h : Agree7 VK VR) : Agree8 (after (KernelIdeal.Gen.hostOps1_7 (F := Ideal)) VK) (after (ReferenceIdeal.Hand.tailOps7 (F := Ideal)) VR) := by
  obtain ⟨h_v22, h_v44, h_v84, h_v93, h_v96, h_v99, h_cst_29, h_arg1, h_c_1⟩ := h
  refine ⟨?_, ?_, ?_, ?_, ?_, ?_, ?_⟩
  · after_results_simp; exact h_v22
  · after_results_simp; exact h_v44
  · after_results_simp; exact h_v84
  · after_results_simp; exact h_v93
  · after_results_simp; rw [h_v96, h_v99, h_cst_29] <;> rfl
  · after_results_simp; exact h_arg1
  · after_results_simp; exact h_c_1

set_option maxHeartbeats 1000000 in
/-- Stretch 8: per bone: the squared deviation of its length from its group's mean, over twice the group's number of visible bones (at least `1`). -/
theorem stretch8 (VK : Valuation KernelIdeal.τ KernelIdeal.sig (Elt Ideal)) (VR : Valuation ReferenceIdeal.τ ReferenceIdeal.sig (Elt Ideal))
    (h : Agree8 VK VR) : Agree9 (after (KernelIdeal.Gen.hostOps1_8 (F := Ideal)) VK) (after (ReferenceIdeal.Hand.tailOps8 (F := Ideal)) VR) := by
  obtain ⟨h_v22, h_v44, h_v84, h_v93, h_v100, h_arg1, h_c_1⟩ := h
  refine ⟨?_, ?_, ?_, ?_, ?_⟩
  · after_results_simp; exact h_v22
  · after_results_simp; exact h_v44
  · after_results_simp; rw [h_v84, h_v100, h_c_1, h_v93] <;> rfl
  · after_results_simp
  · after_results_simp; exact h_arg1

/-- Stretch 9: that deviation term where the bone is visible, `0` elsewhere. -/
theorem stretch9 (VK : Valuation KernelIdeal.τ KernelIdeal.sig (Elt Ideal)) (VR : Valuation ReferenceIdeal.τ ReferenceIdeal.sig (Elt Ideal))
    (h : Agree9 VK VR) : Agree10 (after (KernelIdeal.Gen.hostOps1_9 (F := Ideal)) VK) (after (ReferenceIdeal.Hand.tailOps9 (F := Ideal)) VR) := by
  obtain ⟨h_v22, h_v44, h_v121, h_cst_36, h_arg1⟩ := h
  refine ⟨?_, ?_, ?_⟩
  · after_results_simp; exact h_v22
  · after_results_simp; rw [h_v44, h_v121, h_cst_36] <;> rfl
  · after_results_simp; exact h_arg1

set_option maxHeartbeats 1000000 in
/-- Stretch 10: the deviation terms summed over the bones of each row whose mask is all zero, summed over the rows, times `0.01` over `128`, added to the coordinate term. -/
theorem stretch10 (VK : Valuation KernelIdeal.τ KernelIdeal.sig (Elt Ideal)) (VR : Valuation ReferenceIdeal.τ ReferenceIdeal.sig (Elt Ideal))
    (h : Agree10 VK VR) : Agree11 (after (KernelIdeal.Gen.hostOps1_10 (F := Ideal)) VK) (after (ReferenceIdeal.Hand.tailOps10 (F := Ideal)) VR) := by
  obtain ⟨h_v22, h_v122, h_arg1⟩ := h
  show _ = _
  after_results_simp; rw [h_v22, h_v122, h_arg1] <;> rfl

/-- From contents that agree on what the closing lines read — the gathered values, the mask, the targets, the 2-d
    coordinates and the four constant tables — the two programs' closing lines leave the same result. -/
theorem tails_agree (VK : Valuation Cert.KernelIdeal.τ Cert.KernelIdeal.sig (Elt Ideal))
    (VR : Valuation Cert.ReferenceIdeal.τ Cert.ReferenceIdeal.sig (Elt Ideal))
    (h0 : (VK (Proc.devRef .tc Cert.KernelIdeal.main_v0) : FVec Ideal Cert.KernelIdeal.S128x16 .f32) = VR (Proc.devRef .tc Cert.ReferenceIdeal.main_v2))
    (h1 : (VK (Proc.devRef .tc Cert.KernelIdeal.main_arg1) : IVec Cert.KernelIdeal.S128x16 32) = VR (Proc.devRef .tc Cert.ReferenceIdeal.main_arg1))
    (h3 : (VK (Proc.devRef .tc Cert.KernelIdeal.main_arg3) : FVec Ideal Cert.KernelIdeal.S128x16x1 .f32) = VR (Proc.devRef .tc Cert.ReferenceIdeal.main_arg3))
    (h4 : (VK (Proc.devRef .tc Cert.KernelIdeal.main_arg4) : FVec Ideal Cert.KernelIdeal.S128x32 .f32) = VR (Proc.devRef .tc Cert.ReferenceIdeal.main_arg4))
    (hc : (VK (Proc.devRef .tc Cert.KernelIdeal.main_c) : IVec Cert.KernelIdeal.S12 32) = VR (Proc.devRef .tc Cert.ReferenceIdeal.main_c))
    (hc0 : (VK (Proc.devRef .tc Cert.KernelIdeal.main_c_0) : IVec Cert.KernelIdeal.S12 32) = VR (Proc.devRef .tc Cert.ReferenceIdeal.main_c_0))
    (hc1 : (VK (Proc.devRef .tc Cert.KernelIdeal.main_c_1) : IVec Cert.KernelIdeal.S12 32) = VR (Proc.devRef .tc Cert.ReferenceIdeal.main_c_1))
    (hcst : (VK (Proc.devRef .tc Cert.KernelIdeal.main_cst) : FVec Ideal Cert.KernelIdeal.S12 .f32) = VR (Proc.devRef .tc Cert.ReferenceIdeal.main_cst)) :
    (after kTail.flatten VK (Proc.devRef .tc Cert.KernelIdeal.main_v132) : FVec Ideal Cert.KernelIdeal.S_ .f32)
      = after (Cert.ReferenceIdeal.Hand.tailOps (F := Ideal)).flatten VR (Proc.devRef .tc Cert.ReferenceIdeal.main_v134) := by
  have h : Agree0 VK VR := ⟨h0, h1, h3, h4, hc, hc0, hc1, hcst⟩
  rw [show kTail.flatten = _ from rfl, after_flatten11, show (Cert.ReferenceIdeal.Hand.tailOps (F := Ideal)).flatten = _ from rfl, after_flatten11]
  exact stretch10 _ _ (stretch9 _ _ (stretch8 _ _ (stretch7 _ _ (stretch6 _ _ (stretch5 _ _ (stretch4 _ _ (stretch3 _ _
    (stretch2 _ _ (stretch1 _ _ (stretch0 VK VR h))))))))))

end Cert.Tails

end
-- ==== Proof.PreDecode.lean ====
/-
  The precondition, read back: its last two conjuncts say that every index, as a signed number, is at least zero and
  below `16 · 128 · 128`.
-/
import proofs.«417907_j30227979829940_1_alg».proof.Pre_finite_inputs
import proofs.«417907_j30227979829940_1_alg».proof.Proof.Gen.Pre_finite_inputs
import proofs.«417907_j30227979829940_1_alg».proof.Proof.Spec
import Idealize.ShloMosaic.Lib.StableHlo.Predicate
import Idealize.ShloMosaic.Lib.ReduceAll

noncomputable section

namespace Cert.PreRead

open Idealize.ShloMosaic

/-- A shape of rank zero has one index. -/
instance : Subsingleton Cert.Pre_finite_inputs.S_.Idx := ⟨fun a b => funext fun d => d.elim0⟩

/-- Where the precondition holds, every index is a position of the flattened slab. -/
theorem inrange_of_pre [Cert.Pre_finite_inputs.Facts] {F : FTy → Type} [FloatOps F]
    (a0 : FVec F Cert.Pre_finite_inputs.S128x16x128x128 .f32) (a1 : IVec Cert.Pre_finite_inputs.S128x16 32)
    (a2 : IVec Cert.Pre_finite_inputs.S128x16 32) (a3 : FVec F Cert.Pre_finite_inputs.S128x16x1 .f32)
    (a4 : FVec F Cert.Pre_finite_inputs.S128x32 .f32)
    (h : Cert.Pre_finite_inputs.fn (F := F) a0 a1 a2 a3 a4 = fun _ => 1#1) : Cert.Spec.InRange a2 := by
  intro i
  -- the printed function at its one index, opened: a conjunction of five "all" words
  have e := congrFun h ValueIdx.ix0
  dsimp only [Cert.Pre_finite_inputs.fn, Cert.Pre_finite_inputs.fn_part1] at e
  simp only [andi, IntOp.andi_eq_one] at e
  obtain ⟨⟨-, hge⟩, hlt⟩ := e
  -- each "all" holds at index `i`; the compared word there is the constant, whatever the index
  have hge' : IntOp.cmpi .sge (a2 i) 0#32 = 1#1 := Host.reduce_andi_all _ _ _ _ _ hge i
  have hlt' : IntOp.cmpi .slt (a2 i) 262144#32 = 1#1 := Host.reduce_andi_all _ _ _ _ _ hlt i
  rw [IntOp.cmpi_sge] at hge'
  rw [IntOp.cmpi_slt] at hlt'
  have z : (0#32 : BitVec 32).toInt = 0 := by decide
  have k : (262144#32 : BitVec 32).toInt = 262144 := by decide
  rw [z] at hge'
  rw [k] at hlt'
  exact ⟨hge', hlt'⟩

end Cert.PreRead

end
-- ==== Proof.lean ====
/-
  The kernel gathers, for every batch row and query, one element of the row's feature slab by comparing every
  element's flat position with the query's index and summing the matches; the reference transposes, flattens and
  gathers.  Where every index is a position of the slab (the precondition's last two conjuncts) both give the same
  `[128, 16]` array of gathered values, and from there the two programs run the same closing lines (the masked
  smooth-L1 term plus the bone-length variance term) on the same operands, so their scalar results agree as extended
  reals.  The frames: the kernel's program is constant tables, one pipelined region and the closing lines; the
  reference is a straight line; neither writes an argument array.  The ideal pass rewrote nothing, so the
  idealization is the kernel's own text and `preserves` is trivial.
-/
import proofs.«417907_j30227979829940_1_alg».proof.Defs
import proofs.«417907_j30227979829940_1_alg».proof.Proof.Gen.Kernel
import proofs.«417907_j30227979829940_1_alg».proof.Proof.Gen.KernelIdeal
import proofs.«417907_j30227979829940_1_alg».proof.Proof.Gen.ReferenceIdeal
import proofs.«417907_j30227979829940_1_alg».proof.Proof.Gen.Pre_finite_inputs
import proofs.«417907_j30227979829940_1_alg».proof.Proof.WRun
import proofs.«417907_j30227979829940_1_alg».proof.Proof.KRun
import proofs.«417907_j30227979829940_1_alg».proof.Proof.KConsts
import proofs.«417907_j30227979829940_1_alg».proof.Proof.KValue
import proofs.«417907_j30227979829940_1_alg».proof.Proof.RefRun
import proofs.«417907_j30227979829940_1_alg».proof.Proof.RefHead
import proofs.«417907_j30227979829940_1_alg».proof.Proof.RefValue
import proofs.«417907_j30227979829940_1_alg».proof.Proof.Tails
import proofs.«417907_j30227979829940_1_alg».proof.Proof.PreDecode

set_option maxRecDepth 16384

noncomputable section

namespace Cert.Proof

open Idealize.ShloMosaic Idealize.ShloMosaic.TcCoe Idealize.SL.Sem Idealize.ShloMosaic.StableHlo

/-! ## The three frames -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-! ## The results agree -/

section Value

open Cert.KernelIdeal Cert.KernelIdeal.Gen Cert.KernelIdeal.Hand

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The kernel program's buffer contents when its closing lines start: the region's arrays as the write-backs left
    them, everything else as the region found it. -/
abbrev closeK (c : Dev nD) : Valuation τ sig (Elt Ideal) :=
  Pipeline.withArrays spec0 c (V0 m c) fun w => (dats m 0 c).arrAt w cfg0.N

/-- The reference's buffer contents when its closing lines start. -/
abbrev closeR (c : Dev Cert.ReferenceIdeal.nD) : Valuation Cert.ReferenceIdeal.τ Cert.ReferenceIdeal.sig (Elt Ideal) :=
  after (Cert.ReferenceIdeal.Hand.headOps (F := Ideal)) (launchContents m' c)

/-- From memories that agree on the five arguments, with every index in range, the reference's result is the kernel
    program's. -/
theorem result_eq (c : Dev nD)
    (hin : Cert.Spec.InRange (m ((c : Thread nD τ).loc main_arg2)))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    after (Cert.ReferenceIdeal.Hand.ops (F := Ideal)) (launchContents m' c) (Proc.devRef .tc Cert.ReferenceIdeal.main_v134)
      = Pipeline.afterTail₀ cfgs (dats m) 0 (V0 m) tailOps c main_v132 := by
  have hinR : Cert.Spec.InRange (launchContents m' c (Proc.devRef .tc Cert.ReferenceIdeal.main_arg2)) := by
    have e : launchContents m' c (Proc.devRef .tc Cert.ReferenceIdeal.main_arg2) = m ((c.tc : Thread nD τ).loc main_arg2) := h2
    rw [e]; exact hin
  -- the gathered values
  have g0 : (closeK m c (Proc.devRef .tc main_v0) : FVec Ideal S128x16 .f32)
      = closeR m' c (Proc.devRef .tc Cert.ReferenceIdeal.main_v2) := by
    have eK : closeK m c (Proc.devRef .tc main_v0) = (dats m 0 c).arrAt 2 cfg0.N :=
      Pipeline.withArrays_arr spec0 launch0.win.arr_inj c _ _ 2
    have eR := Cert.ReferenceIdeal.Hand.head_pred (launchContents m' c) hinR
    have e0 : launchContents m' c (Proc.devRef .tc Cert.ReferenceIdeal.main_arg0) = m ((c.tc : Thread nD τ).loc main_arg0) := h0
    have e2 : launchContents m' c (Proc.devRef .tc Cert.ReferenceIdeal.main_arg2) = m ((c.tc : Thread nD τ).loc main_arg2) := h2
    rw [e0, e2] at eR
    exact (eK.trans (final m c hin)).trans eR.symm
  -- the mask, the targets and the 2-d coordinates: written by nothing before the closing lines
  have g1 : (closeK m c (Proc.devRef .tc main_arg1) : IVec S128x16 32) = closeR m' c (Proc.devRef .tc Cert.ReferenceIdeal.main_arg1) :=
    ((Pipeline.withArrays_of_ne spec0 c (V0 m c) _ main_arg1 (by decide)).trans (V_main_arg1 m c)).trans
      ((Cert.ReferenceIdeal.Hand.head_arg1 (launchContents m' c)).trans h1).symm
  have g3 : (closeK m c (Proc.devRef .tc main_arg3) : FVec Ideal S128x16x1 .f32) = closeR m' c (Proc.devRef .tc Cert.ReferenceIdeal.main_arg3) :=
    ((Pipeline.withArrays_of_ne spec0 c (V0 m c) _ main_arg3 (by decide)).trans (V_main_arg3 m c)).trans
      ((Cert.ReferenceIdeal.Hand.head_arg3 (launchContents m' c)).trans h3).symm
  have g4 : (closeK m c (Proc.devRef .tc main_arg4) : FVec Ideal S128x32 .f32) = closeR m' c (Proc.devRef .tc Cert.ReferenceIdeal.main_arg4) :=
    ((Pipeline.withArrays_of_ne spec0 c (V0 m c) _ main_arg4 (by decide)).trans (V_main_arg4 m c)).trans
      ((Cert.ReferenceIdeal.Hand.head_arg4 (launchContents m' c)).trans h4).symm
  -- the four constant tables: the same literals in both programs
  have gc : (closeK m c (Proc.devRef .tc main_c) : IVec S12 32) = closeR m' c (Proc.devRef .tc Cert.ReferenceIdeal.main_c) :=
    ((Pipeline.withArrays_of_ne spec0 c (V0 m c) _ main_c (by decide)).trans (V_main_c m c)).trans
      (Cert.ReferenceIdeal.Hand.head_c (launchContents m' c)).symm
  have gc0 : (closeK m c (Proc.devRef .tc main_c_0) : IVec S12 32) = closeR m' c (Proc.devRef .tc Cert.ReferenceIdeal.main_c_0) :=
    ((Pipeline.withArrays_of_ne spec0 c (V0 m c) _ main_c_0 (by decide)).trans (V_main_c_0 m c)).trans
      (Cert.ReferenceIdeal.Hand.head_c_0 (launchContents m' c)).symm
  have gc1 : (closeK m c (Proc.devRef .tc main_c_1) : IVec S12 32) = closeR m' c (Proc.devRef .tc Cert.ReferenceIdeal.main_c_1) :=
    ((Pipeline.withArrays_of_ne spec0 c (V0 m c) _ main_c_1 (by decide)).trans (V_main_c_1 m c)).trans
      (Cert.ReferenceIdeal.Hand.head_c_1 (launchContents m' c)).symm
  have gcst : (closeK m c (Proc.devRef .tc main_cst) : FVec Ideal S12 .f32) = closeR m' c (Proc.devRef .tc Cert.ReferenceIdeal.main_cst) :=
    ((Pipeline.withArrays_of_ne spec0 c (V0 m c) _ main_cst (by decide)).trans (V_main_cst m c)).trans
      (Cert.ReferenceIdeal.Hand.head_cst (launchContents m' c)).symm
  have hR : after (Cert.ReferenceIdeal.Hand.ops (F := Ideal)) (launchContents m' c) (Proc.devRef .tc Cert.ReferenceIdeal.main_v134)
      = after (Cert.ReferenceIdeal.Hand.tailOps (F := Ideal)).flatten (closeR m' c) (Proc.devRef .tc Cert.ReferenceIdeal.main_v134) :=
    congrFun (Cert.ReferenceIdeal.Hand.after_append _ _ _) _
  exact hR.trans (Cert.Tails.tails_agree (closeK m c) (closeR m' c) g0 g1 g3 g4 gc gc0 gc1 gcst).symm

end Value

/-! ## The claims -/

/-- The ideal pass rewrote no operation. -/
theorem preserves : Cert.preserves_Kernel_KernelIdeal := trivial

open Cert.KernelIdeal Cert.KernelIdeal.Gen Cert.KernelIdeal.Hand in
/-- Both idealized programs run; the kernel program's result is what its closing lines leave, and the reference's
    result is the same extended real. -/
theorem algebraic : Cert.algebraic_KernelIdeal_ReferenceIdeal := by
  intro m ρ m' ρ' hpre hagree
  have hin : ∀ c : Dev nD, Cert.Spec.InRange (m ((c : Thread nD τ).loc main_arg2)) := fun c =>
    Cert.PreRead.inrange_of_pre _ _ _ _ _ (hpre c)
  refine ⟨fun c => Pipeline.afterTail₀ cfgs (dats m) 0 (V0 m) tailOps c main_v132, ?_, ?_⟩
  · refine (θ_run defs _ _).mono (fun r h c => ?_) (run_main m ρ)
    exact ⟨(h c).2 main_v132 (Pipeline.mem_restRefs_of main_v132 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩
  · refine (θ_run Cert.ReferenceIdeal.defs _ _).mono (fun r h c => ?_) (Cert.ReferenceIdeal.Hand.run_main m' ρ')
    exact ⟨(h c Cert.ReferenceIdeal.main_v134).trans
        (result_eq m m' c (hin c) (hagree c).1 (hagree c).2.1 (hagree c).2.2.1 (hagree c).2.2.2.1 (hagree c).2.2.2.2),
      (h c Cert.ReferenceIdeal.main_arg0).trans (Cert.ReferenceIdeal.Hand.arg0_kept _),
      (h c Cert.ReferenceIdeal.main_arg1).trans (Cert.ReferenceIdeal.Hand.arg1_kept _),
      (h c Cert.ReferenceIdeal.main_arg2).trans (Cert.ReferenceIdeal.Hand.arg2_kept _),
      (h c Cert.ReferenceIdeal.main_arg3).trans (Cert.ReferenceIdeal.Hand.arg3_kept _),
      (h c Cert.ReferenceIdeal.main_arg4).trans (Cert.ReferenceIdeal.Hand.arg4_kept _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
